-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.truncf_extf.Statement Cert.KernelIdeal.S256x10112 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x640000 : Shape := ⟨2, ![2, 640000]⟩
abbrev S128x128 : Shape := ⟨2, ![128, 128]⟩
abbrev S_ : Shape := ⟨0, ![]⟩
abbrev S1x640000 : Shape := ⟨2, ![1, 640000]⟩
abbrev S640000 : Shape := ⟨1, ![640000]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  slices_S2x640000_S1x640000_0_0 : S2x640000.Slices ![0, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part1 {F : FTy → Type} [FloatOps F] (main_arg1 : IVec S2x640000 32) (main_v13 : IVec S_ 1) (main_v15 : IVec S640000 32) (main_v16 : IVec S640000 32) : IVec S_ 1 :=
  let main_v17 : IVec S640000 1 := cmpi .sge main_v15 main_v16
  let main_v18 : IVec S1x640000 32 := (extractStridedSlice S1x640000 ![0, 0] · slices_S2x640000_S1x640000_0_0) main_arg1
  let main_v19 : IVec S640000 32 := shapeCast S640000 main_v18 shapeCasts_S1x640000_S640000
  let main_c_5 : IVec S_ 32 := constantI S_ 32 10000#32
  let main_v20 : IVec S640000 32 := broadcastInDim S640000 ![] bcast_S_S640000 main_c_5
  let main_v21 : IVec S640000 1 := cmpi .slt main_v19 main_v20
  let main_v22 : IVec S640000 1 := andi main_v17 main_v21
  let main_c_6 : IVec S_ 1 := constantI S_ 1 1#1
  let main_v23 : IVec S_ 1 := (fun x v => Host.reduce IntOp.andi x v reducesTo_S640000_S_d0 h_S_) main_v22 main_c_6
  let main_v24 : IVec S_ 1 := andi main_v13 main_v23
  main_v24

def fn {F : FTy → Type} [FloatOps F] (main_arg0 : FVec F S10000x128 .f32) (main_arg1 : IVec S2x640000 32) (main_arg2 : FVec F S128x128 .f32) (main_arg3 : FVec F S128x128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : IVec S1x640000 32 := (extractStridedSlice S1x640000 ![0, 0] · slices_S2x640000_S1x640000_0_0) main_arg1
  let main_v15 : IVec S640000 32 := shapeCast S640000 main_v14 shapeCasts_S1x640000_S640000
  let main_c_4 : IVec S_ 32 := constantI S_ 32 0#32
  let main_v16 : IVec S640000 32 := broadcastInDim S640000 ![] bcast_S_S640000 main_c_4
  fn_part1 (F := F) main_arg1 main_v13 main_v15 main_v16
-- ==== Kernel.lean ====
abbrev S10000x128 : Shape := ⟨2, ![10000, 128]⟩
abbrev S2x640000 : Shape := ⟨2, ![2, 640000]⟩
abbrev S128x128 : Shape := ⟨2, ![128, 128]⟩
abbrev S_ : Shape := ⟨0, ![]⟩
abbrev S10112x128 : Shape := ⟨2, ![10112, 128]⟩
abbrev S1x640000 : Shape := ⟨2, ![1, 640000]⟩
abbrev S640000 : Shape := ⟨1, ![640000]⟩
abbrev S640000x1 : Shape := ⟨2, ![640000, 1]⟩
abbrev S2x10112x128 : Shape := ⟨3, ![2, 10112, 128]⟩
abbrev S2x1x10112 : Shape := ⟨3, ![2, 1, 10112]⟩
abbrev S256x1 : Shape := ⟨2, ![256, 1]⟩
abbrev S1x10112x128 : Shape := ⟨3, ![1, 10112, 128]⟩
abbrev S1x1x10112 : Shape := ⟨3, ![1, 1, 10112]⟩
abbrev S1x10112 : Shape := ⟨2, ![1, 10112]⟩
abbrev S256x10112 : Shape := ⟨2, ![256, 10112]⟩
abbrev S256x128 : Shape := ⟨2, ![256, 128]⟩
abbrev S10112 : Shape := ⟨1, ![10112]⟩
abbrev S10112x1 : Shape := ⟨2, ![10112, 1]⟩
abbrev S128x1 : Shape := ⟨2, ![128, 1]⟩

abbrev nBuf : Space → Nat
  | .hbm => 27
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S_, .i32⟩
  | .hbm, ⟨5, _⟩ => ⟨S_, .f32⟩
  | .hbm, ⟨6, _⟩ => ⟨S10112x128, .f32⟩
  | .hbm, ⟨7, _⟩ => ⟨S10112x128, .bf16⟩
  | .hbm, ⟨8, _⟩ => ⟨S1x640000, .i32⟩
  | .hbm, ⟨9, _⟩ => ⟨S640000, .i32⟩
  | .hbm, ⟨10, _⟩ => ⟨S640000x1, .i32⟩
  | .hbm, ⟨11, _⟩ => ⟨S1x640000, .i32⟩
  | .hbm, ⟨12, _⟩ => ⟨S640000, .i32⟩
  | .hbm, ⟨13, _⟩ => ⟨S640000x1, .i32⟩
  | .hbm, ⟨14, _⟩ => ⟨S2x10112x128, .f32⟩
  | .hbm, ⟨15, _⟩ => ⟨S2x1x10112, .f32⟩
  | .hbm, ⟨16, _⟩ => ⟨S_, .f32⟩
  | .hbm, ⟨17, _⟩ => ⟨S10112x128, .f32⟩
  | .hbm, ⟨18, _⟩ => ⟨S_, .f32⟩
  | .hbm, ⟨19, _⟩ => ⟨S1x10112, .f32⟩
  | .hbm, ⟨20, _⟩ => ⟨S10112x1, .f32⟩
  | .hbm, ⟨21, _⟩ => ⟨S128x128, .f32⟩
  | .hbm, ⟨22, _⟩ => ⟨S128x128, .bf16⟩
  | .hbm, ⟨23, _⟩ => ⟨S128x128, .f32⟩
  | .hbm, ⟨24, _⟩ => ⟨S128x128, .bf16⟩
  | .hbm, ⟨25, _⟩ => ⟨S10112x128, .f32⟩
  | .hbm, ⟨26, _⟩ => ⟨S10000x128, .f32⟩
  | .local _ .vmem, ⟨0, _⟩ => ⟨S256x1, .i32⟩
  | .local _ .vmem, ⟨1, _⟩ => ⟨S256x1, .i32⟩
  | .local _ .vmem, ⟨2, _⟩ => ⟨S256x1, .i32⟩
  | .local _ .vmem, ⟨3, _⟩ => ⟨S256x1, .i32⟩
  | .local _ .vmem, ⟨4, _⟩ => ⟨S10112x128, .bf16⟩
  | .local _ .vmem, ⟨5, _⟩ => ⟨S1x10112x128, .f32⟩
  | .local _ .vmem, ⟨6, _⟩ => ⟨S1x1x10112, .f32⟩
  | .local _ .vmem, ⟨7, _⟩ => ⟨S10112x128, .f32⟩
  | .local _ .vmem, ⟨8, _⟩ => ⟨S1x10112, .f32⟩
  | .local _ .vmem, ⟨9, _⟩ => ⟨S128x128, .f32⟩
  | .local _ .vmem, ⟨10, _⟩ => ⟨S128x128, .f32⟩
  | .local _ .vmem, ⟨11, _⟩ => ⟨S128x1, .f32⟩
  | .local _ .vmem, ⟨12, _⟩ => ⟨S128x1, .f32⟩
  | .local _ .vmem, ⟨13, _⟩ => ⟨S128x128, .bf16⟩
  | .local _ .vmem, ⟨14, _⟩ => ⟨S128x128, .bf16⟩
  | .local _ .vmem, ⟨15, _⟩ => ⟨S128x128, .bf16⟩
  | .local _ .vmem, ⟨16, _⟩ => ⟨S128x128, .bf16⟩
  | .local _ .vmem, ⟨17, _⟩ => ⟨S128x128, .f32⟩
  | .local _ .vmem, ⟨18, _⟩ => ⟨S128x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_cst : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 1250], ![false, false]⟩

def k0_cond2 (i : grid0.Coords) : BitVec 1 :=
  let arg1 : BitVec 32 := BitVec.ofNat 32 (i 1).val
  let c1249_i32 : BitVec 32 := 1249#32
  let v38 : BitVec 1 := Scalar.cmpi .eq arg1 c1249_i32
  let v39 : BitVec 32 := Scalar.extui v38
  let c0_i32_16 : BitVec 32 := 0#32
  let v40 : BitVec 1 := Scalar.cmpi .ne v39 c0_i32_16
  v40

def cc0_transform_0 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10112x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x10112x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x1x10112 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨1, ![79], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  pads_S10000x128_S10112x128_01120_000 : S10000x128.Pads (![0, 0] : Fin 2 → Nat) ![112, 0] ![0, 0] S10112x128
  h_S_ : 0 < S_.numel
  bitsLt_bf16_f32 : FTy.bits .bf16 < FTy.bits .f32
  slices_S2x640000_S1x640000_0_0 : S2x640000.Slices ![0, 0] S1x640000
  shapeCasts_S1x640000_S640000 : S1x640000.ShapeCasts S640000
  shapeCasts_S640000_S640000x1 : S640000.ShapeCasts S640000x1
  slices_S2x640000_S1x640000_1_0 : S2x640000.Slices ![1, 0] S1x640000
  inb_S10112x128_S10112x128_0_0 : ∀ a, (![0, 0] : Fin 2 → Nat) a + S10112x128.size a ≤ S10112x128.size a
  h_S10112x128 : 0 < S10112x128.numel
  shapeCasts_S10112x128_S10112x128 : S10112x128.ShapeCasts S10112x128
  inb_S1x10112_S1x10112_0_0 : ∀ a, (![0, 0] : Fin 2 → Nat) a + S1x10112.size a ≤ S1x10112.size a
  h_S1x10112 : 0 < S1x10112.numel
  shapeCasts_S1x10112_S1x10112 : S1x10112.ShapeCasts S1x10112
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x10112_d1_w32 : S1x10112.Iotas .tc 32 [1]
  broadcasts_S256x1_S256x10112 : S256x1.Broadcasts S256x10112
  broadcasts_S1x10112_S256x10112 : S1x10112.Broadcasts S256x10112
  natLt_1_32 : 1 < 32
  reduces_S256x10112_S10112 : S256x10112.Reduces [0] S10112
  shapeCasts_S10112_S1x10112 : S10112.ShapeCasts S1x10112
  inb_S1x10112x128_S1x10112x128_0_0_0 : ∀ a, (![0, 0, 0] : Fin 3 → Nat) a + S1x10112x128.size a ≤ S1x10112x128.size a
  h_S1x10112x128 : 0 < S1x10112x128.numel
  shapeCasts_S1x10112x128_S10112x128 : S1x10112x128.ShapeCasts S10112x128
  shapeCasts_S10112x128_S1x10112x128 : S10112x128.ShapeCasts S1x10112x128
  inb_S1x1x10112_S1x1x10112_0_0_0 : ∀ a, (![0, 0, 0] : Fin 3 → Nat) a + S1x1x10112.size a ≤ S1x1x10112.size a
  h_S1x1x10112 : 0 < S1x1x10112.numel
  shapeCasts_S1x1x10112_S1x10112 : S1x1x10112.ShapeCasts S1x10112
  shapeCasts_S1x10112_S1x1x10112 : S1x10112.ShapeCasts S1x1x10112
  reducesTo_S2x10112x128_S10112x128_d0 : S2x10112x128.ReducesTo [0] S10112x128
  reducesTo_S2x1x10112_S1x10112_d0 : S2x1x10112.ReducesTo [0] S1x10112
  transposes_S1x10112_S10112x1_1_0 : S1x10112.Transposes [1, 0] S10112x1
  transposes_S128x128_S128x128_1_0 : S128x128.Transposes [1, 0] S128x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S128x1_S128x128 : S128x1.Broadcasts S128x128
  slices_S10112x128_S10000x128_0_0 : S10112x128.Slices ![0, 0] S10000x128
  dot_S256x10112_S10112x128_S256x128_1_0_0_1_n_n_wf : DotDims.WF S256x10112 S10112x128 S256x128 [1] [0] [0] [1] [] []
  dot_S256x10112_S256x128_S10112x128_0_0_1_1_n_n_wf : DotDims.WF S256x10112 S256x128 S10112x128 [0] [0] [1] [1] [] []
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S640000x1.size a
  hwx0_0 : ∀ i : grid0.Coords, EltTy.bits .i32 = 32 ∨ (Rect.block (s := S640000x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S640000x1.size a
  hwx0_1 : ∀ i : grid0.Coords, EltTy.bits .i32 = 32 ∨ (Rect.block (s := S640000x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10112x128.size a ≤ S10112x128.size a
  hwx0_2 : ∀ i : grid0.Coords, EltTy.bits .bf16 = 32 ∨ (Rect.block (s := S10112x128) S10112x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10112x128.size a ≤ S2x10112x128.size a
  hwx0_3 : ∀ i : grid0.Coords, EltTy.bits .f32 = 32 ∨ (Rect.block (s := S2x10112x128) S1x10112x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1x10112.size a ≤ S2x1x10112.size a
  hwx0_4 : ∀ i : grid0.Coords, EltTy.bits .f32 = 32 ∨ (Rect.block (s := S2x1x10112) S1x1x10112.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S10112x128.size a
  hwx1_0 : ∀ i : grid1.Coords, EltTy.bits .f32 = 32 ∨ (Rect.block (s := S10112x128) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S10112x1.size a
  hwx1_1 : ∀ i : grid1.Coords, EltTy.bits .f32 = 32 ∨ (Rect.block (s := S10112x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S10112x128.size a
  hwx1_2 : ∀ i : grid1.Coords, EltTy.bits .bf16 = 32 ∨ (Rect.block (s := S10112x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S10112x128.size a
  hwx1_5 : ∀ i : grid1.Coords, EltTy.bits .f32 = 32 ∨ (Rect.block (s := S10112x128) S128x128.size (cc1_transform_5 i) (hinb1_5 i)).WholeWords (EltTy.packing .f32)

variable [Facts₀]

def dot_S256x10112_S10112x128_S256x128_1_0_0_1_n_n : DotDims S256x10112 S10112x128 S256x128 where
  lhsContracting := [1]
  rhsContracting := [0]
  lhsNonContracting := [0]
  rhsNonContracting := [1]
  lhsBatch := []
  rhsBatch := []
  wf := dot_S256x10112_S10112x128_S256x128_1_0_0_1_n_n_wf
def dot_S256x10112_S256x128_S10112x128_0_0_1_1_n_n : DotDims S256x10112 S256x128 S10112x128 where
  lhsContracting := [0]
  rhsContracting := [0]
  lhsNonContracting := [1]
  rhsNonContracting := [1]
  lhsBatch := []
  rhsBatch := []
  wf := dot_S256x10112_S256x128_S10112x128_0_0_1_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_v4) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10112x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x10112x128.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x1x10112.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v9) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S128x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S10000x128 : Shape := ⟨2, ![10000, 128]⟩
abbrev S2x640000 : Shape := ⟨2, ![2, 640000]⟩
abbrev S128x128 : Shape := ⟨2, ![128, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩

abbrev nBuf : Space → Nat
  | .hbm => 41
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S2x640000, .i32⟩
  | .hbm, ⟨2, _⟩ => ⟨S128x128, .f32⟩
  | .hbm, ⟨3, _⟩ => ⟨S128x128, .f32⟩
  | .hbm, ⟨4, _⟩ => ⟨S1x640000, .i32⟩
  | .hbm, ⟨5, _⟩ => ⟨S640000, .i32⟩
  | .hbm, ⟨6, _⟩ => ⟨S1x640000, .i32⟩
  | .hbm, ⟨7, _⟩ => ⟨S640000, .i32⟩
  | .hbm, ⟨8, _⟩ => ⟨S_, .i32⟩
  | .hbm, ⟨9, _⟩ => ⟨S640000, .i32⟩
  | .hbm, ⟨10, _⟩ => ⟨S640000, .i1⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S640000, .i32⟩
  | .hbm, ⟨15, _⟩ => ⟨S640000x1, .i32⟩
  | .hbm, ⟨16, _⟩ => ⟨S640000x128, .f32⟩
  | .hbm, ⟨17, _⟩ => ⟨S_, .f32⟩
  | .hbm, ⟨18, _⟩ => ⟨S10000x128, .f32⟩
  | .hbm, ⟨19, _⟩ => ⟨S640000x1, .i32⟩
  | .hbm, ⟨20, _⟩ => ⟨S10000x128, .f32⟩
  | .hbm, ⟨21, _⟩ => ⟨S_, .f32⟩
  | .hbm, ⟨22, _⟩ => ⟨S640000, .f32⟩
  | .hbm, ⟨23, _⟩ => ⟨S_, .f32⟩
  | .hbm, ⟨24, _⟩ => ⟨S10000, .f32⟩
  | .hbm, ⟨25, _⟩ => ⟨S640000x1, .i32⟩
  | .hbm, ⟨26, _⟩ => ⟨S10000, .f32⟩
  | .hbm, ⟨27, _⟩ => ⟨S_, .f32⟩
  | .hbm, ⟨28, _⟩ => ⟨S10000, .f32⟩
  | .hbm, ⟨29, _⟩ => ⟨S10000, .i1⟩
  | .hbm, ⟨30, _⟩ => ⟨S_, .f32⟩
  | .hbm, ⟨31, _⟩ => ⟨S10000, .f32⟩
  | .hbm, ⟨32, _⟩ => ⟨S10000, .f32⟩
  | .hbm, ⟨33, _⟩ => ⟨S10000x1, .f32⟩
  | .hbm, ⟨34, _⟩ => ⟨S10000x128, .f32⟩
  | .hbm, ⟨35, _⟩ => ⟨S10000x128, .f32⟩
  | .hbm, ⟨36, _⟩ => ⟨S128x128, .f32⟩
  | .hbm, ⟨37, _⟩ => ⟨S10000x128, .f32⟩
  | .hbm, ⟨38, _⟩ => ⟨S128x128, .f32⟩
  | .hbm, ⟨39, _⟩ => ⟨S10000x128, .f32⟩
  | .hbm, ⟨40, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  transposes_S128x128_S128x128_1_0 : S128x128.Transposes [1, 0] S128x128
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.Spec.lean ====
/-
  The function both programs compute, written once over the argument arrays at the ideal instance.

  A graph with 10000 nodes and 640000 directed edges: row 0 of the edge array holds each edge's source node, row 1 its
  destination. Every edge carries its source's feature row to its destination, where the rows are added up; each node's
  sum is divided by the number of edges that end there (by one where none does), and the result is the normalised sum
  times the transpose of `W` plus the node's own features times the transpose of `B`.

  The sums are stated over an arbitrary set of edges, so that the partial sums a tiled computation holds after some
  tiles and the whole sum are instances of one definition.
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨2, ![10000, 128]⟩
abbrev SE : Shape := ⟨2, ![2, 640000]⟩
abbrev SW : Shape := ⟨2, ![128, 128]⟩

/-- The node a 32-bit word names: its signed value, clamped into the node range. For a word in `[0, 10000)` it is the
    word's own value. -/
def node (w : BitVec 32) : Fin 10000 := ⟨min w.toInt.toNat 9999, by omega⟩

theorem node_val_of_lt {w : BitVec 32} (h0 : 0 ≤ w.toInt) (h1 : w.toInt < 10000) : ((node w).val : ℤ) = w.toInt := by
  unfold node; simp only; omega

/-- Edge `e`'s source word and destination word. -/
def src (ei : SE.Idx → BitVec 32) (e : Fin 640000) : BitVec 32 := ei (ix2 (0 : Fin 2) e)
def dst (ei : SE.Idx → BitVec 32) (e : Fin 640000) : BitVec 32 := ei (ix2 (1 : Fin 2) e)

/-- The feature `f` edge `e` carries: its source node's. -/
def msg (x : SX.Idx → EReal) (ei : SE.Idx → BitVec 32) (e : Fin 640000) (f : Fin 128) : EReal :=
  x (ix2 (node (src ei e)) f)

/-- Feature `f` summed over the edges of `S` that end at node number `n` (an edge whose destination word is no node
    number ends nowhere). -/
def aggOn (S : Finset (Fin 640000)) (x : SX.Idx → EReal) (ei : SE.Idx → BitVec 32) (n : ℕ) (f : Fin 128) : EReal :=
  ∑ e ∈ S, if (dst ei e).toInt = (n : ℤ) then msg x ei e f else 0

/-- The number of edges of `S` that end at node number `n`, as an extended real. -/
def degOn (S : Finset (Fin 640000)) (ei : SE.Idx → BitVec 32) (n : ℕ) : EReal :=
  ∑ e ∈ S, if (dst ei e).toInt = (n : ℤ) then (1 : EReal) else 0

/-- The divisor: the count, or one where the count is zero — spelt with the comparison, the selection and the two
    literals (0.0 and 1.0) both programs use. -/
def degSafe (d : EReal) : EReal :=
  Scalar.select (Ideal.cmp .oeq d (Ideal.ofBits .f32 0x00000000#32)) (Ideal.ofBits .f32 0x3F800000#32) d

/-- The result at node `n`, output feature `o`. -/
def out (x : SX.Idx → EReal) (ei : SE.Idx → BitVec 32) (W B : SW.Idx → EReal) (n : Fin 10000) (o : Fin 128) : EReal :=
  (∑ f : Fin 128, Ideal.div (aggOn Finset.univ x ei n.val f) (degSafe (degOn Finset.univ ei n.val)) * W (ix2 o f))
    + ∑ f : Fin 128, x (ix2 n f) * B (ix2 o f)

/-- The result array. -/
def G (x : SX.Idx → EReal) (ei : SE.Idx → BitVec 32) (W B : SW.Idx → EReal) : SX.Idx → EReal :=
  fun i => out x ei W B ⟨(i 0).val, idx2_lt0 i⟩ ⟨(i 1).val, idx2_lt1 i⟩

/-- What the precondition says of the edge array and the float arrays, as plain facts. -/
structure PreFacts (x : SX.Idx → EReal) (ei : SE.Idx → BitVec 32) (W B : SW.Idx → EReal) : Prop where
  src_lo : ∀ e, 0 ≤ (src ei e).toInt
  src_hi : ∀ e, (src ei e).toInt < 10000
  x_fin : ∀ i, ∃ r : ℝ, x i = (r : EReal)
  W_fin : ∀ i, ∃ r : ℝ, W i = (r : EReal)
  B_fin : ∀ i, ∃ r : ℝ, B i = (r : EReal)

end Cert.Spec

end
-- ==== Proof.Pre.lean ====
/-
  The printed precondition, read back as plain facts: every entry of the three float arrays has an absolute value strictly
  below +∞, hence is a real; every word of row 0 of the edge array is, read signed, at least 0 and below 10000.
-/
import proofs.«420882_j76914274337236_3_alg».proof.Proof.Spec
import proofs.«420882_j76914274337236_3_alg».proof.Pre_finite_inputs
import proofs.«420882_j76914274337236_3_alg».proof.Proof.Gen.Pre_finite_inputs
import Idealize.ShloMosaic.Lib.ReduceAll
import Idealize.ShloMosaic.Lib.StableHlo.Predicate
import Idealize.ShloMosaic.Lib.Pipeline.Value
import Idealize.ShloMosaic.Lib.ValueIdx

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- The pattern 0x7F800000 denotes +∞. -/
theorem inf_eq_top : Ideal.ofBits .f32 0x7F800000#32 = (⊤ : EReal) := by
  simp [Ideal.ofBits, Ideal.ieee]

/-- An extended real whose absolute value lies strictly below +∞ is a real. -/
theorem real_of_abs_lt (x : EReal) (h : Ideal.cmp .olt (max x (-x)) (Ideal.ofBits .f32 0x7F800000#32) = 1#1) :
    ∃ r : ℝ, x = (r : EReal) := by
  rw [inf_eq_top] at h
  induction x using EReal.rec with
  | bot => exact absurd h (by simp [Ideal.cmp])
  | coe r => exact ⟨r, rfl⟩
  | top => exact absurd h (by simp [Ideal.cmp])

/-- A word that compares signed-at-least 0 has a non-negative signed value. -/
theorem toInt_nonneg_of_sge (w : BitVec 32) (h : IntOp.cmpi .sge w (0#32) = 1#1) : 0 ≤ w.toInt := by
  unfold IntOp.cmpi at h
  rw [StableHlo.Predicate.ofBool_eq_one_iff] at h
  simp only [BitVec.sle, decide_eq_true_eq] at h
  have h0 : (0#32 : BitVec 32).toInt = 0 := by decide
  omega

/-- A word that compares signed-below 10000 has a signed value below 10000. -/
theorem toInt_lt_of_slt (w : BitVec 32) (h : IntOp.cmpi .slt w (10000#32) = 1#1) : w.toInt < 10000 := by
  unfold IntOp.cmpi at h
  rw [StableHlo.Predicate.ofBool_eq_one_iff] at h
  simp only [BitVec.slt, decide_eq_true_eq] at h
  have h0 : (10000#32 : BitVec 32).toInt = 10000 := by decide
  omega

variable [Cert.Pre_finite_inputs.Facts]

/-- Row 0 of the edge array, sliced out and flattened, reads at `e` the array at (0, e). -/
theorem row0_apply (ei : IVec S2x640000 32) (e : Fin 640000) :
    shapeCast S640000 (extractStridedSlice S1x640000 ![0, 0] ei Facts.slices_S2x640000_S1x640000_0_0)
        Facts.shapeCasts_S1x640000_S640000 (ix1 e) = ei (ix2 (0 : Fin 2) e) := by
  refine (shapeCast_apply _ Facts.shapeCasts_S1x640000_S640000 (ix1 e) (ix2 (0 : Fin 1) e) ?_).trans ?_
  · rewrite [Shape.rowMajor_val_two, Shape.rowMajor_val_one]
    show 0 * 640000 + e.val = e.val
    omega
  · exact extractStridedSlice_apply ![0, 0] ei Facts.slices_S2x640000_S1x640000_0_0 (ix2 (0 : Fin 1) e) (ix2 (0 : Fin 2) e)
      (fun a => match a with
        | ⟨0, _⟩ => by show (0 : ℕ) = 0 + 0; omega
        | ⟨1, _⟩ => by show e.val = 0 + e.val; omega)

/-- THE PRECONDITION DECODED. -/
theorem preFacts
    (x : FVec Ideal Cert.Pre_finite_inputs.S10000x128 .f32) (ei : IVec Cert.Pre_finite_inputs.S2x640000 32)
    (W B : FVec Ideal Cert.Pre_finite_inputs.S128x128 .f32)
    (h : Cert.Pre_finite_inputs.fn (F := Ideal) x ei W B = fun _ => 1#1) : Cert.Spec.PreFacts x ei W B := by
  have h0 := congrFun h ix0
  dsimp only [Cert.Pre_finite_inputs.fn, Cert.Pre_finite_inputs.fn_part1] at h0
  have h1 : ∀ (a b : IVec S_ 1), andi a b ix0 = IntOp.andi (a ix0) (b ix0) := fun _ _ => rfl
  rw [h1, IntOp.andi_eq_one, h1, IntOp.andi_eq_one, h1, IntOp.andi_eq_one] at h0
  obtain ⟨⟨⟨hx, hW⟩, hB⟩, hE⟩ := h0
  have hx' := fun i => Host.reduce_andi_all _ _ _ _ ix0 hx i
  have hW' := fun i => Host.reduce_andi_all _ _ _ _ ix0 hW i
  have hB' := fun i => Host.reduce_andi_all _ _ _ _ ix0 hB i
  have hE' := fun e : Fin 640000 => Host.reduce_andi_all _ _ _ _ ix0 hE (ix1 e)
  have hEe : ∀ e : Fin 640000, IntOp.cmpi .sge (ei (ix2 (0 : Fin 2) e)) (0#32) = 1#1
      ∧ IntOp.cmpi .slt (ei (ix2 (0 : Fin 2) e)) (10000#32) = 1#1 := fun e => by
    have he := hE' e
    rw [← row0_apply ei e]
    exact IntOp.andi_eq_one.1 he
  exact
    { src_lo := fun e => toInt_nonneg_of_sge _ (hEe e).1
      src_hi := fun e => toInt_lt_of_slt _ (hEe e).2
      x_fin := fun i => real_of_abs_lt (x i) (hx' i)
      W_fin := fun i => real_of_abs_lt (W i) (hW' i)
      B_fin := fun i => real_of_abs_lt (B i) (hB' i) }

end Cert.PreDecode

end
-- ==== Proof.RefVal.lean ====
/-
  The reference program's result, at the ideal instance, is the specification: the source words pass the wrap-around of
  negative indices unchanged (they are not negative), the gather reads each edge's source row (the gather's clamp is the
  specification's), each accumulating scatter is the sum over the edges whose destination word reads the row (an update
  lands on row `n` exactly when its signed index word is `n`; a word that is no row number lands nowhere), and the divide,
  the two contractions and the final sum read index by index.
-/
import proofs.«420882_j76914274337236_3_alg».proof.Proof.Spec
import proofs.«420882_j76914274337236_3_alg».proof.Proof.RefRead
import Idealize.ShloMosaic.Lib.ValueIdx
import Idealize.ShloMosaic.Lib.Pipeline.Value
import Idealize.ShloMosaic.PureOps.Ideal.Laws
import Idealize.ShloMosaic.Lib.ValueLayout

noncomputable section

open scoped BigOperators

namespace Cert.RefVal

open Cert.ReferenceIdeal Cert.ReferenceIdeal.Gen Cert.ReferenceIdeal.ReadP Idealize.ShloMosaic Idealize.ShloMosaic.ValueIdx Cert.Spec

/-- Row 0 of the edge array, flattened, at edge `e` is the edge's source word. -/
theorem src_read (ei : SE.Idx → BitVec 32) (e : Fin 640000) :
    val_main_v1 (F := Ideal) ei (ix1 e) = src ei e := by
  rw [val_main_v1_apply, val_main_v0_apply]
  unfold src
  congr 1
  funext a
  refine Fin.ext ?_
  match a with
  | ⟨0, _⟩ => rfl
  | ⟨1, _⟩ => exact Nat.mod_eq_of_lt e.isLt

/-- Row 1 of the edge array, flattened, at edge `e` is the edge's destination word. -/
theorem dst_read (ei : SE.Idx → BitVec 32) (e : Fin 640000) :
    val_main_v3 (F := Ideal) ei (ix1 e) = dst ei e := by
  rw [val_main_v3_apply, val_main_v2_apply]
  unfold dst
  congr 1
  funext a
  refine Fin.ext ?_
  match a with
  | ⟨0, _⟩ => rfl
  | ⟨1, _⟩ => exact Nat.mod_eq_of_lt e.isLt

/-- A source word that is not negative passes the wrap-around of negative indices unchanged. -/
theorem wrap_read (ei : SE.Idx → BitVec 32) (e : Fin 640000) (h0 : 0 ≤ (src ei e).toInt) :
    val_main_v8 (F := Ideal) ei (ix1 e) = src ei e := by
  rw [val_main_v8_apply, val_main_v5_apply, val_main_v4_apply, val_main_c_apply, src_read]
  have hc : IntOp.cmpi .slt (src ei e) 0#32 = 0#1 := by
    unfold IntOp.cmpi
    simp only [BitVec.slt, BitVec.toInt_zero]
    rw [decide_eq_false (by omega)]
    rfl
  rw [hc, select_zero]

/-- The gather's row coordinate: the start word at `(e, 0)`, read signed and clamped into the operand's rows. -/
theorem gather_ax0 (idx : IVec S640000x1 32) (e : Fin 640000) (f : Fin 128) :
    (gather_S10000x128_S640000x1_S640000x128_1_0_n_n_0_1_1128.operandIdx (ix2 e f) idx 0).val
      = min (idx (ix2 e (0 : Fin 1))).toInt.toNat 9999 := by
  show gather_S10000x128_S640000x1_S640000x128_1_0_n_n_0_1_1128.start (ix2 e f) idx 0
      + gather_S10000x128_S640000x1_S640000x128_1_0_n_n_0_1_1128.batchCoord (ix2 e f) 0
      + gather_S10000x128_S640000x1_S640000x128_1_0_n_n_0_1_1128.offCoord (ix2 e f) 0 = _
  rw [GatherDims.batchCoord_eq_zero _ _ _ (by decide),
    GatherDims.offCoord_eq_zero _ _ _ (by decide)]
  simp only [Nat.add_zero]
  unfold GatherDims.start
  rw [dif_pos (show (0 : Fin S10000x128.rank) ∈ gather_S10000x128_S640000x1_S640000x128_1_0_n_n_0_1_1128.startIndexMap by decide)]
  have hsi : gather_S10000x128_S640000x1_S640000x128_1_0_n_n_0_1_1128.siIdx (ix2 e f)
      ⟨List.idxOf (0 : Fin S10000x128.rank) gather_S10000x128_S640000x1_S640000x128_1_0_n_n_0_1_1128.startIndexMap,
        List.idxOf_lt_length_iff.2 (by decide)⟩ = ix2 e (0 : Fin 1) := by
    funext b; refine Fin.ext ?_
    match b with
    | ⟨0, _⟩ => rfl
    | ⟨1, _⟩ => rfl
  rw [hsi]
  rfl

/-- The gather's column coordinate: the result's own column. -/
theorem gather_ax1 (idx : IVec S640000x1 32) (e : Fin 640000) (f : Fin 128) :
    (gather_S10000x128_S640000x1_S640000x128_1_0_n_n_0_1_1128.operandIdx (ix2 e f) idx 1).val = f.val := by
  show gather_S10000x128_S640000x1_S640000x128_1_0_n_n_0_1_1128.start (ix2 e f) idx 1
      + gather_S10000x128_S640000x1_S640000x128_1_0_n_n_0_1_1128.batchCoord (ix2 e f) 1
      + gather_S10000x128_S640000x1_S640000x128_1_0_n_n_0_1_1128.offCoord (ix2 e f) 1 = _
  rw [GatherDims.batchCoord_eq_zero _ _ _ (by decide)]
  unfold GatherDims.start GatherDims.offCoord
  rw [dif_neg (show ¬(1 : Fin S10000x128.rank) ∈ gather_S10000x128_S640000x1_S640000x128_1_0_n_n_0_1_1128.startIndexMap by decide),
    dif_pos (show (1 : Fin S10000x128.rank) ∈ gather_S10000x128_S640000x1_S640000x128_1_0_n_n_0_1_1128.sKept by decide),
    Nat.zero_add]
  rfl

/-- The scatter into the `[10000, 128]` operand: where the update at `(e, f')` lands. Row: the index word at `(e, 0)` read
    signed; column: the update's own column. -/
theorem scat2_start0 (idx : IVec S640000x1 32) (e : Fin 640000) (f' : Fin 128) :
    scatter_S10000x128_S640000x1_S640000x128_1_0_0_1.start (ix2 e f') idx 0 = (idx (ix2 e (0 : Fin 1))).toInt := by
  unfold ScatterDims.start
  rw [dif_pos (show (0 : Fin S10000x128.rank) ∈ scatter_S10000x128_S640000x1_S640000x128_1_0_0_1.scatterDimsToOperandDims by decide)]
  have hsi : scatter_S10000x128_S640000x1_S640000x128_1_0_0_1.siIdx (ix2 e f')
      ⟨List.idxOf (0 : Fin S10000x128.rank) scatter_S10000x128_S640000x1_S640000x128_1_0_0_1.scatterDimsToOperandDims,
        List.idxOf_lt_length_iff.2 (by decide)⟩ = ix2 e (0 : Fin 1) := by
    funext b; refine Fin.ext ?_
    match b with
    | ⟨0, _⟩ => rfl
    | ⟨1, _⟩ => rfl
  rw [hsi]

theorem scat2_start1 (idx : IVec S640000x1 32) (e : Fin 640000) (f' : Fin 128) :
    scatter_S10000x128_S640000x1_S640000x128_1_0_0_1.start (ix2 e f') idx 1 = 0 := by
  unfold ScatterDims.start
  rw [dif_neg (show ¬(1 : Fin S10000x128.rank) ∈ scatter_S10000x128_S640000x1_S640000x128_1_0_0_1.scatterDimsToOperandDims by decide)]

theorem scat2_window0 (e : Fin 640000) (f' : Fin 128) :
    scatter_S10000x128_S640000x1_S640000x128_1_0_0_1.window (ix2 e f') 0 = 0 := by
  unfold ScatterDims.window
  rw [dif_neg (show ¬(0 : Fin S10000x128.rank) ∈ scatter_S10000x128_S640000x1_S640000x128_1_0_0_1.sKept by decide)]

theorem scat2_window1 (e : Fin 640000) (f' : Fin 128) :
    scatter_S10000x128_S640000x1_S640000x128_1_0_0_1.window (ix2 e f') 1 = f'.val := by
  unfold ScatterDims.window
  rw [dif_pos (show (1 : Fin S10000x128.rank) ∈ scatter_S10000x128_S640000x1_S640000x128_1_0_0_1.sKept by decide)]
  rfl

/-- The update at `(e, f')` lands on `(n, f)` exactly when the index word of `e` reads `n` and `f' = f`. -/
theorem scat2_lands (idx : IVec S640000x1 32) (e : Fin 640000) (f' : Fin 128) (n : Fin 10000) (f : Fin 128) :
    scatter_S10000x128_S640000x1_S640000x128_1_0_0_1.resultIdx? (ix2 e f') idx = some (ix2 n f)
      ↔ (idx (ix2 e (0 : Fin 1))).toInt = (n.val : ℤ) ∧ f' = f := by
  unfold ScatterDims.resultIdx?
  split
  · rename_i h
    rw [Option.some.injEq]
    constructor
    · intro hg
      have h0 := congrArg (fun g => (g 0).val) hg
      have h1 := congrArg (fun g => (g 1).val) hg
      simp only [scat2_start0, scat2_start1, scat2_window0, scat2_window1] at h0 h1
      have hh0 := (h 0).1
      rw [scat2_start0, scat2_window0] at hh0
      refine ⟨?_, Fin.ext ?_⟩
      · have : ((idx (ix2 e (0 : Fin 1))).toInt + ((0 : ℕ) : ℤ)).toNat = n.val := h0
        omega
      · have : ((0 : ℤ) + ((f'.val : ℕ) : ℤ)).toNat = f.val := h1
        omega
    · rintro ⟨hn, rfl⟩
      funext a
      refine Fin.ext ?_
      match a with
      | ⟨0, _⟩ =>
        show (scatter_S10000x128_S640000x1_S640000x128_1_0_0_1.start (ix2 e f') idx 0
          + scatter_S10000x128_S640000x1_S640000x128_1_0_0_1.window (ix2 e f') 0).toNat = n.val
        rw [scat2_start0, scat2_window0, hn]; omega
      | ⟨1, _⟩ =>
        show (scatter_S10000x128_S640000x1_S640000x128_1_0_0_1.start (ix2 e f') idx 1
          + scatter_S10000x128_S640000x1_S640000x128_1_0_0_1.window (ix2 e f') 1).toNat = f'.val
        rw [scat2_start1, scat2_window1]; omega
  · rename_i h
    constructor
    · intro hc; exact absurd hc (by simp)
    · rintro ⟨hn, rfl⟩
      refine absurd (fun a => ?_) h
      match a with
      | ⟨0, _⟩ =>
        show 0 ≤ scatter_S10000x128_S640000x1_S640000x128_1_0_0_1.start (ix2 e f') idx 0
            + scatter_S10000x128_S640000x1_S640000x128_1_0_0_1.window (ix2 e f') 0
          ∧ scatter_S10000x128_S640000x1_S640000x128_1_0_0_1.start (ix2 e f') idx 0
            + scatter_S10000x128_S640000x1_S640000x128_1_0_0_1.window (ix2 e f') 0 < ((10000 : ℕ) : ℤ)
        rw [scat2_start0, scat2_window0, hn]; have := n.isLt; omega
      | ⟨1, _⟩ =>
        show 0 ≤ scatter_S10000x128_S640000x1_S640000x128_1_0_0_1.start (ix2 e f') idx 1
            + scatter_S10000x128_S640000x1_S640000x128_1_0_0_1.window (ix2 e f') 1
          ∧ scatter_S10000x128_S640000x1_S640000x128_1_0_0_1.start (ix2 e f') idx 1
            + scatter_S10000x128_S640000x1_S640000x128_1_0_0_1.window (ix2 e f') 1 < ((128 : ℕ) : ℤ)
        rw [scat2_start1, scat2_window1]; have := f'.isLt; omega

/-- The scatter into the `[10000]` operand: the update at `e` starts at the index word at `(e, 0)` read signed … -/
theorem scat1_start0 (idx : IVec S640000x1 32) (e : Fin 640000) :
    scatter_S10000_S640000x1_S640000_n_0_0_1.start (ix1 e) idx 0 = (idx (ix2 e (0 : Fin 1))).toInt := by
  unfold ScatterDims.start
  rw [dif_pos (show (0 : Fin S10000.rank) ∈ scatter_S10000_S640000x1_S640000_n_0_0_1.scatterDimsToOperandDims by decide)]
  have hsi : scatter_S10000_S640000x1_S640000_n_0_0_1.siIdx (ix1 e)
      ⟨List.idxOf (0 : Fin S10000.rank) scatter_S10000_S640000x1_S640000_n_0_0_1.scatterDimsToOperandDims,
        List.idxOf_lt_length_iff.2 (by decide)⟩ = ix2 e (0 : Fin 1) := by
    funext b; refine Fin.ext ?_
    match b with
    | ⟨0, _⟩ => rfl
    | ⟨1, _⟩ => rfl
  rw [hsi]

/-- … and has no window. -/
theorem scat1_window0 (e : Fin 640000) :
    scatter_S10000_S640000x1_S640000_n_0_0_1.window (ix1 e) 0 = 0 := by
  unfold ScatterDims.window
  rw [dif_neg (show ¬(0 : Fin S10000.rank) ∈ scatter_S10000_S640000x1_S640000_n_0_0_1.sKept by decide)]

/-- The update at `e` lands on `n` exactly when the index word of `e` reads `n`. -/
theorem scat1_lands (idx : IVec S640000x1 32) (e : Fin 640000) (n : Fin 10000) :
    scatter_S10000_S640000x1_S640000_n_0_0_1.resultIdx? (ix1 e) idx = some (ix1 n)
      ↔ (idx (ix2 e (0 : Fin 1))).toInt = (n.val : ℤ) := by
  unfold ScatterDims.resultIdx?
  split
  · rename_i h
    rw [Option.some.injEq]
    constructor
    · intro hg
      have h0 := congrArg (fun g => (g 0).val) hg
      simp only [scat1_start0, scat1_window0] at h0
      have hh0 := (h 0).1
      rw [scat1_start0, scat1_window0] at hh0
      have : ((idx (ix2 e (0 : Fin 1))).toInt + ((0 : ℕ) : ℤ)).toNat = n.val := h0
      omega
    · intro hn
      funext a
      refine Fin.ext ?_
      match a with
      | ⟨0, _⟩ =>
        show (scatter_S10000_S640000x1_S640000_n_0_0_1.start (ix1 e) idx 0
          + scatter_S10000_S640000x1_S640000_n_0_0_1.window (ix1 e) 0).toNat = n.val
        rw [scat1_start0, scat1_window0, hn]; omega
  · rename_i h
    constructor
    · intro hc; exact absurd hc (by simp)
    · intro hn
      refine absurd (fun a => ?_) h
      match a with
      | ⟨0, _⟩ =>
        show 0 ≤ scatter_S10000_S640000x1_S640000_n_0_0_1.start (ix1 e) idx 0
            + scatter_S10000_S640000x1_S640000_n_0_0_1.window (ix1 e) 0
          ∧ scatter_S10000_S640000x1_S640000_n_0_0_1.start (ix1 e) idx 0
            + scatter_S10000_S640000x1_S640000_n_0_0_1.window (ix1 e) 0 < ((10000 : ℕ) : ℤ)
        rw [scat1_start0, scat1_window0, hn]; have := n.isLt; omega

/-- A rank-1 index set is its coordinate range: a sum over it is the sum over the coordinate. -/
theorem sum_idx1 {M : Type*} [AddCommMonoid M] {n0 : Nat} (g : (⟨1, ![n0]⟩ : Shape).Idx → M) :
    ∑ i, g i = ∑ a : Fin n0, g (ix1 a) := by
  refine (Equiv.sum_comp (⟨fun a => ix1 a, fun i => i 0, fun _ => rfl, fun i => (eq_ix1 i).symm⟩ :
    Fin n0 ≃ (⟨1, ![n0]⟩ : Shape).Idx) g).symm

/-- The accumulating scatter into the `[10000, 128]` operand at `(n, f)`: the operand's element plus the updates of column
    `f` over the edges whose index word reads `n`. -/
theorem scat2_apply (z : S10000x128.Idx → EReal) (idx : IVec S640000x1 32) (upd : S640000x128.Idx → EReal)
    (n : Fin 10000) (f : Fin 128) :
    Ideal.hostScatterAdd scatter_S10000x128_S640000x1_S640000x128_1_0_0_1 z idx upd (ix2 n f)
      = z (ix2 n f) + ∑ e : Fin 640000, if (idx (ix2 e (0 : Fin 1))).toInt = (n.val : ℤ) then upd (ix2 e f) else 0 := by
  unfold Ideal.hostScatterAdd
  refine congrArg (z (ix2 n f) + ·) ?_
  rw [Finset.sum_filter, sum_idx2]
  refine Finset.sum_congr rfl fun e _ => ?_
  simp only [scat2_lands]
  by_cases hA : (idx (ix2 e (0 : Fin 1))).toInt = (n.val : ℤ)
  · simp only [hA, true_and]
    rw [Finset.sum_ite_eq' Finset.univ f (fun f' => upd (ix2 e f'))]
    simp
  · simp only [hA, false_and, if_false, Finset.sum_const_zero]

/-- The accumulating scatter into the `[10000]` operand at `n`: the operand's element plus the updates over the edges whose
    index word reads `n`. -/
theorem scat1_apply (z : S10000.Idx → EReal) (idx : IVec S640000x1 32) (upd : S640000.Idx → EReal) (n : Fin 10000) :
    Ideal.hostScatterAdd scatter_S10000_S640000x1_S640000_n_0_0_1 z idx upd (ix1 n)
      = z (ix1 n) + ∑ e : Fin 640000, if (idx (ix2 e (0 : Fin 1))).toInt = (n.val : ℤ) then upd (ix1 e) else 0 := by
  unfold Ideal.hostScatterAdd
  refine congrArg (z (ix1 n) + ·) ?_
  rw [Finset.sum_filter, sum_idx1]
  refine Finset.sum_congr rfl fun e _ => ?_
  simp only [scat1_lands]

/-- The gather at `(e, f)` is the feature edge `e` carries. -/
theorem gather_read (x : SX.Idx → EReal) (ei : SE.Idx → BitVec 32) (e : Fin 640000) (f : Fin 128)
    (h0 : 0 ≤ (src ei e).toInt) :
    val_main_v10 (F := Ideal) x ei (ix2 e f) = msg x ei e f := by
  unfold val_main_v10 Host.gather msg
  refine congrArg x ?_
  funext a
  refine Fin.ext ?_
  match a with
  | ⟨0, _⟩ =>
    refine (gather_ax0 _ e f).trans ?_
    rw [val_main_v9_apply]
    have hi : idx_main_v9 (ix2 e (0 : Fin 1)) = ix1 e :=
      funext fun b => Fin.ext (by match b with | ⟨0, _⟩ => rfl)
    rw [hi, wrap_read ei e h0]
    rfl
  | ⟨1, _⟩ => exact gather_ax1 _ e f

/-- The index column of the first scatter at `(e, 0)` is the edge's destination word. -/
theorem dstcol12_read (ei : SE.Idx → BitVec 32) (e : Fin 640000) :
    val_main_v12 (F := Ideal) ei (ix2 e (0 : Fin 1)) = dst ei e := by
  rw [val_main_v12_apply]
  have hi : idx_main_v12 (ix2 e (0 : Fin 1)) = ix1 e :=
    funext fun b => Fin.ext (by match b with | ⟨0, _⟩ => rfl)
  rw [hi, dst_read]

/-- The index column of the second scatter at `(e, 0)` is the edge's destination word. -/
theorem dstcol16_read (ei : SE.Idx → BitVec 32) (e : Fin 640000) :
    val_main_v16 (F := Ideal) ei (ix2 e (0 : Fin 1)) = dst ei e := by
  rw [val_main_v16_apply]
  have hi : idx_main_v16 (ix2 e (0 : Fin 1)) = ix1 e :=
    funext fun b => Fin.ext (by match b with | ⟨0, _⟩ => rfl)
  rw [hi, dst_read]

/-- The word 0x3F800000 encodes one. -/
theorem ofBits_one_f32 : Ideal.ofBits .f32 0x3F800000#32 = 1 := by
  simp [Ideal.ofBits, Ideal.ieee, -EReal.coe_mul]; norm_num

/-- At the ideal instance the accumulating scatter is the exact sum of the updates that land on each element. -/
theorem scatterAdd_ideal {s si u : Shape} {w : Nat} (d : ScatterDims s si u) (z : FVec Ideal s .f32) (idx : IVec si w)
    (upd : FVec Ideal u .f32) : Host.scatterAdd (F := Ideal) d z idx upd = Ideal.hostScatterAdd d z idx upd := rfl

/-- The segment sum of the messages at `(n, f)` is the specification's sum over all edges. -/
theorem agg_read (x : SX.Idx → EReal) (ei : SE.Idx → BitVec 32) (hlo : ∀ e, 0 ≤ (src ei e).toInt)
    (n : Fin 10000) (f : Fin 128) :
    val_main_v13 (F := Ideal) x ei (ix2 n f) = aggOn Finset.univ x ei n.val f := by
  unfold val_main_v13
  rw [scatterAdd_ideal, scat2_apply, val_main_v11_apply, val_main_cst_apply, Ideal.ofBits_def, Ideal.ofBits_zero_f32, zero_add]
  unfold aggOn
  refine Finset.sum_congr rfl fun e _ => ?_
  rw [dstcol12_read, gather_read x ei e f (hlo e)]

/-- The segment sum of ones at `n` is the specification's count over all edges. -/
theorem deg_read (ei : SE.Idx → BitVec 32) (n : Fin 10000) :
    val_main_v17 (F := Ideal) ei (ix1 n) = degOn Finset.univ ei n.val := by
  unfold val_main_v17
  rw [scatterAdd_ideal, scat1_apply, val_main_v15_apply, val_main_cst_2_apply, Ideal.ofBits_def, Ideal.ofBits_zero_f32, zero_add]
  unfold degOn
  refine Finset.sum_congr rfl fun e _ => ?_
  rw [dstcol16_read, val_main_v14_apply, val_main_cst_1_apply, Ideal.ofBits_def, ofBits_one_f32]

/-- The divisor at `n`: the count, or one where the count is zero. -/
theorem degsafe_read (ei : SE.Idx → BitVec 32) (n : Fin 10000) :
    val_main_v20 (F := Ideal) ei (ix1 n) = degSafe (degOn Finset.univ ei n.val) := by
  rw [val_main_v20_apply, val_main_v19_apply, val_main_v18_apply, val_main_cst_3_apply, val_main_call0_v0_apply,
    val_main_cst_4_apply, deg_read]
  generalize degOn Finset.univ ei n.val = d
  unfold degSafe
  rfl

/-- The reference's result is the specification. -/
theorem ref_eq (x : Cert.Spec.SX.Idx → EReal) (ei : Cert.Spec.SE.Idx → BitVec 32) (W B : Cert.Spec.SW.Idx → EReal)
    (hp : Cert.Spec.PreFacts x ei W B) :
    Cert.ReferenceIdeal.ReadP.val_main_v28 (F := Ideal) x ei W B = Cert.Spec.G x ei W B := by
  funext i
  obtain ⟨n, o, rfl⟩ : ∃ (n : Fin 10000) (o : Fin 128), i = ix2 n o := ⟨i 0, i 1, eq_ix2 i⟩
  rw [val_main_v28_apply, val_main_v25_apply, val_main_v27_apply, Ideal.addf_def]
  show _ = out x ei W B n o
  unfold out
  have hl25 : ∀ k : Fin 128, lidx_main_v25 (ix2 n o) k = ix2 n k := fun k =>
    funext fun a => Fin.ext (by match a with | ⟨0, _⟩ => rfl | ⟨1, _⟩ => rfl)
  have hr25 : ∀ k : Fin 128, ridx_main_v25 (ix2 n o) k = ix2 k o := fun k =>
    funext fun a => Fin.ext (by match a with | ⟨0, _⟩ => rfl | ⟨1, _⟩ => rfl)
  have hl27 : ∀ k : Fin 128, lidx_main_v27 (ix2 n o) k = ix2 n k := fun k =>
    funext fun a => Fin.ext (by match a with | ⟨0, _⟩ => rfl | ⟨1, _⟩ => rfl)
  have hr27 : ∀ k : Fin 128, ridx_main_v27 (ix2 n o) k = ix2 k o := fun k =>
    funext fun a => Fin.ext (by match a with | ⟨0, _⟩ => rfl | ⟨1, _⟩ => rfl)
  have ht : ∀ k : Fin 128, idx_main_v24 (ix2 k o) = ix2 o k := fun k =>
    funext fun a => Fin.ext (by match a with | ⟨0, _⟩ => rfl | ⟨1, _⟩ => rfl)
  have ht' : ∀ k : Fin 128, idx_main_v26 (ix2 k o) = ix2 o k := fun k =>
    funext fun a => Fin.ext (by match a with | ⟨0, _⟩ => rfl | ⟨1, _⟩ => rfl)
  have h22 : ∀ k : Fin 128, idx_main_v21 (idx_main_v22 (ix2 n k)) = ix1 n := fun k =>
    funext fun a => Fin.ext (by match a with | ⟨0, _⟩ => rfl)
  refine congrArg₂ (· + ·) (Finset.sum_congr rfl fun k _ => ?_) (Finset.sum_congr rfl fun k _ => ?_)
  · rw [hl25, hr25, val_main_v24_apply, ht, val_main_v23_apply, val_main_v22_apply, val_main_v21_apply, h22,
      degsafe_read, agg_read x ei hp.src_lo, Ideal.hostDivf_def]
  · rw [hl27, hr27, val_main_v26_apply, ht']

end Cert.RefVal

end
-- ==== Proof.K.Kit0.lean ====
/-
  Region 0 (the edge-tile kernel, 2 × 1250 grid points run in row-major order): what its three control cases share.
  A point's second coordinate `i` selects the case: at `i = 0` the two accumulators are cleared before the tile is added,
  at `i = 1249` they are copied to the two output blocks after it, in between the tile is only added. The outputs'
  blocks are written back at the points `i = 1249` only and idle elsewhere; the node-feature window is fetched once.
-/
import proofs.«420882_j76914274337236_3_alg».proof.Proof.Gen.Kernel.Launch
import proofs.«420882_j76914274337236_3_alg».proof.Proof.Gen.Kernel.Skeleton
import proofs.«420882_j76914274337236_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source-word window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The destination-word window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The node-feature window's staging buffer holds the whole array at every point: fetched once, its index never moves. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two branch conditions, decided over the grid -/

/-- "This is the first tile of a core's share": the body's first conditional, from the point's coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 1250 = 0 :=
  (by decide +kernel : ∀ t : Fin grid0.N, cond0_0 (grid0.coords t) ↔ t.val % 1250 = 0)
/-- "This is the last tile of a core's share": the body's second conditional. -/
abbrev cond0_1 (i : grid0.Coords) : Prop := k0_cond2 i = 1#1
theorem hcond0_1 : ∀ t : Fin cfg0.N, cond0_1 (grid0.coords t) ↔ t.val % 1250 = 1249 :=
  (by decide +kernel : ∀ t : Fin grid0.N, cond0_1 (grid0.coords t) ↔ t.val % 1250 = 1249)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a core's last tile the two outputs are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a core's last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated. -/
abbrev VO0_3 : View sig .tc .vmem S1x10112x128 .f32 := (Memref.whole cc0_stg3_0 : Memref sig .tc .vmem S1x10112x128 .f32).view
abbrev VO0_4 : View sig .tc .vmem S1x1x10112 .f32 := (Memref.whole cc0_stg4_0 : Memref sig .tc .vmem S1x1x10112 .f32).view
/-- Each window's current staging memref at point `t`, spelt as the pipeline passes it, and its wholeness. -/
abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10112x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10112x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x10112 .f32 := win0_4.stage (cfg0.slots t 4)
abbrev hs0_4 (t : Fin cfg0.N) : (ms0_4 t).IsWhole := hstage0_4 ((cfg0.slots t 4).cast nbuf0_4)
/-- The two accumulators: whole scoped buffers of the kernel's own, carried from point to point. -/
abbrev scM0_0 : Memref sig .tc .vmem S10112x128 .f32 := Memref.whole cc0_scratch0
abbrev scM0_1 : Memref sig .tc .vmem S1x10112 .f32 := Memref.whole cc0_scratch1
abbrev VS0_0 : View sig .tc .vmem S10112x128 .f32 := scM0_0.view
abbrev VS0_1 : View sig .tc .vmem S1x10112 .f32 := scM0_1.view

/-- The scoped buffers of the core that are neither a staging buffer of this region nor one of its accumulators
    (the second region's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two accumulators as memrefs owned at some contents: what the body obligation hands the
    run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA otherScoped0; rw [scopedRest0_eq]; simp only [scM0_0, scM0_1, owns_whole]; try rfl

end Cert.Kernel.Hand

end
-- ==== Proof.K.Run0A.lean ====
/-
  Region 0's body at the first tile of a core's share: both accumulators are cleared and the tile is added to them; the
  output blocks are not touched. What each accumulator ends with is found by running the body.
-/
import proofs.«420882_j76914274337236_3_alg».proof.Proof.K.Kit0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators (last first) when the point is a core's first tile and not
    its last, with the proof that from whole memrefs — the three inputs at their contents, the two idle outputs at any
    contents (handed back untouched), the accumulators at anything — the body runs to the continuation holding the inputs
    and outputs as they were and each accumulator with its pieces written. -/
noncomputable def kernelRun0_A (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) :
    Σ' (LS0 : List (View.Piece (Elt F) S10112x128 .f32)), { LS1 : List (View.Piece (Elt F) S1x10112 .f32) //
      ∀ (xi3 : Vec F S1x10112x128 .f32) (xi4 : Vec F S1x1x10112 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, fun xi3 xi4 E K => ?run⟩
  case run =>
    simp only [cc0__kernel_a_eq_skeleton]; unfold cc0__kernel_a_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Run0B.lean ====
/-
  Region 0's body at a tile that is neither the first nor the last of a core's share: the tile is added to the two
  accumulators, which hold what the tile before left; the output blocks are not touched.
-/
import proofs.«420882_j76914274337236_3_alg».proof.Proof.K.Run0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) :
    Σ' (LS0 : List (View.Piece (Elt F) S10112x128 .f32)), { LS1 : List (View.Piece (Elt F) S1x10112 .f32) //
      ∀ (xi3 : Vec F S1x10112x128 .f32) (xi4 : Vec F S1x1x10112 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, fun xi3 xi4 E K => ?run⟩
  case run =>
    simp only [cc0__kernel_a_eq_skeleton]; unfold cc0__kernel_a_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Run0C.lean ====
/-
  Region 0's body at the last tile of a core's share: the tile is added to the two accumulators, which hold what the tile
  before left, and each accumulator is then copied whole into its output block.
-/
import proofs.«420882_j76914274337236_3_alg».proof.Proof.K.Run0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) :
    Σ' (L3 : List (View.Piece (Elt F) S1x10112x128 .f32)) (L4 : List (View.Piece (Elt F) S1x1x10112 .f32)) (LS0 : List (View.Piece (Elt F) S10112x128 .f32)), { LS1 : List (View.Piece (Elt F) S1x10112 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, ?_, fun E K => ?run⟩
  case run =>
    simp only [cc0__kernel_a_eq_skeleton]; unfold cc0__kernel_a_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.Kernel.Hand

end
-- ==== Proof.K.Dat0.lean ====
/-
  Region 0 (the edge-tile kernel on its 2 × 1250 grid, 2500 points in row-major order): the proof data and the body
  obligation. A point's second coordinate selects one of three cases — the first tile of a core's share (both
  accumulators cleared, then the tile added), a tile strictly inside the share (the tile added), the last tile (the tile
  added, then each accumulator copied whole into its output block). The two accumulators are carried from point to
  point; the two output blocks are written back at the last tile of a share only and are idle everywhere else.
  Everything is at a parameter `V`: the buffers' contents when the region is entered.
-/
import proofs.«420882_j76914274337236_3_alg».proof.Proof.K.Run0C

-- membership of an index in a stored rectangle of these extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulators and, at a share's last tile, in the output blocks -/

/-- At the first tile of a core's share (both accumulators cleared, then the tile added): the stores into the feature accumulator tile it (every store is of the whole shape), so they cover it. -/
theorem scover0_A_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) (y : S10112x128.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S10112x128.size (by sl_kernel_rfl) y

/-- What the feature accumulator holds after the body at the first tile of a core's share (both accumulators cleared, then the tile added): its stores read back (over contents that no longer matter, the stores covering it). -/
def sout0_A_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) : Vec F S10112x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).1)

/-- At the first tile of a core's share (both accumulators cleared, then the tile added): the stores into the degree accumulator tile it (every store is of the whole shape), so they cover it. -/
theorem scover0_A_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) (y : S1x10112.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S1x10112.size (by sl_kernel_rfl) y

/-- What the degree accumulator holds after the body at the first tile of a core's share (both accumulators cleared, then the tile added): its stores read back (over contents that no longer matter, the stores covering it). -/
def sout0_A_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) : Vec F S1x10112 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.1)

/-- At a tile strictly inside a core's share (the tile added to what the tile before left): the stores into the feature accumulator tile it (every store is of the whole shape), so they cover it. -/
theorem scover0_B_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) (y : S10112x128.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S10112x128.size (by sl_kernel_rfl) y

/-- What the feature accumulator holds after the body at a tile strictly inside a core's share (the tile added to what the tile before left): its stores read back (over contents that no longer matter, the stores covering it). -/
def sout0_B_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) : Vec F S10112x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).1)

/-- At a tile strictly inside a core's share (the tile added to what the tile before left): the stores into the degree accumulator tile it (every store is of the whole shape), so they cover it. -/
theorem scover0_B_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) (y : S1x10112.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1x10112.size (by sl_kernel_rfl) y

/-- What the degree accumulator holds after the body at a tile strictly inside a core's share (the tile added to what the tile before left): its stores read back (over contents that no longer matter, the stores covering it). -/
def sout0_B_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) : Vec F S1x10112 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.1)

/-- At the last tile of a core's share (the tile added, then both accumulators copied out): the stores into the feature accumulator tile it (every store is of the whole shape), so they cover it. -/
theorem scover0_C_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S10112x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S10112x128.size (by sl_kernel_rfl) y

/-- What the feature accumulator holds after the body at the last tile of a core's share (the tile added, then both accumulators copied out): its stores read back (over contents that no longer matter, the stores covering it). -/
def sout0_C_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S10112x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- At the last tile of a core's share (the tile added, then both accumulators copied out): the stores into the degree accumulator tile it (every store is of the whole shape), so they cover it. -/
theorem scover0_C_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S1x10112.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1x10112.size (by sl_kernel_rfl) y

/-- What the degree accumulator holds after the body at the last tile of a core's share (the tile added, then both accumulators copied out): its stores read back (over contents that no longer matter, the stores covering it). -/
def sout0_C_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S1x10112 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- At the last tile of a core's share (the tile added, then both accumulators copied out): the stores into the feature output block tile it (every store is of the whole shape), so they cover it. -/
theorem cover0_C_3 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S1x10112x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x10112x128.size (by sl_kernel_rfl) y

/-- What the feature output block holds after the body at the last tile of a core's share (the tile added, then both accumulators copied out): its stores read back (over contents that no longer matter, the stores covering it). -/
def out0_C_3 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S1x10112x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- At the last tile of a core's share (the tile added, then both accumulators copied out): the stores into the degree output block tile it (every store is of the whole shape), so they cover it. -/
theorem cover0_C_4 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S1x1x10112.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x1x10112.size (by sl_kernel_rfl) y

/-- What the degree output block holds after the body at the last tile of a core's share (the tile added, then both accumulators copied out): its stores read back (over contents that no longer matter, the stores covering it). -/
def out0_C_4 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S1x1x10112 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

section Region0
-- the core's buffer contents when the region is entered
variable (V : (c : Dev nD) → (b : Ref sig .tc) → Buf (Elt F) ((c : Thread nD τ).loc b))

/-! ## What the output blocks and the accumulators hold after each point -/

/-- Away from the last tile of a share the feature output block is idle: the body does not touch it, it is not written
    back, and the next point does not read it. Its entry in the point-by-point table is this placeholder, which nothing consults. -/
def idleOut0_3 : Vec F S1x10112x128 .f32 := VO0_3.read (Elt F) VO0_3.junk
/-- The same for the degree output block. -/
def idleOut0_4 : Vec F S1x1x10112 .f32 := VO0_4.read (Elt F) VO0_4.junk

/-- THE ACCUMULATION. What the two output blocks' staging buffers and the two accumulators hold after the body at
    position `n` (feature output, degree output, feature accumulator, degree accumulator): the case that `n % 1250` selects,
    run at the point's memrefs and its three input blocks; inside a share and at its last tile the accumulators enter at what
    position `n - 1` left in them. No point is both first and last of a share. -/
def outsAt0 (c : Dev nD) : (n : ℕ) → n < cfg0.N → Vec F S1x10112x128 .f32 × Vec F S1x1x10112 .f32 × Vec F S10112x128 .f32 × Vec F S1x10112 .f32
  | 0, hn => (idleOut0_3, idleOut0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 1250 = 0 then
      if h1 : (n + 1) % 1250 = 1249 then
        False.elim (by omega)
      else
        (idleOut0_3, idleOut0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 1250 = 1249 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (idleOut0_3, idleOut0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- The table at the first tile of a share: the accumulators cleared and the tile added, whatever they held. -/
theorem outsAt0_A (c : Dev nD) (t : Fin cfg0.N) (h0 : t.val % 1250 = 0) (h1 : ¬t.val % 1250 = 1249) :
    outsAt0 V c t.val t.isLt = (idleOut0_3, idleOut0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- The table at a tile strictly inside a share: the tile added to what the point before left. -/
theorem outsAt0_B (c : Dev nD) (t : Fin cfg0.N) (h0 : ¬t.val % 1250 = 0) (h1 : ¬t.val % 1250 = 1249) :
    outsAt0 V c t.val t.isLt = (idleOut0_3, idleOut0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The table at the last tile of a share: the tile added to what the point before left, then copied out. -/
theorem outsAt0_C (c : Dev nD) (t : Fin cfg0.N) (h0 : ¬t.val % 1250 = 0) (h1 : t.val % 1250 = 1249) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant before position `n`. Before the first point: every scoped buffer of the core outside this
    region's staging at some contents, and the generator register at some state. Afterwards the same, except that the two
    accumulators hold exactly what position `n - 1` left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r))

theorem PhiS_zero (c : Dev nD) (n : ℕ) (h : n ≤ cfg0.N) (hz : n = 0) : PhiS V c n h = Pipeline.ΦA spec0 c := by
  subst hz; rfl

/-- After position `n`: the accumulators at that position's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r)) := rfl

/-- Before a position that is not the first: the accumulators at what the position before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped0 c) ∗ (∃ r, prngReg c r)) := by
  cases n with
  | zero => exact absurd rfl hz
  | succ n => rfl

/-! ## The proof data -/

/-- The proof data of region 0 on core `c`: the arrays as the region finds them; after the body at point `t` each input's
    staging buffer still at its block, the two outputs' at the table's first two entries; the invariant `PhiS`; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, nothing owed, and each window's current staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns: the invariant at the next position, nothing owed, and each window's buffer at what the body leaves
    (an idle output's at what it held). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The three inputs' buffers hold their blocks; `t % 1250` says which case the point is in. At the
    first tile of a share the accumulators are handed over at whatever they hold (at the region's very first point the
    invariant knows nothing of them; at the second share's first tile it names their contents, which are forgotten), and the
    idle outputs are handed over and taken back untouched. Inside a share the accumulators enter at what the point before
    left. At the last tile the outputs are handed over at anything and come back at the copied accumulators. In every case
    each accumulator comes back at the case's stores read back, which is the table's entry for this point; the other scoped
    buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 2500 := lt_of_lt_of_eq t.isLt (show cfg0.N = 2500 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 1250 = 0
  · by_cases h1 : t.val % 1250 = 1249
    · exfalso; omega
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0 sout0_A_1; (try dsimp only)
      by_cases hz : t.val = 0
      ·
        rw [PhiS_castSucc V c t, PhiS_zero V c _ _ hz, PhiA0_eq]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        iexists _; iexact H4
      ·
        rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun hz => h0 (by rw [hz])
    by_cases h1 : t.val % 1250 = 1249
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_0 sout0_C_1; (try dsimp only)
      ·
        rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0 sout0_B_1; (try dsimp only)
      ·
        rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitr [Hg]
  · isplitl [HS0]
    · iexists _; iexact HS0
    isplitl [HS1]
    · iexists _; iexact HS1
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 2500 := N_0; omega)

end Region0

end Cert.Kernel.Hand

end
-- ==== Proof.K.Reg1.lean ====
/-
  Region 1 (the node-update kernel, 79 grid points, one per block of 128 node rows): its frame half at the contents the
  region is entered with. At point i the kernel divides the 128 x 128 block i of the aggregated features by the
  block's degree column (a zero degree replaced by one), rounds the quotient to bf16, multiplies it into the first
  weight matrix, multiplies the block i of the node features into the second weight matrix, and stores the sum of the
  two products as block i of the result. The two weight matrices are whole-array windows, fetched once.
-/
import proofs.«420882_j76914274337236_3_alg».proof.Proof.Gen.Kernel.Launch
import proofs.«420882_j76914274337236_3_alg».proof.Proof.Gen.Kernel.Skeleton
import proofs.«420882_j76914274337236_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it: rows 128 t .. 128 t + 127 of the
    aggregated features (window 0), of the degree column (window 1), of the node features (window 2) and of the result
    (window 5); the whole first and second weight matrix (windows 3 and 4) at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-feature window's staging buffer holds block t at every point t, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The degree-column window's staging buffer holds block t at every point t. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The node-feature window's staging buffer holds block t at every point t. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The first weight matrix's staging buffer holds the whole matrix at every point: fetched at the first point only,
    its block index (0, 0) never moves, so an unfetched point finds what the point before left. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The second weight matrix's staging buffer holds the whole matrix at every point, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 128 x 128 buffer as one rectangle: every load of a square window and the one store. -/
abbrev r1_sq : Rect S128x128 := Rect.unit (s := S128x128) ![0, 0] S128x128.size inb_S128x128_S128x128_0_0
/-- The whole 128 x 1 degree column as one rectangle. -/
abbrev r1_col : Rect S128x1 := Rect.unit (s := S128x1) ![0, 0] S128x1.size inb_S128x1_S128x1_0_0

/-! ## What the body leaves in the result window's buffer -/

/-- The result buffer after the body, from the five input blocks: its one store, of the whole buffer, whose payload is
    (aggregated block / guarded degree column, rounded to bf16) x first weights + node block x second weights. -/
def out1_5 (x0 : Vec F S128x128 .f32) (x1 : Vec F S128x1 .f32) (x2 x3 x4 : Vec F S128x128 .bf16) : Vec F S128x128 .f32 :=
  View.canon [⟨r1_sq, k1_pay1 (View.ld x1 r1_col) (View.ld x0 r1_sq) (View.ld x2 r1_sq) (View.ld x3 r1_sq) (View.ld x4 r1_sq)⟩]

/-- The one store is of the whole buffer (checked by evaluation), so it covers it. -/
theorem cover1_5 (p0 : r1_sq.shape.Idx → Elt F .f32) (y : S128x128.Idx) :
    ∃ pc ∈ ([⟨r1_sq, p0⟩] : List (View.Piece (Elt F) S128x128 .f32)), y ∈ pc.1.set :=
  View.cover_of_tiled [⟨r1_sq, p0⟩] S128x128.size (by rfl) y

/-! ## The body's triple -/

set_option maxHeartbeats 1000000 in
/-- The kernel body on whole staging memrefs, the five inputs' at read contents x0 .. x4 and the result's at anything
    (the body loads the result buffer once before it stores, and uses nothing of what it read), runs to the continuation
    holding the inputs' as they were and the result's at out1_5 of the inputs'. -/
theorem sound_kernel1 (c : Dev nD) (E : Set ℕ) (i : grid1.Coords)
    (arg1 : Memref sig .tc .vmem S128x128 .f32) (harg1 : arg1.IsWhole) (arg2 : Memref sig .tc .vmem S128x1 .f32) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S128x128 .f32) (harg6 : arg6.IsWhole)
    (x0 : Vec F S128x128 .f32) (x1 : Vec F S128x1 .f32) (x2 x3 x4 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel_b i arg1 harg1 arg2 harg2 arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region on core c: the arrays as the region finds them; after the body at point t each
    input's buffer still at its block, and the result's at out1_5 of the five input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks, so the body's triple applies with the result's
    memref at whatever it holds; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.K.Frame.lean ====
/-
  The whole run of the program: three stretches of host operations (padding and narrowing the node features, cutting
  the edge array into its source and destination columns), the edge-tile region, a stretch that adds the two cores'
  partial sums and transposes the weights, the node-tile region, and the final cut to the 10000 real nodes.
  The buffers' contents at every boundary are a fold from the launch memory; each region is entered from the contents
  the stretch before it leaves and leaves its arrays at what its write-backs leave; every weakly fair execution
  terminates with every unscoped buffer at the last boundary's contents.
-/
import proofs.«420882_j76914274337236_3_alg».proof.Proof.Gen.Kernel.Regions
import proofs.«420882_j76914274337236_3_alg».proof.Proof.K.Dat0
import proofs.«420882_j76914274337236_3_alg».proof.Proof.K.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the constant zero is written. -/
abbrev W1 : Dev nD → Valuation τ sig (Elt F) := fun c => StableHlo.after hostOps0 (W0 m c)
/-- After the node features are padded with 112 zero rows. -/
abbrev W2 : Dev nD → Valuation τ sig (Elt F) := fun c => StableHlo.after hostOps0_1 (W1 m c)
/-- After the padded features are narrowed and the edge array is cut into its two columns: the edge-tile region's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the edge-tile region's exit: its arrays at what its write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the two cores' partial sums are added and the weights transposed: the node-tile region's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the node-tile region's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the result is cut to the 10000 real nodes: the end. -/
abbrev W7 : Dev nD → Valuation τ sig (Elt F) := fun c => StableHlo.after hostOps2 (W6 m c)

/-- A buffer no stretch writes and no region stages reaches the end as launched. -/
theorem W7_kept (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W) :
    W7 m c (Proc.devRef .tc r) = m ((c : Thread nD τ).loc r) :=
  calc W7 m c (Proc.devRef .tc r)
    _ = W6 m c (Proc.devRef .tc r) := StableHlo.after_of_writes_sub hostOps2 _ hostOps2_writes h6
    _ = W5 m c (Proc.devRef .tc r) := W6_of_ne m c r h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W7_main_arg0 (c : Dev nD) : W7 m c (Proc.devRef .tc main_arg0) = m ((c : Thread nD τ).loc main_arg0) :=
  W7_kept m c main_arg0 (by decide) (by decide) (by decide) (by decide) (by decide) (by decide) (by decide)
theorem W7_main_arg1 (c : Dev nD) : W7 m c (Proc.devRef .tc main_arg1) = m ((c : Thread nD τ).loc main_arg1) :=
  W7_kept m c main_arg1 (by decide) (by decide) (by decide) (by decide) (by decide) (by decide) (by decide)
theorem W7_main_arg2 (c : Dev nD) : W7 m c (Proc.devRef .tc main_arg2) = m ((c : Thread nD τ).loc main_arg2) :=
  W7_kept m c main_arg2 (by decide) (by decide) (by decide) (by decide) (by decide) (by decide) (by decide)
theorem W7_main_arg3 (c : Dev nD) : W7 m c (Proc.devRef .tc main_arg3) = m ((c : Thread nD τ).loc main_arg3) :=
  W7_kept m c main_arg3 (by decide) (by decide) (by decide) (by decide) (by decide) (by decide) (by decide)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
/-- No core owes another anything. -/
abbrev Lz : GSem nD τ sig → Finset Unit := fun _ => ∅
abbrev lvz : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W7 m c) ∗ ∃ r, prngReg c r)

/-! ## The regions as segments -/

/-- The edge-tile region's class invariant gives back the generator register and the scoped buffers no window stages. -/
theorem PhiA0_split (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The edge-tile region: entered from every unscoped buffer at `W3`, left at `W4`; the generator register goes into the
    invariant and comes back; the accumulators' named contents are forgotten at the exit. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ Lz lvz 0 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact BI.Entails.trans (show (pdats m 0 c).Φ (Fin.last _) ⊢ Pipeline.ΦA spec0 c from hout0 (V3 m) c) (PhiA0_split c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node-tile region: entered from every unscoped buffer at `W5`, left at `W6`. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ Lz lvz 1 fun _ _ => rfl
  pre c := iprop(StableHlo.held (c : Thread nD τ) (Pipeline.ucRefs τ sig) (W5 m c) ∗ Rd c)
  post c := iprop(StableHlo.held (c : Thread nD τ) (Pipeline.ucRefs τ sig) (W6 m c) ∗ Rd c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m) () defs₀ 𝒱₀ Lz lvz) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- THE RUN. From any memory with zero counters, every weakly fair execution of the program on the TensorCores
    terminates, nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ Lz lvz m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ Rd c)
        ⊢ iprop(Tlast m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.Kernel.Hand

end
-- ==== Proof.KI.Kit0.lean ====
/-
  Region 0 (the edge-tile kernel, 2 × 1250 grid points run in row-major order): what its three control cases share.
  A point's second coordinate `i` selects the case: at `i = 0` the two accumulators are cleared before the tile is added,
  at `i = 1249` they are copied to the two output blocks after it, in between the tile is only added. The outputs'
  blocks are written back at the points `i = 1249` only and idle elsewhere; the node-feature window is fetched once.
-/
import proofs.«420882_j76914274337236_3_alg».proof.Proof.Gen.KernelIdeal.Launch
import proofs.«420882_j76914274337236_3_alg».proof.Proof.Gen.KernelIdeal.Skeleton
import proofs.«420882_j76914274337236_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The source-word window's staging buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The destination-word window's staging buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The node-feature window's staging buffer holds the whole array at every point: fetched once, its index never moves. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end Region0

/-! ## The two branch conditions, decided over the grid -/

/-- "This is the first tile of a core's share": the body's first conditional, from the point's coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 1250 = 0 :=
  (by decide +kernel : ∀ t : Fin grid0.N, cond0_0 (grid0.coords t) ↔ t.val % 1250 = 0)
/-- "This is the last tile of a core's share": the body's second conditional. -/
abbrev cond0_1 (i : grid0.Coords) : Prop := k0_cond2 i = 1#1
theorem hcond0_1 : ∀ t : Fin cfg0.N, cond0_1 (grid0.coords t) ↔ t.val % 1250 = 1249 :=
  (by decide +kernel : ∀ t : Fin grid0.N, cond0_1 (grid0.coords t) ↔ t.val % 1250 = 1249)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from a core's last tile the two outputs are idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
/-- At a core's last tile they are live. -/
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel

/-! ## The memrefs the body is called with -/

/-- One staging buffer of each output window, through which its contents are stated. -/
abbrev VO0_3 : View sig .tc .vmem S1x10112x128 .f32 := (Memref.whole cc0_stg3_0 : Memref sig .tc .vmem S1x10112x128 .f32).view
abbrev VO0_4 : View sig .tc .vmem S1x1x10112 .f32 := (Memref.whole cc0_stg4_0 : Memref sig .tc .vmem S1x1x10112 .f32).view
/-- Each window's current staging memref at point `t`, spelt as the pipeline passes it, and its wholeness. -/
abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10112x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x10112x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x10112 .f32 := win0_4.stage (cfg0.slots t 4)
abbrev hs0_4 (t : Fin cfg0.N) : (ms0_4 t).IsWhole := hstage0_4 ((cfg0.slots t 4).cast nbuf0_4)
/-- The two accumulators: whole scoped buffers of the kernel's own, carried from point to point. -/
abbrev scM0_0 : Memref sig .tc .vmem S10112x128 .f32 := Memref.whole cc0_scratch0
abbrev scM0_1 : Memref sig .tc .vmem S1x10112 .f32 := Memref.whole cc0_scratch1
abbrev VS0_0 : View sig .tc .vmem S10112x128 .f32 := scM0_0.view
abbrev VS0_1 : View sig .tc .vmem S1x10112 .f32 := scM0_1.view

/-- The scoped buffers of the core that are neither a staging buffer of this region nor one of its accumulators
    (the second region's staging buffers), each whole at some contents. -/
def otherScoped0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the two accumulators as memrefs owned at some contents: what the body obligation hands the
    run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ otherScoped0 c) ∗ (∃ r, prngReg c r)) := by
  unfold Pipeline.ΦA otherScoped0; rw [scopedRest0_eq]; simp only [scM0_0, scM0_1, owns_whole]; try rfl

end Cert.KernelIdeal.Hand

end
-- ==== Proof.KI.Run0A.lean ====
/-
  Region 0's body at the first tile of a core's share: both accumulators are cleared and the tile is added to them; the
  output blocks are not touched. What each accumulator ends with is found by running the body.
-/
import proofs.«420882_j76914274337236_3_alg».proof.Proof.KI.Kit0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulators (last first) when the point is a core's first tile and not
    its last, with the proof that from whole memrefs — the three inputs at their contents, the two idle outputs at any
    contents (handed back untouched), the accumulators at anything — the body runs to the continuation holding the inputs
    and outputs as they were and each accumulator with its pieces written. -/
noncomputable def kernelRun0_A (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) :
    Σ' (LS0 : List (View.Piece (Elt F) S10112x128 .f32)), { LS1 : List (View.Piece (Elt F) S1x10112 .f32) //
      ∀ (xi3 : Vec F S1x10112x128 .f32) (xi4 : Vec F S1x1x10112 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, fun xi3 xi4 E K => ?run⟩
  case run =>
    simp only [cc0__kernel_a_eq_skeleton]; unfold cc0__kernel_a_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2
    obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Run0B.lean ====
/-
  Region 0's body at a tile that is neither the first nor the last of a core's share: the tile is added to the two
  accumulators, which hold what the tile before left; the output blocks are not touched.
-/
import proofs.«420882_j76914274337236_3_alg».proof.Proof.KI.Run0A
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_B (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) :
    Σ' (LS0 : List (View.Piece (Elt F) S10112x128 .f32)), { LS1 : List (View.Piece (Elt F) S1x10112 .f32) //
      ∀ (xi3 : Vec F S1x10112x128 .f32) (xi4 : Vec F S1x1x10112 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xi4
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, fun xi3 xi4 E K => ?run⟩
  case run =>
    simp only [cc0__kernel_a_eq_skeleton]; unfold cc0__kernel_a_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Run0C.lean ====
/-
  Region 0's body at the last tile of a core's share: the tile is added to the two accumulators, which hold what the tile
  before left, and each accumulator is then copied whole into its output block.
-/
import proofs.«420882_j76914274337236_3_alg».proof.Proof.KI.Run0B
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun0_C (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) :
    Σ' (L3 : List (View.Piece (Elt F) S1x10112x128 .f32)) (L4 : List (View.Piece (Elt F) S1x1x10112 .f32)) (LS0 : List (View.Piece (Elt F) S10112x128 .f32)), { LS1 : List (View.Piece (Elt F) S1x10112 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc0__kernel_a i arg2 harg2 arg3 harg3 arg4 harg4 arg5 harg5 arg6 harg6 arg7 harg7 arg8 harg8) K } := by
  refine ⟨?_, ?_, ?_, ?_, fun E K => ?run⟩
  case run =>
    simp only [cc0__kernel_a_eq_skeleton]; unfold cc0__kernel_a_skel
    simp only [k0_part1_eq_skeleton]; unfold k0_part1_skel
    unfold owns
    iintro ⟨⟨%f0, %hf0, H0⟩, ⟨%f1, %hf1, H1⟩, ⟨%f2, %hf2, H2⟩, ⟨%d3, %f3, -, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2
    obtain rfl := harg7.eq_unread hfs0; obtain rfl := harg8.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [HS0]; · iexists _; iexact HS0
    iexists _; iexact HS1

end Cert.KernelIdeal.Hand

end
-- ==== Proof.KI.Dat0.lean ====
/-
  Region 0 (the edge-tile kernel on its 2 × 1250 grid, 2500 points in row-major order): the proof data and the body
  obligation. A point's second coordinate selects one of three cases — the first tile of a core's share (both
  accumulators cleared, then the tile added), a tile strictly inside the share (the tile added), the last tile (the tile
  added, then each accumulator copied whole into its output block). The two accumulators are carried from point to
  point; the two output blocks are written back at the last tile of a share only and are idle everywhere else.
  Everything is at a parameter `V`: the buffers' contents when the region is entered.
-/
import proofs.«420882_j76914274337236_3_alg».proof.Proof.KI.Run0C

-- membership of an index in a stored rectangle of these extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves in the accumulators and, at a share's last tile, in the output blocks -/

/-- At the first tile of a core's share (both accumulators cleared, then the tile added): the stores into the feature accumulator tile it (every store is of the whole shape), so they cover it. -/
theorem scover0_A_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) (y : S10112x128.Idx) :
    ∃ pc ∈ (kernelRun0_A c i arg2 harg2 arg3 harg3 arg4 harg4 arg5 harg5 arg6 harg6 arg7 harg7 arg8 harg8 hc0 hc1 x0 x1 x2).1, y ∈ pc.1.set :=
  View.cover_of_tiledL (kernelRun0_A c i arg2 harg2 arg3 harg3 arg4 harg4 arg5 harg5 arg6 harg6 arg7 harg7 arg8 harg8 hc0 hc1 x0 x1 x2).1 S10112x128.size (by sl_kernel_rfl) y

/-- What the feature accumulator holds after the body at the first tile of a core's share (both accumulators cleared, then the tile added): its stores read back (over contents that no longer matter, the stores covering it). -/
def sout0_A_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) : Vec F S10112x128 .f32 :=
  VS0_0.read (Elt F) (VS0_0.writes (Elt F) VS0_0.junk (kernelRun0_A c i arg2 harg2 arg3 harg3 arg4 harg4 arg5 harg5 arg6 harg6 arg7 harg7 arg8 harg8 hc0 hc1 x0 x1 x2).1)

/-- At the first tile of a core's share (both accumulators cleared, then the tile added): the stores into the degree accumulator tile it (every store is of the whole shape), so they cover it. -/
theorem scover0_A_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) (y : S1x10112.Idx) :
    ∃ pc ∈ (kernelRun0_A c i arg2 harg2 arg3 harg3 arg4 harg4 arg5 harg5 arg6 harg6 arg7 harg7 arg8 harg8 hc0 hc1 x0 x1 x2).2.1, y ∈ pc.1.set :=
  View.cover_of_tiledL (kernelRun0_A c i arg2 harg2 arg3 harg3 arg4 harg4 arg5 harg5 arg6 harg6 arg7 harg7 arg8 harg8 hc0 hc1 x0 x1 x2).2.1 S1x10112.size (by sl_kernel_rfl) y

/-- What the degree accumulator holds after the body at the first tile of a core's share (both accumulators cleared, then the tile added): its stores read back (over contents that no longer matter, the stores covering it). -/
def sout0_A_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : cond0_0 i) (hc1 : ¬cond0_1 i)
    (x0 x1 : Vec F S256x1 .i32) (x2 : Vec F S10112x128 .bf16) : Vec F S1x10112 .f32 :=
  VS0_1.read (Elt F) (VS0_1.writes (Elt F) VS0_1.junk (kernelRun0_A c i arg2 harg2 arg3 harg3 arg4 harg4 arg5 harg5 arg6 harg6 arg7 harg7 arg8 harg8 hc0 hc1 x0 x1 x2).2.1)

/-- At a tile strictly inside a core's share (the tile added to what the tile before left): the stores into the feature accumulator tile it (every store is of the whole shape), so they cover it. -/
theorem scover0_B_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) (y : S10112x128.Idx) :
    ∃ pc ∈ (kernelRun0_B c i arg2 harg2 arg3 harg3 arg4 harg4 arg5 harg5 arg6 harg6 arg7 harg7 arg8 harg8 hc0 hc1 x0 x1 x2 xs0 xs1).1, y ∈ pc.1.set :=
  View.cover_of_tiledL (kernelRun0_B c i arg2 harg2 arg3 harg3 arg4 harg4 arg5 harg5 arg6 harg6 arg7 harg7 arg8 harg8 hc0 hc1 x0 x1 x2 xs0 xs1).1 S10112x128.size (by sl_kernel_rfl) y

/-- What the feature accumulator holds after the body at a tile strictly inside a core's share (the tile added to what the tile before left): its stores read back (over contents that no longer matter, the stores covering it). -/
def sout0_B_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) : Vec F S10112x128 .f32 :=
  VS0_0.read (Elt F) (VS0_0.writes (Elt F) VS0_0.junk (kernelRun0_B c i arg2 harg2 arg3 harg3 arg4 harg4 arg5 harg5 arg6 harg6 arg7 harg7 arg8 harg8 hc0 hc1 x0 x1 x2 xs0 xs1).1)

/-- At a tile strictly inside a core's share (the tile added to what the tile before left): the stores into the degree accumulator tile it (every store is of the whole shape), so they cover it. -/
theorem scover0_B_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) (y : S1x10112.Idx) :
    ∃ pc ∈ (kernelRun0_B c i arg2 harg2 arg3 harg3 arg4 harg4 arg5 harg5 arg6 harg6 arg7 harg7 arg8 harg8 hc0 hc1 x0 x1 x2 xs0 xs1).2.1, y ∈ pc.1.set :=
  View.cover_of_tiledL (kernelRun0_B c i arg2 harg2 arg3 harg3 arg4 harg4 arg5 harg5 arg6 harg6 arg7 harg7 arg8 harg8 hc0 hc1 x0 x1 x2 xs0 xs1).2.1 S1x10112.size (by sl_kernel_rfl) y

/-- What the degree accumulator holds after the body at a tile strictly inside a core's share (the tile added to what the tile before left): its stores read back (over contents that no longer matter, the stores covering it). -/
def sout0_B_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : ¬cond0_1 i)
    (x0 x1 : Vec F S256x1 .i32) (x2 : Vec F S10112x128 .bf16) (xs0 : Vec F S10112x128 .f32) (xs1 : Vec F S1x10112 .f32) : Vec F S1x10112 .f32 :=
  VS0_1.read (Elt F) (VS0_1.writes (Elt F) VS0_1.junk (kernelRun0_B c i arg2 harg2 arg3 harg3 arg4 harg4 arg5 harg5 arg6 harg6 arg7 harg7 arg8 harg8 hc0 hc1 x0 x1 x2 xs0 xs1).2.1)

/-- At the last tile of a core's share (the tile added, then both accumulators copied out): the stores into the feature accumulator tile it (every store is of the whole shape), so they cover it. -/
theorem scover0_C_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S10112x128.Idx) :
    ∃ pc ∈ (kernelRun0_C c i arg2 harg2 arg3 harg3 arg4 harg4 arg5 harg5 arg6 harg6 arg7 harg7 arg8 harg8 hc0 hc1 x0 x1 x2 xs0 xs1).2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.1 S10112x128.size (by sl_kernel_rfl) y

/-- What the feature accumulator holds after the body at the last tile of a core's share (the tile added, then both accumulators copied out): its stores read back (over contents that no longer matter, the stores covering it). -/
def sout0_C_0 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S10112x128 .f32 :=
  VS0_0.read (Elt F) (VS0_0.writes (Elt F) VS0_0.junk (kernelRun0_C c i arg2 harg2 arg3 harg3 arg4 harg4 arg5 harg5 arg6 harg6 arg7 harg7 arg8 harg8 hc0 hc1 x0 x1 x2 xs0 xs1).2.2.1)

/-- At the last tile of a core's share (the tile added, then both accumulators copied out): the stores into the degree accumulator tile it (every store is of the whole shape), so they cover it. -/
theorem scover0_C_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S1x10112.Idx) :
    ∃ pc ∈ (kernelRun0_C c i arg2 harg2 arg3 harg3 arg4 harg4 arg5 harg5 arg6 harg6 arg7 harg7 arg8 harg8 hc0 hc1 x0 x1 x2 xs0 xs1).2.2.2.1, y ∈ pc.1.set :=
  View.cover_of_tiledL (kernelRun0_C c i arg2 harg2 arg3 harg3 arg4 harg4 arg5 harg5 arg6 harg6 arg7 harg7 arg8 harg8 hc0 hc1 x0 x1 x2 xs0 xs1).2.2.2.1 S1x10112.size (by sl_kernel_rfl) y

/-- What the degree accumulator holds after the body at the last tile of a core's share (the tile added, then both accumulators copied out): its stores read back (over contents that no longer matter, the stores covering it). -/
def sout0_C_1 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S1x10112 .f32 :=
  VS0_1.read (Elt F) (VS0_1.writes (Elt F) VS0_1.junk (kernelRun0_C c i arg2 harg2 arg3 harg3 arg4 harg4 arg5 harg5 arg6 harg6 arg7 harg7 arg8 harg8 hc0 hc1 x0 x1 x2 xs0 xs1).2.2.2.1)

/-- At the last tile of a core's share (the tile added, then both accumulators copied out): the stores into the feature output block tile it (every store is of the whole shape), so they cover it. -/
theorem cover0_C_3 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S1x10112x128.Idx) :
    ∃ pc ∈ (kernelRun0_C c i arg2 harg2 arg3 harg3 arg4 harg4 arg5 harg5 arg6 harg6 arg7 harg7 arg8 harg8 hc0 hc1 x0 x1 x2 xs0 xs1).1, y ∈ pc.1.set :=
  View.cover_of_tiledL (kernelRun0_C c i arg2 harg2 arg3 harg3 arg4 harg4 arg5 harg5 arg6 harg6 arg7 harg7 arg8 harg8 hc0 hc1 x0 x1 x2 xs0 xs1).1 S1x10112x128.size (by sl_kernel_rfl) y

/-- What the feature output block holds after the body at the last tile of a core's share (the tile added, then both accumulators copied out): its stores read back (over contents that no longer matter, the stores covering it). -/
def out0_C_3 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S1x10112x128 .f32 :=
  VO0_3.read (Elt F) (VO0_3.writes (Elt F) VO0_3.junk (kernelRun0_C c i arg2 harg2 arg3 harg3 arg4 harg4 arg5 harg5 arg6 harg6 arg7 harg7 arg8 harg8 hc0 hc1 x0 x1 x2 xs0 xs1).1)

/-- At the last tile of a core's share (the tile added, then both accumulators copied out): the stores into the degree output block tile it (every store is of the whole shape), so they cover it. -/
theorem cover0_C_4 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) (y : S1x1x10112.Idx) :
    ∃ pc ∈ (kernelRun0_C c i arg2 harg2 arg3 harg3 arg4 harg4 arg5 harg5 arg6 harg6 arg7 harg7 arg8 harg8 hc0 hc1 x0 x1 x2 xs0 xs1).2.1, y ∈ pc.1.set :=
  View.cover_of_tiledL (kernelRun0_C c i arg2 harg2 arg3 harg3 arg4 harg4 arg5 harg5 arg6 harg6 arg7 harg7 arg8 harg8 hc0 hc1 x0 x1 x2 xs0 xs1).2.1 S1x1x10112.size (by sl_kernel_rfl) y

/-- What the degree output block holds after the body at the last tile of a core's share (the tile added, then both accumulators copied out): its stores read back (over contents that no longer matter, the stores covering it). -/
def out0_C_4 (c : Dev nD) (i : grid0.Coords) (arg2 : Memref sig .tc .vmem S256x1 .i32) (harg2 : arg2.IsWhole) (arg3 : Memref sig .tc .vmem S256x1 .i32) (harg3 : arg3.IsWhole) (arg4 : Memref sig .tc .vmem S10112x128 .bf16) (harg4 : arg4.IsWhole) (arg5 : Memref sig .tc .vmem S1x10112x128 .f32) (harg5 : arg5.IsWhole) (arg6 : Memref sig .tc .vmem S1x1x10112 .f32) (harg6 : arg6.IsWhole) (arg7 : Memref sig .tc .vmem S10112x128 .f32) (harg7 : arg7.IsWhole) (arg8 : Memref sig .tc .vmem S1x10112 .f32) (harg8 : arg8.IsWhole) (hc0 : ¬cond0_0 i) (hc1 : cond0_1 i)
    (x0 x1 : Vec F S256x1 .i32) (x2 : Vec F S10112x128 .bf16) (xs0 : Vec F S10112x128 .f32) (xs1 : Vec F S1x10112 .f32) : Vec F S1x1x10112 .f32 :=
  VO0_4.read (Elt F) (VO0_4.writes (Elt F) VO0_4.junk (kernelRun0_C c i arg2 harg2 arg3 harg3 arg4 harg4 arg5 harg5 arg6 harg6 arg7 harg7 arg8 harg8 hc0 hc1 x0 x1 x2 xs0 xs1).2.1)

section Region0
-- the core's buffer contents when the region is entered
variable (V : (c : Dev nD) → (b : Ref sig .tc) → Buf (Elt F) ((c : Thread nD τ).loc b))

/-! ## What the output blocks and the accumulators hold after each point -/

/-- Away from the last tile of a share the feature output block is idle: the body does not touch it, it is not written
    back, and the next point does not read it. Its entry in the point-by-point table is this placeholder, which nothing consults. -/
def idleOut0_3 : Vec F S1x10112x128 .f32 := VO0_3.read (Elt F) VO0_3.junk
/-- The same for the degree output block. -/
def idleOut0_4 : Vec F S1x1x10112 .f32 := VO0_4.read (Elt F) VO0_4.junk

/-- THE ACCUMULATION. What the two output blocks' staging buffers and the two accumulators hold after the body at
    position `n` (feature output, degree output, feature accumulator, degree accumulator): the case that `n % 1250` selects,
    run at the point's memrefs and its three input blocks; inside a share and at its last tile the accumulators enter at what
    position `n - 1` left in them. No point is both first and last of a share. -/
def outsAt0 (c : Dev nD) : (n : ℕ) → n < cfg0.N → Vec F S1x10112x128 .f32 × Vec F S1x1x10112 .f32 × Vec F S10112x128 .f32 × Vec F S1x10112 .f32
  | 0, hn => (idleOut0_3, idleOut0_4, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 1250 = 0 then
      if h1 : (n + 1) % 1250 = 1249 then
        False.elim (by omega)
      else
        (idleOut0_3, idleOut0_4, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 1250 = 1249 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)
      else
        (idleOut0_3, idleOut0_4, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.2.1 (outsAt0 c n (Nat.lt_of_succ_lt hn)).2.2.2)

/-- The table at the first tile of a share: the accumulators cleared and the tile added, whatever they held. -/
theorem outsAt0_A (c : Dev nD) (t : Fin cfg0.N) (h0 : t.val % 1250 = 0) (h1 : ¬t.val % 1250 = 1249) :
    outsAt0 V c t.val t.isLt = (idleOut0_3, idleOut0_4, sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- The table at a tile strictly inside a share: the tile added to what the point before left. -/
theorem outsAt0_B (c : Dev nD) (t : Fin cfg0.N) (h0 : ¬t.val % 1250 = 0) (h1 : ¬t.val % 1250 = 1249) :
    outsAt0 V c t.val t.isLt = (idleOut0_3, idleOut0_4, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- The table at the last tile of a share: the tile added to what the point before left, then copied out. -/
theorem outsAt0_C (c : Dev nD) (t : Fin cfg0.N) (h0 : ¬t.val % 1250 = 0) (h1 : t.val % 1250 = 1249) :
    outsAt0 V c t.val t.isLt = (out0_C_3 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2, sout0_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- The region's invariant before position `n`. Before the first point: every scoped buffer of the core outside this
    region's staging at some contents, and the generator register at some state. Afterwards the same, except that the two
    accumulators hold exactly what position `n - 1` left in them. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r))

theorem PhiS_zero (c : Dev nD) (n : ℕ) (h : n ≤ cfg0.N) (hz : n = 0) : PhiS V c n h = Pipeline.ΦA spec0 c := by
  subst hz; rfl

/-- After position `n`: the accumulators at that position's contents. -/
theorem PhiS_succ (c : Dev nD) (n : ℕ) (hn : n < cfg0.N) :
    PhiS V c (n + 1) hn = iprop(iprop(owns (c : Thread nD τ) scM0_0 fullShare ((outsAt0 V c n hn).2.2.1) ∗ owns (c : Thread nD τ) scM0_1 fullShare ((outsAt0 V c n hn).2.2.2) ∗ otherScoped0 c) ∗ (∃ r, prngReg c r)) := rfl

/-- Before a position that is not the first: the accumulators at what the position before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.2.1) ∗ owns (c : Thread nD τ) scM0_1 fullShare ((outsAt0 V c (n - 1) (by omega)).2.2.2) ∗ otherScoped0 c) ∗ (∃ r, prngReg c r)) := by
  cases n with
  | zero => exact absurd rfl hz
  | succ n => rfl

/-! ## The proof data -/

/-- The proof data of region 0 on core `c`: the arrays as the region finds them; after the body at point `t` each input's
    staging buffer still at its block, the two outputs' at the table's first two entries; the invariant `PhiS`; full
    shares; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
  Φ t := PhiS V c t.val (Nat.le_of_lt_succ t.isLt)
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, nothing owed, and each window's current staging buffer at
    what it then holds. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- What it returns: the invariant at the next position, nothing owed, and each window's buffer at what the body leaves
    (an idle output's at what it held). -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point. The three inputs' buffers hold their blocks; `t % 1250` says which case the point is in. At the
    first tile of a share the accumulators are handed over at whatever they hold (at the region's very first point the
    invariant knows nothing of them; at the second share's first tile it names their contents, which are forgotten), and the
    idle outputs are handed over and taken back untouched. Inside a share the accumulators enter at what the point before
    left. At the last tile the outputs are handed over at anything and come back at the copied accumulators. In every case
    each accumulator comes back at the case's stores read back, which is the table's entry for this point; the other scoped
    buffers and the generator register pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 2500 := lt_of_lt_of_eq t.isLt (show cfg0.N = 2500 from N_0)
  rw [show (dat0 V c).leavesExact 0 t = owns (c : Thread nD τ) (ms0_0 t) fullShare ((dat0 V c).after 0 t) from by
        unfold Dat.leavesExact; rw [liveAt0_0 t], after0_0]
  rw [show (dat0 V c).leavesExact 1 t = owns (c : Thread nD τ) (ms0_1 t) fullShare ((dat0 V c).after 1 t) from by
        unfold Dat.leavesExact; rw [liveAt0_1 t], after0_1]
  rw [show (dat0 V c).leavesExact 2 t = owns (c : Thread nD τ) (ms0_2 t) fullShare ((dat0 V c).after 2 t) from by
        unfold Dat.leavesExact; rw [liveAt0_2 t], after0_2]
  by_cases h0 : t.val % 1250 = 0
  · by_cases h1 : t.val % 1250 = 1249
    · exfalso; omega
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_A V c t h0 h1]
      unfold sout0_A_0 sout0_A_1; (try dsimp only)
      by_cases hz : t.val = 0
      ·
        rw [PhiS_castSucc V c t, PhiS_zero V c _ _ hz, PhiA0_eq]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        iexists _; iexact H4
      ·
        rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ _ _ ((hcond0_0 t).mpr h0) (fun h => h1 ((hcond0_1 t).mp h)) (iblk0 V c 0 t) (iblk0 V c 1 t) (iblk0 V c 2 t)).2.2 _ _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_A_0 c _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        iexists _; iexact H4
  · have hz : t.val ≠ 0 := fun hz => h0 (by rw [hz])
    by_cases h1 : t.val % 1250 = 1249
    · rw [show (dat0 V c).leavesExact 3 t = owns (c : Thread nD τ) (ms0_3 t) fullShare ((dat0 V c).after 3 t) from by
        unfold Dat.leavesExact; rw [liveAt0_3 t ((hcond0_1 t).mpr h1)], after0_3]
      rw [show (dat0 V c).leavesExact 4 t = owns (c : Thread nD τ) (ms0_4 t) fullShare ((dat0 V c).after 4 t) from by
        unfold Dat.leavesExact; rw [liveAt0_4 t ((hcond0_1 t).mpr h1)], after0_4]
      rw [outsAt0_C V c t h0 h1]
      unfold out0_C_3 out0_C_4 sout0_C_0 sout0_C_1; (try dsimp only)
      ·
        rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) _ _).2.2.2.2 Set.univ _)
        isplitl [H0]; · iexact H0
        isplitl [H1]; · iexact H1
        isplitl [H2]; · iexact H2
        isplitl [H3]; · iexists _; iexact H3
        isplitl [H4]; · iexists _; iexact H4
        isplitl [HS0]; · iexact HS0
        isplitl [HS1]; · iexact HS1
        iintro ⟨H0, H1, H2, ⟨%e3, H3⟩, ⟨%e4, H4⟩, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]
        · unfold owns; iexists _; isplitr
          swap; · iexact H3
          ipureintro; exact View.read_writes_of_cover _ _ _ _ _ (cover0_C_3 c _ _ _ _ _ _ _ _ _ _ _ _ _ _ _ _ _ _ _ _ _ _)
        unfold owns; iexists _; isplitr
        swap; · iexact H4
        ipureintro; exact View.read_writes_of_cover _ _ _ _ _ (cover0_C_4 c _ _ _ _ _ _ _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [Dat.leavesExact_idle (dat0 V c) 4 t (idleAt0_4 t (fun h => h1 ((hcond0_1 t).mp h))) (noFlush0_4 t (fun h => h1 ((hcond0_1 t).mp h)))]
      rw [outsAt0_B V c t h0 h1]
      unfold sout0_B_0 sout0_B_1; (try dsimp only)
      ·
        rw [PhiS_castSucc V c t, PhiS_pos V c _ _ hz]
        iintro ⟨⟨⟨HS0, HS1, Hoth⟩, Hg⟩, Ho, ⟨%d0, H0⟩, ⟨%d1, H1⟩, ⟨%d2, H2⟩, ⟨%d3, H3⟩, ⟨%d4, H4⟩⟩
        iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) (iblk0 V c 2 t) _ _).2.2 _ _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hoth Hg]
        · isplitr [Hg]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _)
            iexact Hoth
          iexact Hg
        isplitl [Ho]; · iexact Ho
        isplitl [H0]; · iexact H0
        isplitl [H1]; · iexact H1
        isplitl [H2]; · iexact H2
        isplitl [H3]; · iexists _; iexact H3
        iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the invariant gives the entry invariant back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, Hoth⟩, Hg⟩
  isplitr [Hg]
  · isplitl [HS0]
    · iexists _; iexact HS0
    isplitl [HS1]
    · iexists _; iexact HS1
    iexact Hoth
  iexact Hg

/-- The same after the last point. -/
theorem hout0 (c : Dev nD) : (dat0 V c).Φ (Fin.last cfg0.N) ⊢ Pipeline.ΦA spec0 c :=
  Phi_out0 V c _ (by rw [Fin.val_last]; have : cfg0.N = 2500 := N_0; omega)

end Region0

end Cert.KernelIdeal.Hand

end
-- ==== Proof.KI.Reg1.lean ====
/-
  Region 1 (the node-update kernel, 79 grid points, one per block of 128 node rows): its frame half at the contents the
  region is entered with. At point i the kernel divides the 128 x 128 block i of the aggregated features by the
  block's degree column (a zero degree replaced by one), rounds the quotient to bf16, multiplies it into the first
  weight matrix, multiplies the block i of the node features into the second weight matrix, and stores the sum of the
  two products as block i of the result. The two weight matrices are whole-array windows, fetched once.
-/
import proofs.«420882_j76914274337236_3_alg».proof.Proof.Gen.KernelIdeal.Launch
import proofs.«420882_j76914274337236_3_alg».proof.Proof.Gen.KernelIdeal.Skeleton
import proofs.«420882_j76914274337236_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window w's block at point t, read off its array as the region finds it: rows 128 t .. 128 t + 127 of the
    aggregated features (window 0), of the degree column (window 1), of the node features (window 2) and of the result
    (window 5); the whole first and second weight matrix (windows 3 and 4) at every point. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The aggregated-feature window's staging buffer holds block t at every point t, for any proof data whose array is
    the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The degree-column window's staging buffer holds block t at every point t. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The node-feature window's staging buffer holds block t at every point t. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The first weight matrix's staging buffer holds the whole matrix at every point: fetched at the first point only,
    its block index (0, 0) never moves, so an unfetched point finds what the point before left. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- The second weight matrix's staging buffer holds the whole matrix at every point, likewise. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The whole 128 x 128 buffer as one rectangle: every load of a square window and the one store. -/
abbrev r1_sq : Rect S128x128 := Rect.unit (s := S128x128) ![0, 0] S128x128.size inb_S128x128_S128x128_0_0
/-- The whole 128 x 1 degree column as one rectangle. -/
abbrev r1_col : Rect S128x1 := Rect.unit (s := S128x1) ![0, 0] S128x1.size inb_S128x1_S128x1_0_0

/-! ## What the body leaves in the result window's buffer -/

/-- The result buffer after the body, from the five input blocks: its one store, of the whole buffer, whose payload is
    (aggregated block / guarded degree column, rounded to bf16) x first weights + node block x second weights. -/
def out1_5 (x0 : Vec F S128x128 .f32) (x1 : Vec F S128x1 .f32) (x2 x3 x4 : Vec F S128x128 .bf16) : Vec F S128x128 .f32 :=
  View.canon [⟨r1_sq, k1_pay1 (View.ld x1 r1_col) (View.ld x0 r1_sq) (View.ld x2 r1_sq) (View.ld x3 r1_sq) (View.ld x4 r1_sq)⟩]

/-- The one store is of the whole buffer (checked by evaluation), so it covers it. -/
theorem cover1_5 (p0 : r1_sq.shape.Idx → Elt F .f32) (y : S128x128.Idx) :
    ∃ pc ∈ ([⟨r1_sq, p0⟩] : List (View.Piece (Elt F) S128x128 .f32)), y ∈ pc.1.set :=
  View.cover_of_tiled [⟨r1_sq, p0⟩] S128x128.size (by rfl) y

/-! ## The body's triple -/

set_option maxHeartbeats 1000000 in
/-- The kernel body on whole staging memrefs, the five inputs' at read contents x0 .. x4 and the result's at anything
    (the body loads the result buffer once before it stores, and uses nothing of what it read), runs to the continuation
    holding the inputs' as they were and the result's at out1_5 of the inputs'. -/
theorem sound_kernel1 (c : Dev nD) (E : Set ℕ) (i : grid1.Coords)
    (arg1 : Memref sig .tc .vmem S128x128 .f32) (harg1 : arg1.IsWhole) (arg2 : Memref sig .tc .vmem S128x1 .f32) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S128x128 .f32) (harg6 : arg6.IsWhole)
    (x0 : Vec F S128x128 .f32) (x1 : Vec F S128x1 .f32) (x2 x3 x4 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__kernel_b i arg1 harg1 arg2 harg2 arg3 harg3 arg4 harg4 arg5 harg5 arg6 harg6) K := by
  simp only [cc1__kernel_b_eq_skeleton]; unfold cc1__kernel_b_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- The proof data of the region on core c: the arrays as the region finds them; after the body at point t each
    input's buffer still at its block, and the result's at out1_5 of the five input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1000000 in
/-- The body at any point: the inputs' memrefs hold their blocks, so the body's triple applies with the result's
    memref at whatever it holds; the invariant and the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the region's pipeline, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KI.Frame.lean ====
/-
  The whole run of the program: three stretches of host operations (padding and narrowing the node features, cutting
  the edge array into its source and destination columns), the edge-tile region, a stretch that adds the two cores'
  partial sums and transposes the weights, the node-tile region, and the final cut to the 10000 real nodes.
  The buffers' contents at every boundary are a fold from the launch memory; each region is entered from the contents
  the stretch before it leaves and leaves its arrays at what its write-backs leave; every weakly fair execution
  terminates with every unscoped buffer at the last boundary's contents.
-/
import proofs.«420882_j76914274337236_3_alg».proof.Proof.Gen.KernelIdeal.Regions
import proofs.«420882_j76914274337236_3_alg».proof.Proof.KI.Dat0
import proofs.«420882_j76914274337236_3_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the constant zero is written. -/
abbrev W1 : Dev nD → Valuation τ sig (Elt F) := fun c => StableHlo.after hostOps0 (W0 m c)
/-- After the node features are padded with 112 zero rows. -/
abbrev W2 : Dev nD → Valuation τ sig (Elt F) := fun c => StableHlo.after hostOps0_1 (W1 m c)
/-- After the padded features are narrowed and the edge array is cut into its two columns: the edge-tile region's entry. -/
abbrev W3 : Dev nD → Valuation τ sig (Elt F) := fun c => StableHlo.after hostOps0_2 (W2 m c)
abbrev V3 : (c : Dev nD) → (b : Ref sig .tc) → Buf (Elt F) ((c : Thread nD τ).loc b) := fun c b => W3 m c b
/-- At the edge-tile region's exit: its arrays at what its write-backs leave, every other buffer as entered. -/
def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
theorem hF0 (c : Dev nD) (w : Fin cfg0.W) : (dat0 (V3 m) c).arrAt w cfg0.N = V4 m c (Pipeline.arrRef spec0 w) :=
  (W4_arr m c w).symm
theorem hrest0 (c : Dev nD) : ∀ b, b ∉ Finset.univ.image (Pipeline.arrRef spec0) → V4 m c b = V3 m c b :=
  fun b hb => W4_of_ne m c b fun w e => hb (Finset.mem_image.mpr ⟨w, Finset.mem_univ _, e⟩)
/-- After the two cores' partial sums are added and the weights transposed: the node-tile region's entry. -/
abbrev W5 : Dev nD → Valuation τ sig (Elt F) := fun c => StableHlo.after hostOps1 (W4 m c)
abbrev V5 : (c : Dev nD) → (b : Ref sig .tc) → Buf (Elt F) ((c : Thread nD τ).loc b) := fun c b => W5 m c b
/-- At the node-tile region's exit. -/
def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
theorem hF1 (c : Dev nD) (w : Fin cfg1.W) : (dat1 (V5 m) c).arrAt w cfg1.N = V6 m c (Pipeline.arrRef spec1 w) :=
  (W6_arr m c w).symm
theorem hrest1 (c : Dev nD) : ∀ b, b ∉ Finset.univ.image (Pipeline.arrRef spec1) → V6 m c b = V5 m c b :=
  fun b hb => W6_of_ne m c b fun w e => hb (Finset.mem_image.mpr ⟨w, Finset.mem_univ _, e⟩)
/-- After the result is cut to the 10000 real nodes: the end. -/
abbrev W7 : Dev nD → Valuation τ sig (Elt F) := fun c => StableHlo.after hostOps2 (W6 m c)

/-- A buffer no stretch writes and no region stages reaches the end as launched. -/
theorem W7_kept (c : Dev nD) (r : Ref sig .tc) (h0 : r ∉ hostOps0_W) (h1 : r ∉ hostOps0_1_W) (h2 : r ∉ hostOps0_2_W)
    (h3 : ∀ w, Pipeline.arrRef spec0 w ≠ r) (h4 : r ∉ hostOps1_W) (h5 : ∀ w, Pipeline.arrRef spec1 w ≠ r) (h6 : r ∉ hostOps2_W) :
    W7 m c (Proc.devRef .tc r) = m ((c : Thread nD τ).loc r) :=
  calc W7 m c (Proc.devRef .tc r)
    _ = W6 m c (Proc.devRef .tc r) := StableHlo.after_of_writes_sub hostOps2 _ hostOps2_writes h6
    _ = W5 m c (Proc.devRef .tc r) := W6_of_ne m c r h5
    _ = W4 m c (Proc.devRef .tc r) := StableHlo.after_of_writes_sub hostOps1 _ hostOps1_writes h4
    _ = W3 m c (Proc.devRef .tc r) := W4_of_ne m c r h3
    _ = W2 m c (Proc.devRef .tc r) := StableHlo.after_of_writes_sub hostOps0_2 _ hostOps0_2_writes h2
    _ = W1 m c (Proc.devRef .tc r) := StableHlo.after_of_writes_sub hostOps0_1 _ hostOps0_1_writes h1
    _ = W0 m c (Proc.devRef .tc r) := StableHlo.after_of_writes_sub hostOps0 _ hostOps0_writes h0
    _ = m ((c : Thread nD τ).loc r) := rfl

theorem W7_main_arg0 (c : Dev nD) : W7 m c (Proc.devRef .tc main_arg0) = m ((c : Thread nD τ).loc main_arg0) :=
  W7_kept m c main_arg0 (by decide) (by decide) (by decide) (by decide) (by decide) (by decide) (by decide)
theorem W7_main_arg1 (c : Dev nD) : W7 m c (Proc.devRef .tc main_arg1) = m ((c : Thread nD τ).loc main_arg1) :=
  W7_kept m c main_arg1 (by decide) (by decide) (by decide) (by decide) (by decide) (by decide) (by decide)
theorem W7_main_arg2 (c : Dev nD) : W7 m c (Proc.devRef .tc main_arg2) = m ((c : Thread nD τ).loc main_arg2) :=
  W7_kept m c main_arg2 (by decide) (by decide) (by decide) (by decide) (by decide) (by decide) (by decide)
theorem W7_main_arg3 (c : Dev nD) : W7 m c (Proc.devRef .tc main_arg3) = m ((c : Thread nD τ).loc main_arg3) :=
  W7_kept m c main_arg3 (by decide) (by decide) (by decide) (by decide) (by decide) (by decide) (by decide)

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
abbrev 𝒱₀ : Variants := Variants.none
/-- No core owes another anything. -/
abbrev Lz : GSem nD τ sig → Finset Unit := fun _ => ∅
abbrev lvz : GSem nD τ sig → Unit → ℕ := fun _ _ => 0
/-- What rides beside the buffers through every segment: the generator register at some state and the core owing nothing. -/
abbrev Rd (c : Dev nD) : sProp 𝕄 := iprop((∃ r, prngReg c r) ∗ ∃ W, owes (c : Thread nD τ) (0 : CellTallies nD τ sig Unit) W)
/-- A stretch of host operations as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ Lz lvz :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tlast (c : Dev nD) : sProp 𝕄 := iprop(StableHlo.held (c : Thread nD τ) (Pipeline.ucRefs τ sig) (W7 m c) ∗ ∃ r, prngReg c r)

/-! ## The regions as segments -/

/-- The edge-tile region's class invariant gives back the generator register and the scoped buffers no window stages. -/
theorem PhiA0_split (c : Dev nD) :
    (Pipeline.ΦA spec0 c : sProp 𝕄) ⊢ iprop((∃ r, prngReg c r) ∗ BI.emp ∗ Pipeline.scopedRest spec0 c) := by
  unfold Pipeline.ΦA
  iintro ⟨Hr, Hp⟩
  isplitl [Hp]; · iexact Hp
  isplitr; · iempintro
  iexact Hr

set_option backward.isDefEq.respectTransparency.types false in
/-- The edge-tile region: entered from every unscoped buffer at `W3`, left at `W4`; the generator register goes into the
    invariant and comes back; the accumulators' named contents are forgotten at the exit. -/
def reg0 : Pipeline.RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (body_obligation0 (V3 m) c).loose
  hwaits := Pipeline.hwaits_of_owed_zero _ _ _ _ Lz lvz 0 fun _ _ => rfl
  pre c := iprop(StableHlo.held (c : Thread nD τ) (Pipeline.ucRefs τ sig) (W3 m c) ∗ Rd c)
  post c := iprop(StableHlo.held (c : Thread nD τ) (Pipeline.ucRefs τ sig) (W4 m c) ∗ Rd c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    exact BI.Entails.trans (show (pdats m 0 c).Φ (Fin.last _) ⊢ Pipeline.ΦA spec0 c from hout0 (V3 m) c) (PhiA0_split c)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V3 m c) (V4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node-tile region: entered from every unscoped buffer at `W5`, left at `W6`. -/
def reg1 : Pipeline.RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ Lz lvz 1 fun _ _ => rfl
  pre c := iprop(StableHlo.held (c : Thread nD τ) (Pipeline.ucRefs τ sig) (W5 m c) ∗ Rd c)
  post c := iprop(StableHlo.held (c : Thread nD τ) (Pipeline.ucRefs τ sig) (W6 m c) ∗ Rd c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m) () defs₀ 𝒱₀ Lz lvz) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)) ]

set_option backward.isDefEq.respectTransparency.types false in
/-- THE RUN. From any memory with zero counters, every weakly fair execution of the program on the TensorCores
    terminates, nothing faulting, and in every final state every unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ Lz lvz m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rd c)) (Tₙ := Tlast m)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m c) ∗ Rd c)
        ⊢ iprop(Tlast m c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach Lz lvz fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

/-- The frame: every execution terminates and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W7_main_arg0 m c),
     (h c _ (mem_uc main_arg1 (by decide))).trans (W7_main_arg1 m c),
     (h c _ (mem_uc main_arg2 (by decide))).trans (W7_main_arg2 m c),
     (h c _ (mem_uc main_arg3 (by decide))).trans (W7_main_arg3 m c)⟩) (run_all m ρ)

end Cert.KernelIdeal.Hand

end
-- ==== Proof.KI.HostIdx.lean ====
/-
  The host operations around the two kernel regions of the idealized kernel program, each read AT AN INDEX at the
  ideal instance (floats are extended reals; a narrowing format change is the identity).

  (1) the node features padded with zero rows to 10112 rows and narrowed: row n is the operand's row n below 10000,
      zero from there on;
  (2) the two edge columns: row r of the 2 × 640000 edge array, reshaped to a 640000 × 1 column, at (e, 0) is the array
      at (r, e);
  (3) the sum over the two cores: a reduction over a leading axis of extent two from the initial value zero is the sum
      of the two slices (and, for the degree row, transposed to a column);
  (4) the transposed, narrowed weights: at (f, o) the weights at (o, f);
  (5) the final cut of the first 10000 rows.

  Every shape-relation proof is a universally quantified hypothesis, so each lemma applies whatever proof term the
  program carries.
-/
import proofs.«420882_j76914274337236_3_alg».proof.KernelIdeal
import Idealize.ShloMosaic.Lib.ValueIdx
import Idealize.ShloMosaic.Lib.Pipeline.Value
import Idealize.ShloMosaic.Lib.ValueLayout
import Idealize.ShloMosaic.Lib.KernelVsHost
import Idealize.ShloMosaic.PureOps.Ideal.Laws

noncomputable section

namespace Cert.KernelIdeal.HostIdx

open Idealize.ShloMosaic Idealize.ShloMosaic.ValueIdx Cert.KernelIdeal
open scoped BigOperators

/-! ## (4) The transposed, narrowed weights -/

/-- The weights transposed and narrowed, at (f, o): the weights at (o, f). -/
theorem weights_apply (W : FVec Ideal S128x128 .f32) (ht : S128x128.Transposes [1, 0] S128x128)
    (hb : FTy.bits .bf16 < FTy.bits .f32) (f o : Fin 128) :
    truncf .bf16 (transpose S128x128 [1, 0] W ht) hb (ix2 f o) = W (ix2 o f) := by
  rw [truncf_apply]
  exact transpose_apply [1, 0] W ht (ix2 f o) (ix2 o f) (fun b => match b with
    | ⟨0, _⟩ => rfl
    | ⟨1, _⟩ => rfl)

/-! ## (5) The final cut -/

/-- The first 10000 rows of a 10112-row array, at (n, o): the array there. -/
theorem cut_apply (y : FVec Ideal S10112x128 .f32) (hs : S10112x128.Slices ![0, 0] S10000x128)
    (n : Fin 10000) (o : Fin 128) :
    extractStridedSlice S10000x128 ![0, 0] y hs (ix2 n o) = y (ix2 ⟨n.val, by omega⟩ o) :=
  extractStridedSlice_apply ![0, 0] y hs (ix2 n o) (ix2 ⟨n.val, by omega⟩ o) (fun a => match a with
    | ⟨0, _⟩ => by show n.val = 0 + n.val; omega
    | ⟨1, _⟩ => by show o.val = 0 + o.val; omega)

/-! ## (2) The two edge columns -/

/-- Row 0 of the edge array as a column, at (e, 0): the array at (0, e). -/
theorem edge_col0_apply (ei : IVec S2x640000 32) (hs0 : S2x640000.Slices ![0, 0] S1x640000)
    (hc1 : S1x640000.ShapeCasts S640000) (hc2 : S640000.ShapeCasts S640000x1) (e : Fin 640000) :
    shapeCast S640000x1 (shapeCast S640000 (extractStridedSlice S1x640000 ![0, 0] ei hs0) hc1) hc2 (ix2 e (0 : Fin 1))
      = ei (ix2 (0 : Fin 2) e) := by
  refine (shapeCast_apply _ hc2 (ix2 e (0 : Fin 1)) (ix1 e) ?_).trans ?_
  · rewrite [Shape.rowMajor_val_one, Shape.rowMajor_val_two]
    show e.val = e.val * 1 + 0
    omega
  refine (shapeCast_apply _ hc1 (ix1 e) (ix2 (0 : Fin 1) e) ?_).trans ?_
  · rewrite [Shape.rowMajor_val_two, Shape.rowMajor_val_one]
    show 0 * 640000 + e.val = e.val
    omega
  exact extractStridedSlice_apply ![0, 0] ei hs0 (ix2 (0 : Fin 1) e) (ix2 (0 : Fin 2) e) (fun a => match a with
    | ⟨0, _⟩ => by show 0 = 0 + 0; omega
    | ⟨1, _⟩ => by show e.val = 0 + e.val; omega)

/-- Row 1 of the edge array as a column, at (e, 0): the array at (1, e). -/
theorem edge_col1_apply (ei : IVec S2x640000 32) (hs1 : S2x640000.Slices ![1, 0] S1x640000)
    (hc1 : S1x640000.ShapeCasts S640000) (hc2 : S640000.ShapeCasts S640000x1) (e : Fin 640000) :
    shapeCast S640000x1 (shapeCast S640000 (extractStridedSlice S1x640000 ![1, 0] ei hs1) hc1) hc2 (ix2 e (0 : Fin 1))
      = ei (ix2 (1 : Fin 2) e) := by
  refine (shapeCast_apply _ hc2 (ix2 e (0 : Fin 1)) (ix1 e) ?_).trans ?_
  · rewrite [Shape.rowMajor_val_one, Shape.rowMajor_val_two]
    show e.val = e.val * 1 + 0
    omega
  refine (shapeCast_apply _ hc1 (ix1 e) (ix2 (0 : Fin 1) e) ?_).trans ?_
  · rewrite [Shape.rowMajor_val_two, Shape.rowMajor_val_one]
    show 0 * 640000 + e.val = e.val
    omega
  exact extractStridedSlice_apply ![1, 0] ei hs1 (ix2 (0 : Fin 1) e) (ix2 (1 : Fin 2) e) (fun a => match a with
    | ⟨0, _⟩ => by show 1 = 1 + 0; omega
    | ⟨1, _⟩ => by show e.val = 0 + e.val; omega)

/-! ## (1) The padded, narrowed node features -/

/-- The node features padded with 112 rows of the real zero and narrowed, at (n, f): the features' row n below 10000,
    zero from there on. -/
theorem feat_apply (x : FVec Ideal S10000x128 .f32)
    (hp : S10000x128.Pads (![0, 0] : Fin 2 → Nat) ![112, 0] ![0, 0] S10112x128) (hs : 0 < S_.numel)
    (hb : FTy.bits .bf16 < FTy.bits .f32) (n : Fin 10112) (f : Fin 128) :
    truncf .bf16 (pad S10112x128 ![0, 0] ![112, 0] ![0, 0] x (sitofp (F := Ideal) .f32 (constantI S_ 32 0#32)) hp hs) hb (ix2 n f)
      = if h : n.val < 10000 then x (ix2 ⟨n.val, h⟩ f) else 0 := by
  rw [truncf_apply]
  by_cases h : n.val < 10000
  · rw [dif_pos h]
    exact pad_apply_of_inside ![0, 0] ![112, 0] ![0, 0] x _ hp hs (ix2 n f) (ix2 ⟨n.val, h⟩ f) (fun a => match a with
      | ⟨0, _⟩ => by show n.val = 0 + n.val * (0 + 1); omega
      | ⟨1, _⟩ => by show f.val = 0 + f.val * (0 + 1); omega)
  · rw [dif_neg h]
    rw [pad_apply_of_not_inside ![0, 0] ![112, 0] ![0, 0] x _ hp hs (ix2 n f) (0 : Fin 2) (by
      show ¬(0 ≤ n.val ∧ (n.val - 0) % (0 + 1) = 0 ∧ (n.val - 0) / (0 + 1) < 10000)
      omega)]
    show (((0#32 : BitVec 32).toInt : ℝ) : EReal) = 0
    simp

/-! ## (3) The sum over the two cores -/

/-- The sum over the leading axis of a 2 × N × M array from the initial value zero, at (n, f): the sum of the two
    slices there. -/
theorem core_sum_apply (y : FVec Ideal S2x10112x128 .f32) (hr : S2x10112x128.ReducesTo [0] S10112x128)
    (hs : 0 < S_.numel) (n : Fin 10112) (f : Fin 128) :
    Host.reduceAdd y (constant (F := Ideal) S_ .f32 0x00000000#32) hr hs (ix2 n f)
      = y (ix3 (0 : Fin 2) n f) + y (ix3 (1 : Fin 2) n f) := by
  have h : S2x10112x128.Reduces [0] S10112x128 := ⟨hr.1, Nat.succ_pos 1, hr.2⟩
  show Ideal.hostReduceAdd hr y (Ideal.ofBits .f32 0x00000000#32) (ix2 n f) = _
  rw [Ideal.hostReduceAdd_single hr h, Ideal.ofBits_zero_f32, zero_add]
  show ∑ k : Fin 2, y (h.lift (ix2 n f) k) = _
  rw [Fin.sum_univ_two]
  have e0 : h.lift (ix2 n f) (0 : Fin 2) = ix3 (0 : Fin 2) n f := by
    funext c; match c with
    | ⟨0, _⟩ => exact Fin.ext rfl
    | ⟨1, _⟩ => exact Fin.ext rfl
    | ⟨2, _⟩ => exact Fin.ext rfl
  have e1 : h.lift (ix2 n f) (1 : Fin 2) = ix3 (1 : Fin 2) n f := by
    funext c; match c with
    | ⟨0, _⟩ => exact Fin.ext rfl
    | ⟨1, _⟩ => exact Fin.ext rfl
    | ⟨2, _⟩ => exact Fin.ext rfl
  rw [e0, e1]

/-- The degree row summed over the two cores from the initial value zero and transposed to a column, at (n, 0): the sum
    of the two cores' entries n. -/
theorem core_sum_col_apply (y : FVec Ideal S2x1x10112 .f32) (hr : S2x1x10112.ReducesTo [0] S1x10112)
    (hs : 0 < S_.numel) (ht : S1x10112.Transposes [1, 0] S10112x1) (n : Fin 10112) :
    transpose S10112x1 [1, 0] (Host.reduceAdd y (constant (F := Ideal) S_ .f32 0x00000000#32) hr hs) ht (ix2 n (0 : Fin 1))
      = y (ix3 (0 : Fin 2) (0 : Fin 1) n) + y (ix3 (1 : Fin 2) (0 : Fin 1) n) := by
  refine (transpose_apply [1, 0] _ ht (ix2 n (0 : Fin 1)) (ix2 (0 : Fin 1) n) (fun b => match b with
    | ⟨0, _⟩ => rfl
    | ⟨1, _⟩ => rfl)).trans ?_
  have h : S2x1x10112.Reduces [0] S1x10112 := ⟨hr.1, Nat.succ_pos 1, hr.2⟩
  show Ideal.hostReduceAdd hr y (Ideal.ofBits .f32 0x00000000#32) (ix2 (0 : Fin 1) n) = _
  rw [Ideal.hostReduceAdd_single hr h, Ideal.ofBits_zero_f32, zero_add]
  show ∑ k : Fin 2, y (h.lift (ix2 (0 : Fin 1) n) k) = _
  rw [Fin.sum_univ_two]
  have e0 : h.lift (ix2 (0 : Fin 1) n) (0 : Fin 2) = ix3 (0 : Fin 2) (0 : Fin 1) n := by
    funext c; match c with
    | ⟨0, _⟩ => exact Fin.ext rfl
    | ⟨1, _⟩ => exact Fin.ext rfl
    | ⟨2, _⟩ => exact Fin.ext rfl
  have e1 : h.lift (ix2 (0 : Fin 1) n) (1 : Fin 2) = ix3 (1 : Fin 2) (0 : Fin 1) n := by
    funext c; match c with
    | ⟨0, _⟩ => exact Fin.ext rfl
    | ⟨1, _⟩ => exact Fin.ext rfl
    | ⟨2, _⟩ => exact Fin.ext rfl
  rw [e0, e1]

end Cert.KernelIdeal.HostIdx

end
-- ==== Proof.KI.Entry0.lean ====
/-
  What the idealized program's buffers hold at the boundaries of its run, read at an index: the edge-tile region's three
  input arrays (the source column, the destination column, the zero-padded node features) as functions of the arguments.
-/
import proofs.«420882_j76914274337236_3_alg».proof.Proof.KI.Frame
import proofs.«420882_j76914274337236_3_alg».proof.Proof.KI.HostIdx
import proofs.«420882_j76914274337236_3_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Idealize.ShloMosaic.ValueIdx Cert.KernelIdeal.HostIdx

variable (m : (ℓ : Loc nD τ sig) → Buf (Elt Ideal) ℓ)

/-- The four arguments on core `c`. -/
abbrev ax (c : Dev nD) : SX.Idx → EReal := m ((c : Thread nD τ).loc main_arg0)
abbrev ae (c : Dev nD) : SE.Idx → BitVec 32 := m ((c : Thread nD τ).loc main_arg1)
abbrev aw (c : Dev nD) : SW.Idx → EReal := m ((c : Thread nD τ).loc main_arg2)
abbrev ab (c : Dev nD) : SW.Idx → EReal := m ((c : Thread nD τ).loc main_arg3)

/-! ## Buffers the earlier stretches leave alone -/

theorem W1_arg0 (c : Dev nD) : W1 m c (Proc.devRef .tc main_arg0) = m ((c : Thread nD τ).loc main_arg0) :=
  (StableHlo.after_of_writes_sub hostOps0 _ hostOps0_writes (by decide)).trans rfl
theorem W2_arg1 (c : Dev nD) : W2 m c (Proc.devRef .tc main_arg1) = m ((c : Thread nD τ).loc main_arg1) :=
  (StableHlo.after_of_writes_sub hostOps0_1 _ hostOps0_1_writes (by decide)).trans
    ((StableHlo.after_of_writes_sub hostOps0 _ hostOps0_writes (by decide)).trans rfl)

/-! ## The edge-tile region's entry contents -/

/-- The source column at edge `e`. -/
theorem V3_src (c : Dev nD) (e : Fin 640000) :
    (V3 m c main_v4 : S640000x1.Idx → BitVec 32) (ix2 e (0 : Fin 1)) = src (ae m c) e := by
  have h : (V3 m c main_v4 : S640000x1.Idx → BitVec 32)
      = shapeCast S640000x1 (shapeCast S640000 (extractStridedSlice S1x640000 ![0, 0] (W2 m c (Proc.devRef .tc main_arg1)) slices_S2x640000_S1x640000_0_0) shapeCasts_S1x640000_S640000) shapeCasts_S640000_S640000x1 := by
    show StableHlo.after hostOps0_2 (W2 m c) (Proc.devRef .tc main_v4) = _
    after_results; rfl
  rw [h, edge_col0_apply]
  exact congrFun (W2_arg1 m c) _

/-- The destination column at edge `e`. -/
theorem V3_dst (c : Dev nD) (e : Fin 640000) :
    (V3 m c main_v7 : S640000x1.Idx → BitVec 32) (ix2 e (0 : Fin 1)) = dst (ae m c) e := by
  have h : (V3 m c main_v7 : S640000x1.Idx → BitVec 32)
      = shapeCast S640000x1 (shapeCast S640000 (extractStridedSlice S1x640000 ![1, 0] (W2 m c (Proc.devRef .tc main_arg1)) slices_S2x640000_S1x640000_1_0) shapeCasts_S1x640000_S640000) shapeCasts_S640000_S640000x1 := by
    show StableHlo.after hostOps0_2 (W2 m c) (Proc.devRef .tc main_v7) = _
    after_results; rfl
  rw [h, edge_col1_apply]
  exact congrFun (W2_arg1 m c) _

/-- The padding stretch read at an index, from any contents: narrowing the padded features changes nothing at the ideal
    instance, the 112 added rows hold the real zero. -/
theorem pad_read (X : Valuation τ sig (Elt Ideal)) (n : Fin 10112) (f : Fin 128) :
    (show EReal from truncf (F := Ideal) .bf16 (show FVec Ideal S10112x128 .f32 from StableHlo.after (hostOps0_1 (F := Ideal)) (StableHlo.after (hostOps0 (F := Ideal)) X) (Proc.devRef .tc main_v0)) bitsLt_bf16_f32 (ix2 n f))
      = (if h : n.val < 10000 then (show EReal from X (Proc.devRef .tc main_arg0) (ix2 ⟨n.val, h⟩ f)) else (0 : EReal)) := by
  after_results
  exact feat_apply (X (Proc.devRef .tc main_arg0)) pads_S10000x128_S10112x128_01120_000 h_S_ bitsLt_bf16_f32 n f

/-- The padded node features at row `n`. -/
theorem V3_x (c : Dev nD) (n : Fin 10112) (f : Fin 128) :
    (V3 m c main_v1 : S10112x128.Idx → EReal) (ix2 n f) = if h : n.val < 10000 then ax m c (ix2 ⟨n.val, h⟩ f) else 0 := by
  have h1 : (V3 m c main_v1 : S10112x128.Idx → EReal) (ix2 n f) = (W2 m c (Proc.devRef .tc main_v0) : S10112x128.Idx → EReal) (ix2 n f) := by
    show StableHlo.after (hostOps0_2 (F := Ideal)) (W2 m c) (Proc.devRef .tc main_v1) (ix2 n f) = _
    after_results
    rfl
  rw [h1]
  exact pad_read (W0 m c) n f

end Cert.KernelIdeal.Hand

end
-- ==== Proof.KI.Tile.lean ====
/-
  The edge-tile kernel's arithmetic at the ideal instance, read at one index: the two zero splats, the three
  re-shaped copies, the destination one-hot's column sums, and the scatter of the gathered rows
  (one-hot(dst)ᵀ · (one-hot(src) · X)) added to the accumulator.
-/
import proofs.«420882_j76914274337236_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Tile

open Idealize.ShloMosaic Idealize.ShloMosaic.ValueIdx Cert.KernelIdeal Cert.KernelIdeal.Gen

/-! ## The zero splats and the re-shaped copies -/

theorem pay4_apply (j : S10112x128.Idx) : k0_pay4 (F := Ideal) j = 0 := by
  unfold k0_pay4
  rw [shapeCast_self]
  exact Ideal.ofBits_zero_f32

theorem pay5_apply (j : S1x10112.Idx) : k0_pay5 (F := Ideal) j = 0 := by
  unfold k0_pay5
  rw [shapeCast_self]
  exact Ideal.ofBits_zero_f32

theorem pay1_eq (v34 : FVec Ideal S1x10112 .f32) : k0_pay1 (F := Ideal) v34 = v34 := by
  unfold k0_pay1
  exact shapeCast_self v34 _

theorem pay2_apply (v41 : Vec Ideal S10112x128 .f32) (n : Fin 10112) (f : Fin 128) :
    k0_pay2 (F := Ideal) v41 (ix3 (0 : Fin 1) n f) = v41 (ix2 n f) := by
  unfold k0_pay2
  refine (shapeCast_addUnit_apply ![10112, 128] v41 shapeCasts_S10112x128_S1x10112x128 (ix3 (0 : Fin 1) n f)).trans ?_
  exact congrArg v41 (funext fun a => match a with | ⟨0, _⟩ => rfl | ⟨1, _⟩ => rfl)

theorem pay3_apply (v45 : Vec Ideal S1x10112 .f32) (n : Fin 10112) :
    k0_pay3 (F := Ideal) v45 (ix3 (0 : Fin 1) (0 : Fin 1) n) = v45 (ix2 (0 : Fin 1) n) := by
  unfold k0_pay3
  refine (shapeCast_addUnit_apply ![1, 10112] v45 shapeCasts_S1x10112_S1x1x10112 (ix3 (0 : Fin 1) (0 : Fin 1) n)).trans ?_
  exact congrArg v45 (funext fun a => match a with | ⟨0, _⟩ => rfl | ⟨1, _⟩ => rfl)

/-! ## The one-hot matrix of a column of words -/

/-- A compared pair of words, widened and converted: the real 1 where they agree, 0 elsewhere. -/
theorem onehot_scalar (x y : BitVec 32) :
    (FloatOps.sitofp (F := Ideal) .f32 ((IntOp.cmpi .eq x y).setWidth 32) : EReal) = if x = y then 1 else 0 := by
  show (((((IntOp.cmpi .eq x y).setWidth 32).toInt : ℝ)) : EReal) = _
  by_cases h : x = y
  · rw [if_pos h, h]
    have e : (IntOp.cmpi .eq y y).setWidth 32 = 1#32 := by
      simp [IntOp.cmpi]
    rw [e]
    norm_num
  · rw [if_neg h]
    have e : (IntOp.cmpi .eq x y).setWidth 32 = 0#32 := by
      have hb : (x == y) = false := beq_eq_false_iff_ne.mpr h
      simp [IntOp.cmpi, hb]
    rw [e]
    norm_num

/-- The column of words broadcast along the lanes reads its row's word. -/
theorem bcast_col_apply {α : Type} (v : S256x1.Idx → α) (r : Fin 256) (k : Fin 10112) :
    broadcastTo S256x10112 v broadcasts_S256x1_S256x10112 (ix2 r k) = v (ix2 r (0 : Fin 1)) :=
  broadcastTo_apply v broadcasts_S256x1_S256x10112 (ix2 r k) (ix2 r (0 : Fin 1)) (fun a => match a with
    | ⟨0, _⟩ => by show r.val = if (256 : Nat) = 1 then 0 else r.val; rw [if_neg (by decide)]
    | ⟨1, _⟩ => by show (0 : Nat) = if (1 : Nat) = 1 then 0 else k.val; rw [if_pos rfl])

/-- The row of lane numbers broadcast along the rows reads its lane's number. -/
theorem bcast_row_apply {α : Type} (v : S1x10112.Idx → α) (r : Fin 256) (k : Fin 10112) :
    broadcastTo S256x10112 v broadcasts_S1x10112_S256x10112 (ix2 r k) = v (ix2 (0 : Fin 1) k) :=
  broadcastTo_apply v broadcasts_S1x10112_S256x10112 (ix2 r k) (ix2 (0 : Fin 1) k) (fun a => match a with
    | ⟨0, _⟩ => by show (0 : Nat) = if (1 : Nat) = 1 then 0 else r.val; rw [if_pos rfl]
    | ⟨1, _⟩ => by show k.val = if (10112 : Nat) = 1 then 0 else k.val; rw [if_neg (by decide)])

/-- The one-hot entry at row `r`, lane `k`: 1 where the row's word is the word of `k`. -/
theorem onehot_apply (v : Vec Ideal S256x1 .i32) (r : Fin 256) (k : Fin 10112) :
    k0_pay6 (F := Ideal) v (ix2 r k) = if v (ix2 r (0 : Fin 1)) = BitVec.ofNat 32 k.val then (1 : EReal) else 0 := by
  unfold k0_pay6
  rw [shapeCast_self]
  refine (onehot_scalar _ _).trans ?_
  rw [bcast_col_apply, bcast_row_apply, iota_single_apply]

/-! ## The two products at an index

The first contracts the lanes of its left operand with the rows of its right one (rows × lanes times lanes × columns);
the second contracts the ROWS of both (the transposed product). -/

theorem lhs_gather_0 (i : S256x128.Idx) (q : dot_S256x10112_S10112x128_S256x128_1_0_0_1_n_n.contr.Idx) :
    (dot_S256x10112_S10112x128_S256x128_1_0_0_1_n_n.lhsIdx i q 0).val = (i 0).val := by
  unfold DotDims.lhsIdx
  rw [dif_neg (show ¬(0 : Fin S256x10112.rank) ∈ dot_S256x10112_S10112x128_S256x128_1_0_0_1_n_n.lhsBatch by decide), dif_pos (show (0 : Fin S256x10112.rank) ∈ dot_S256x10112_S10112x128_S256x128_1_0_0_1_n_n.lhsNonContracting by decide)]
  rfl
theorem lhs_gather_1 (i : S256x128.Idx) (q : dot_S256x10112_S10112x128_S256x128_1_0_0_1_n_n.contr.Idx) :
    (dot_S256x10112_S10112x128_S256x128_1_0_0_1_n_n.lhsIdx i q 1).val = (q ⟨0, by decide⟩).val :=
  dot_S256x10112_S10112x128_S256x128_1_0_0_1_n_n.lhsIdx_val_of_single rfl i q
theorem rhs_gather_0 (i : S256x128.Idx) (q : dot_S256x10112_S10112x128_S256x128_1_0_0_1_n_n.contr.Idx) :
    (dot_S256x10112_S10112x128_S256x128_1_0_0_1_n_n.rhsIdx i q 0).val = (q ⟨0, by decide⟩).val :=
  dot_S256x10112_S10112x128_S256x128_1_0_0_1_n_n.rhsIdx_val_of_single rfl i q
theorem rhs_gather_1 (i : S256x128.Idx) (q : dot_S256x10112_S10112x128_S256x128_1_0_0_1_n_n.contr.Idx) :
    (dot_S256x10112_S10112x128_S256x128_1_0_0_1_n_n.rhsIdx i q 1).val = (i 1).val := by
  unfold DotDims.rhsIdx
  rw [dif_neg (show ¬(1 : Fin S10112x128.rank) ∈ dot_S256x10112_S10112x128_S256x128_1_0_0_1_n_n.rhsBatch by decide), dif_pos (show (1 : Fin S10112x128.rank) ∈ dot_S256x10112_S10112x128_S256x128_1_0_0_1_n_n.rhsNonContracting by decide)]
  rfl

/-- Rows × lanes times lanes × columns, into zero: the sum over the lanes. -/
theorem gather_apply (A : FVec Ideal S256x10112 .bf16) (X : FVec Ideal S10112x128 .bf16) (r : Fin 256) (f : Fin 128) :
    matmul dot_S256x10112_S10112x128_S256x128_1_0_0_1_n_n none A X (constant (F := Ideal) S256x128 .f32 0x00000000#32) (ix2 r f)
      = ∑ k : Fin 10112, A (ix2 r k) * X (ix2 k f) := by
  refine (Ideal.matmul_constant_zero_apply dot_S256x10112_S10112x128_S256x128_1_0_0_1_n_n none A X (ix2 r f)).trans ?_
  rw [← Equiv.sum_comp (contrEquiv1 dot_S256x10112_S10112x128_S256x128_1_0_0_1_n_n 10112 rfl rfl).symm]
  refine Finset.sum_congr rfl fun k _ => ?_
  have hk := contrEquiv1_symm_val dot_S256x10112_S10112x128_S256x128_1_0_0_1_n_n 10112 rfl rfl k
  have el : dot_S256x10112_S10112x128_S256x128_1_0_0_1_n_n.lhsIdx (ix2 r f) ((contrEquiv1 dot_S256x10112_S10112x128_S256x128_1_0_0_1_n_n 10112 rfl rfl).symm k) = ix2 r k := funext fun a => Fin.ext (by
    match a with
    | ⟨0, _⟩ => exact lhs_gather_0 _ _
    | ⟨1, _⟩ => exact (lhs_gather_1 _ _).trans hk)
  have er : dot_S256x10112_S10112x128_S256x128_1_0_0_1_n_n.rhsIdx (ix2 r f) ((contrEquiv1 dot_S256x10112_S10112x128_S256x128_1_0_0_1_n_n 10112 rfl rfl).symm k) = ix2 k f := funext fun a => Fin.ext (by
    match a with
    | ⟨0, _⟩ => exact (rhs_gather_0 _ _).trans hk
    | ⟨1, _⟩ => exact rhs_gather_1 _ _)
  rw [el, er]

theorem lhs_scatter_0 (i : S10112x128.Idx) (q : dot_S256x10112_S256x128_S10112x128_0_0_1_1_n_n.contr.Idx) :
    (dot_S256x10112_S256x128_S10112x128_0_0_1_1_n_n.lhsIdx i q 0).val = (q ⟨0, by decide⟩).val :=
  dot_S256x10112_S256x128_S10112x128_0_0_1_1_n_n.lhsIdx_val_of_single rfl i q
theorem lhs_scatter_1 (i : S10112x128.Idx) (q : dot_S256x10112_S256x128_S10112x128_0_0_1_1_n_n.contr.Idx) :
    (dot_S256x10112_S256x128_S10112x128_0_0_1_1_n_n.lhsIdx i q 1).val = (i 0).val := by
  unfold DotDims.lhsIdx
  rw [dif_neg (show ¬(1 : Fin S256x10112.rank) ∈ dot_S256x10112_S256x128_S10112x128_0_0_1_1_n_n.lhsBatch by decide), dif_pos (show (1 : Fin S256x10112.rank) ∈ dot_S256x10112_S256x128_S10112x128_0_0_1_1_n_n.lhsNonContracting by decide)]
  rfl
theorem rhs_scatter_0 (i : S10112x128.Idx) (q : dot_S256x10112_S256x128_S10112x128_0_0_1_1_n_n.contr.Idx) :
    (dot_S256x10112_S256x128_S10112x128_0_0_1_1_n_n.rhsIdx i q 0).val = (q ⟨0, by decide⟩).val :=
  dot_S256x10112_S256x128_S10112x128_0_0_1_1_n_n.rhsIdx_val_of_single rfl i q
theorem rhs_scatter_1 (i : S10112x128.Idx) (q : dot_S256x10112_S256x128_S10112x128_0_0_1_1_n_n.contr.Idx) :
    (dot_S256x10112_S256x128_S10112x128_0_0_1_1_n_n.rhsIdx i q 1).val = (i 1).val := by
  unfold DotDims.rhsIdx
  rw [dif_neg (show ¬(1 : Fin S256x128.rank) ∈ dot_S256x10112_S256x128_S10112x128_0_0_1_1_n_n.rhsBatch by decide), dif_pos (show (1 : Fin S256x128.rank) ∈ dot_S256x10112_S256x128_S10112x128_0_0_1_1_n_n.rhsNonContracting by decide)]
  rfl

/-- The transposed product, into zero: the sum over the rows of both operands. -/
theorem scatter_apply (A : FVec Ideal S256x10112 .bf16) (Y : FVec Ideal S256x128 .bf16) (n : Fin 10112) (f : Fin 128) :
    matmul dot_S256x10112_S256x128_S10112x128_0_0_1_1_n_n none A Y (constant (F := Ideal) S10112x128 .f32 0x00000000#32) (ix2 n f)
      = ∑ r : Fin 256, A (ix2 r n) * Y (ix2 r f) := by
  refine (Ideal.matmul_constant_zero_apply dot_S256x10112_S256x128_S10112x128_0_0_1_1_n_n none A Y (ix2 n f)).trans ?_
  rw [← Equiv.sum_comp (contrEquiv1 dot_S256x10112_S256x128_S10112x128_0_0_1_1_n_n 256 rfl rfl).symm]
  refine Finset.sum_congr rfl fun k _ => ?_
  have hk := contrEquiv1_symm_val dot_S256x10112_S256x128_S10112x128_0_0_1_1_n_n 256 rfl rfl k
  have el : dot_S256x10112_S256x128_S10112x128_0_0_1_1_n_n.lhsIdx (ix2 n f) ((contrEquiv1 dot_S256x10112_S256x128_S10112x128_0_0_1_1_n_n 256 rfl rfl).symm k) = ix2 k n := funext fun a => Fin.ext (by
    match a with
    | ⟨0, _⟩ => exact (lhs_scatter_0 _ _).trans hk
    | ⟨1, _⟩ => exact lhs_scatter_1 _ _)
  have er : dot_S256x10112_S256x128_S10112x128_0_0_1_1_n_n.rhsIdx (ix2 n f) ((contrEquiv1 dot_S256x10112_S256x128_S10112x128_0_0_1_1_n_n 256 rfl rfl).symm k) = ix2 k f := funext fun a => Fin.ext (by
    match a with
    | ⟨0, _⟩ => exact (rhs_scatter_0 _ _).trans hk
    | ⟨1, _⟩ => exact rhs_scatter_1 _ _)
  rw [el, er]

/-! ## A one-hot row against a column -/

/-- A word is the word of a lane number below 10112 exactly when its value is that number. -/
theorem word_eq_lane (w : BitVec 32) (k : Fin 10112) : w = BitVec.ofNat 32 k.val ↔ w.toNat = k.val := by
  have hk : k.val % 2 ^ 32 = k.val := Nat.mod_eq_of_lt (by have := k.isLt; omega)
  constructor
  · intro e; rw [e, BitVec.toNat_ofNat, hk]
  · intro e; apply BitVec.eq_of_toNat_eq; rw [BitVec.toNat_ofNat, hk, e]

/-- In the extended reals `0 * y = 0` and `1 * y = y` for every `y`, so a one-hot row times a column is the one entry
    the word names, or nothing when the word names no lane. -/
theorem onehot_row_sum (w : BitVec 32) (g : Fin 10112 → EReal) :
    ∑ k : Fin 10112, (if w = BitVec.ofNat 32 k.val then (1 : EReal) else 0) * g k
      = if h : w.toNat < 10112 then g ⟨w.toNat, h⟩ else 0 := by
  simp only [ite_mul, one_mul, zero_mul]
  by_cases h : w.toNat < 10112
  · rw [dif_pos h, Finset.sum_eq_single (⟨w.toNat, h⟩ : Fin 10112)]
    · exact if_pos ((word_eq_lane w _).mpr rfl)
    · intro b _ hb
      exact if_neg fun e => hb (Fin.ext ((word_eq_lane w b).mp e).symm)
    · intro h'; exact absurd (Finset.mem_univ _) h'
  · rw [dif_neg h]
    refine Finset.sum_eq_zero fun k _ => ?_
    exact if_neg fun e => h (by rw [(word_eq_lane w k).mp e]; exact k.isLt)

/-! ## The two accumulated payloads -/

theorem pay7_apply (v3 v5 : Vec Ideal S256x1 .i32) (v20 : Vec Ideal S10112x128 .bf16) (v28 : Vec Ideal S10112x128 .f32)
    (n : Fin 10112) (f : Fin 128) :
    k0_pay7 (F := Ideal) v3 v5 v20 v28 (ix2 n f)
      = v28 (ix2 n f) + ∑ r : Fin 256, (if v5 (ix2 r (0 : Fin 1)) = BitVec.ofNat 32 n.val then
          (if h : (v3 (ix2 r (0 : Fin 1))).toNat < 10112 then v20 (ix2 ⟨(v3 (ix2 r (0 : Fin 1))).toNat, h⟩ f) else 0) else 0) := by
  unfold k0_pay7
  refine (congrFun (shapeCast_self _ shapeCasts_S10112x128_S10112x128) (ix2 n f)).trans ?_
  show v28 (ix2 n f) + matmul dot_S256x10112_S256x128_S10112x128_0_0_1_1_n_n none
      (truncf .bf16 (k0_pay6 (F := Ideal) v5) bitsLt_bf16_f32)
      (truncf .bf16 (matmul dot_S256x10112_S10112x128_S256x128_1_0_0_1_n_n none
        (truncf .bf16 (k0_pay6 (F := Ideal) v3) bitsLt_bf16_f32) (shapeCast S10112x128 v20 shapeCasts_S10112x128_S10112x128)
        (constant (F := Ideal) S256x128 .f32 0x00000000#32)) bitsLt_bf16_f32)
      (constant (F := Ideal) S10112x128 .f32 0x00000000#32) (ix2 n f) = _
  refine congrArg (v28 (ix2 n f) + ·) ?_
  refine (scatter_apply _ _ n f).trans ?_
  refine Finset.sum_congr rfl fun r _ => ?_
  show k0_pay6 (F := Ideal) v5 (ix2 r n) * matmul dot_S256x10112_S10112x128_S256x128_1_0_0_1_n_n none
        (truncf .bf16 (k0_pay6 (F := Ideal) v3) bitsLt_bf16_f32) (shapeCast S10112x128 v20 shapeCasts_S10112x128_S10112x128)
        (constant (F := Ideal) S256x128 .f32 0x00000000#32) (ix2 r f) = _
  rw [onehot_apply, gather_apply, shapeCast_self]
  have inner : ∑ k : Fin 10112, (truncf .bf16 (k0_pay6 (F := Ideal) v3) bitsLt_bf16_f32 : FVec Ideal S256x10112 .bf16) (ix2 r k) * v20 (ix2 k f)
      = if h : (v3 (ix2 r (0 : Fin 1))).toNat < 10112 then v20 (ix2 ⟨(v3 (ix2 r (0 : Fin 1))).toNat, h⟩ f) else 0 := by
    refine Eq.trans (Finset.sum_congr rfl fun k _ => ?_) (onehot_row_sum (v3 (ix2 r (0 : Fin 1))) fun k => v20 (ix2 k f))
    exact congrArg (· * v20 (ix2 k f)) (onehot_apply v3 r k)
  rw [inner, ite_mul, one_mul, zero_mul]

/-- The reduced lane `n` of the one-hot reads its column. -/
theorem colsum_apply (A : FVec Ideal S256x10112 .f32) (hacc : (0x00000000#32 : BitVec 32) = 0x00000000#32) (n : Fin 10112) :
    multiReduction (F := Ideal) .add [0] S10112 A 0x00000000#32 reduces_S256x10112_S10112 (.inl rfl) hacc (ix1 n)
      = ∑ r : Fin 256, A (ix2 r n) := by
  refine (Ideal.multiReduction_add_single A 0x00000000#32 reduces_S256x10112_S10112 (.inl rfl) hacc (ix1 n)).trans ?_
  refine Finset.sum_congr rfl fun r _ => ?_
  exact congrArg A (funext fun a => Fin.ext (by
    match a with
    | ⟨0, _⟩ => rfl
    | ⟨1, _⟩ => rfl))

theorem pay8_apply (v5 : Vec Ideal S256x1 .i32) (v33 : Vec Ideal S1x10112 .f32) (n : Fin 10112) :
    k0_pay8 (F := Ideal) v5 v33 (ix2 (0 : Fin 1) n)
      = v33 (ix2 (0 : Fin 1) n) + ∑ r : Fin 256, (if v5 (ix2 r (0 : Fin 1)) = BitVec.ofNat 32 n.val then (1 : EReal) else 0) := by
  unfold k0_pay8
  show v33 (ix2 (0 : Fin 1) n) + shapeCast S1x10112
      (multiReduction (F := Ideal) .add [0] S10112 (k0_pay6 (F := Ideal) v5) 0x00000000#32 reduces_S256x10112_S10112 (.inl rfl) rfl)
      shapeCasts_S10112_S1x10112 (ix2 (0 : Fin 1) n) = _
  refine congrArg (v33 (ix2 (0 : Fin 1) n) + ·) ?_
  refine (shapeCast_addUnit_apply ![10112] _ shapeCasts_S10112_S1x10112 (ix2 (0 : Fin 1) n)).trans ?_
  have e : (fun a : Fin 1 => (ix2 (0 : Fin 1) n) a.succ) = ix1 n := funext fun a => match a with | ⟨0, _⟩ => rfl
  rw [e]
  refine (colsum_apply _ rfl n).trans ?_
  exact Finset.sum_congr rfl fun r _ => onehot_apply v5 r n

end Cert.KernelIdeal.Tile
-- ==== Proof.KI.K0Val.lean ====
/-
  Region 0 (the edge-tile kernel) at the ideal instance: the VALUE its two accumulators and two output blocks hold, as a
  function of the contents `V` of its three input arrays when the region is entered.

  The 2500 points are t = k * 1250 + i (k < 2 the core, i < 1250 the tile); tile t carries the 256 edges 256 t + r.
  Adding tile t adds, at entry (n, f) of the feature sums, for every row r whose destination word is the word n, the
  feature row named by the source word (zero when the source word is not a row of the table), and at entry n of the edge
  counts the number of such rows. So after point t the accumulators hold these sums over the edges of core t / 1250 up
  to and including tile t (`inv0`, by induction on the point), and at the last tile of core k's share the two output
  blocks hold the sums over all of the core's edges, e / 320000 = k (`outsAt0_last_3`, `outsAt0_last_4`).

  In order: the edge-interval arithmetic over ℕ; what each control case's stores leave, as the body's arithmetic of what
  it loaded (for every float instance); the input blocks as rows of the input arrays; the accumulators case by case; the
  invariant; the two flushing points.
-/
import proofs.«420882_j76914274337236_3_alg».proof.Proof.KI.Dat0
import proofs.«420882_j76914274337236_3_alg».proof.Proof.KI.Tile
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable {F : FTy → Type} [FloatOps F]

open Finset

/-! ## Edges, tiles and shares: the interval arithmetic -/

/-- Edge `256 t + r`: row `r` of tile `t`. -/
def edgeOf (t : ℕ) (ht : t < 2500) (r : Fin 256) : Fin 640000 := ⟨256 * t + r.val, by have := r.isLt; omega⟩

theorem edgeOf_val (t : ℕ) (ht : t < 2500) (r : Fin 256) : (edgeOf t ht r).val = 256 * t + r.val := rfl

/-- The edges of core `k` up to and including tile `t`. -/
def upTo (k t : ℕ) : Finset (Fin 640000) := univ.filter fun e => k * 320000 ≤ e.val ∧ e.val < (t + 1) * 256

/-- The edges of core k -/
def coreEdges (k : Fin 2) : Finset (Fin 640000) := Finset.univ.filter fun e => e.val / 320000 = k.val

variable {M : Type*} [AddCommMonoid M]

/-- A tile's 256 edges, summed by row. -/
theorem sum_tile (g : Fin 640000 → M) (t : ℕ) (ht : t < 2500) :
    ∑ e ∈ univ.filter (fun e : Fin 640000 => 256 * t ≤ e.val ∧ e.val < (t + 1) * 256), g e = ∑ r : Fin 256, g (edgeOf t ht r) := by
  symm
  refine Finset.sum_bij (fun r _ => edgeOf t ht r) ?_ ?_ ?_ ?_
  · intro r _
    simp only [mem_filter, mem_univ, true_and, edgeOf_val]
    have := r.isLt; omega
  · intro r1 _ r2 _ h
    have := congrArg Fin.val h
    simp only [edgeOf_val] at this
    exact Fin.ext (by omega)
  · intro e he
    simp only [mem_filter, mem_univ, true_and] at he
    exact ⟨⟨e.val - 256 * t, by omega⟩, mem_univ _, Fin.ext (by simp only [edgeOf_val]; omega)⟩
  · intro r _; rfl

/-- At the first tile of a core's share the edges so far are the tile's. -/
theorem sum_upTo_first (g : Fin 640000 → M) (k t : ℕ) (ht : t < 2500) (h : t = k * 1250) :
    ∑ e ∈ upTo k t, g e = ∑ r : Fin 256, g (edgeOf t ht r) := by
  rw [← sum_tile g t ht]
  refine Finset.sum_congr ?_ (fun _ _ => rfl)
  unfold upTo
  ext e
  simp only [mem_filter, mem_univ, true_and]
  constructor <;> intro ⟨h1, h2⟩ <;> exact ⟨by omega, h2⟩

/-- At a later tile they are the edges up to the tile before, and the tile's. -/
theorem sum_upTo_step (g : Fin 640000 → M) (k t : ℕ) (ht : t < 2500) (h : k * 1250 < t) :
    ∑ e ∈ upTo k t, g e = ∑ e ∈ upTo k (t - 1), g e + ∑ r : Fin 256, g (edgeOf t ht r) := by
  rw [← sum_tile g t ht]
  have hd : Disjoint (upTo k (t - 1)) (univ.filter (fun e : Fin 640000 => 256 * t ≤ e.val ∧ e.val < (t + 1) * 256)) := by
    rw [Finset.disjoint_left]
    intro e h1 h2
    unfold upTo at h1
    simp only [mem_filter, mem_univ, true_and] at h1 h2
    omega
  rw [← Finset.sum_union hd]
  refine Finset.sum_congr ?_ (fun _ _ => rfl)
  unfold upTo
  ext e
  simp only [mem_union, mem_filter, mem_univ, true_and]
  constructor
  · intro ⟨h1, h2⟩
    by_cases hc : e.val < 256 * t
    · left; exact ⟨h1, by omega⟩
    · right; exact ⟨by omega, h2⟩
  · rintro (⟨h1, h2⟩ | ⟨h1, h2⟩)
    · exact ⟨h1, by omega⟩
    · exact ⟨by omega, h2⟩

/-- After the last tile of a core's share they are all the core's edges. -/
theorem upTo_last (k : Fin 2) : upTo k.val (k.val * 1250 + 1249) = coreEdges k := by
  unfold upTo coreEdges
  ext e
  simp only [mem_filter, mem_univ, true_and]
  have := k.isLt
  have := e.isLt
  constructor
  · intro ⟨h1, h2⟩
    exact (Nat.div_eq_iff (by norm_num)).mpr ⟨by omega, by omega⟩
  · intro h
    have := (Nat.div_eq_iff (by norm_num : 0 < 320000)).mp h
    omega

/-! ## What each case's stores leave, as the body's arithmetic of what it loaded -/

theorem hz2 : (![0, 0] : Fin 2 → Nat) = fun _ => 0 := funext fun a => by fin_cases a <;> rfl
theorem hz3 : (![0, 0, 0] : Fin 3 → Nat) = fun _ => 0 := funext fun a => by fin_cases a <;> rfl

/-- First tile of a share, feature sums: cleared, then the tile added to the zeros. -/
theorem sA0 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : cond0_0 i) (hc1 : ¬cond0_1 i) (x0 x1 : Vec F S256x1 .i32) (x2 : Vec F S10112x128 .bf16) :
    sout0_A_0 c i a2 h2 a3 h3 a4 h4 a5 h5 a6 h6 a7 h7 a8 h8 hc0 hc1 x0 x1 x2 = k0_pay7 x0 x1 x2 (k0_pay4 (F := F)) := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S10112x128) hz2]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- First tile of a share, edge counts: cleared, then the tile's counts added to the zeros. -/
theorem sA1 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : cond0_0 i) (hc1 : ¬cond0_1 i) (x0 x1 : Vec F S256x1 .i32) (x2 : Vec F S10112x128 .bf16) :
    sout0_A_1 c i a2 h2 a3 h3 a4 h4 a5 h5 a6 h6 a7 h7 a8 h8 hc0 hc1 x0 x1 x2 = k0_pay1 (k0_pay8 x1 (k0_pay5 (F := F))) := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S1x10112) hz2]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- Inside a share, feature sums: the tile added to what was there. -/
theorem sB0 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : ¬cond0_0 i) (hc1 : ¬cond0_1 i) (x0 x1 : Vec F S256x1 .i32) (x2 : Vec F S10112x128 .bf16) (xs0 : Vec F S10112x128 .f32) (xs1 : Vec F S1x10112 .f32) :
    sout0_B_0 c i a2 h2 a3 h3 a4 h4 a5 h5 a6 h6 a7 h7 a8 h8 hc0 hc1 x0 x1 x2 xs0 xs1 = k0_pay7 x0 x1 x2 xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- Inside a share, edge counts. -/
theorem sB1 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : ¬cond0_0 i) (hc1 : ¬cond0_1 i) (x0 x1 : Vec F S256x1 .i32) (x2 : Vec F S10112x128 .bf16) (xs0 : Vec F S10112x128 .f32) (xs1 : Vec F S1x10112 .f32) :
    sout0_B_1 c i a2 h2 a3 h3 a4 h4 a5 h5 a6 h6 a7 h7 a8 h8 hc0 hc1 x0 x1 x2 xs0 xs1 = k0_pay1 (k0_pay8 x1 xs1) := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- Last tile of a share, feature sums: as inside. -/
theorem sC0 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : ¬cond0_0 i) (hc1 : cond0_1 i) (x0 x1 : Vec F S256x1 .i32) (x2 : Vec F S10112x128 .bf16) (xs0 : Vec F S10112x128 .f32) (xs1 : Vec F S1x10112 .f32) :
    sout0_C_0 c i a2 h2 a3 h3 a4 h4 a5 h5 a6 h6 a7 h7 a8 h8 hc0 hc1 x0 x1 x2 xs0 xs1 = k0_pay7 x0 x1 x2 xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- Last tile of a share, edge counts: as inside. -/
theorem sC1 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : ¬cond0_0 i) (hc1 : cond0_1 i) (x0 x1 : Vec F S256x1 .i32) (x2 : Vec F S10112x128 .bf16) (xs0 : Vec F S10112x128 .f32) (xs1 : Vec F S1x10112 .f32) :
    sout0_C_1 c i a2 h2 a3 h3 a4 h4 a5 h5 a6 h6 a7 h7 a8 h8 hc0 hc1 x0 x1 x2 xs0 xs1 = k0_pay1 (k0_pay8 x1 xs1) := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- Last tile of a share, the feature output block: the feature sums just stored, with a unit axis in front. -/
theorem oC3 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : ¬cond0_0 i) (hc1 : cond0_1 i) (x0 x1 : Vec F S256x1 .i32) (x2 : Vec F S10112x128 .bf16) (xs0 : Vec F S10112x128 .f32) (xs1 : Vec F S1x10112 .f32) :
    out0_C_3 c i a2 h2 a3 h3 a4 h4 a5 h5 a6 h6 a7 h7 a8 h8 hc0 hc1 x0 x1 x2 xs0 xs1 = k0_pay2 (k0_pay7 x0 x1 x2 xs0) := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz3]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-- Last tile of a share, the count output block: the counts just stored, with a unit axis in front. -/
theorem oC4 (c : Dev nD) (i : grid0.Coords) (a2 : Memref sig .tc .vmem S256x1 .i32) (h2 : a2.IsWhole) (a3 : Memref sig .tc .vmem S256x1 .i32) (h3 : a3.IsWhole) (a4 : Memref sig .tc .vmem S10112x128 .bf16) (h4 : a4.IsWhole) (a5 : Memref sig .tc .vmem S1x10112x128 .f32) (h5 : a5.IsWhole) (a6 : Memref sig .tc .vmem S1x1x10112 .f32) (h6 : a6.IsWhole) (a7 : Memref sig .tc .vmem S10112x128 .f32) (h7 : a7.IsWhole) (a8 : Memref sig .tc .vmem S1x10112 .f32) (h8 : a8.IsWhole) (hc0 : ¬cond0_0 i) (hc1 : cond0_1 i) (x0 x1 : Vec F S256x1 .i32) (x2 : Vec F S10112x128 .bf16) (xs0 : Vec F S10112x128 .f32) (xs1 : Vec F S1x10112 .f32) :
    out0_C_4 c i a2 h2 a3 h3 a4 h4 a5 h5 a6 h6 a7 h7 a8 h8 hc0 hc1 x0 x1 x2 xs0 xs1 = k0_pay3 (k0_pay1 (k0_pay8 x1 xs1)) := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz3]
  simp only [View.readAt_eq_ld, h2.read_unread, h3.read_unread, h4.read_unread, h7.read_unread, h8.read_unread, View.ld_unit_zero (S := S256x1) hz2, View.ld_unit_zero (S := S10112x128) hz2, View.ld_unit_zero (S := S1x10112) hz2, View.readCov_unit_zero (S := S10112x128) _ hz2, View.readCov_unit_zero (S := S1x10112) _ hz2]

/-! ## The region's value at the ideal instance -/

section Value
variable (V : (c : Dev nD) → (b : Ref sig .tc) → Buf (Elt Ideal) ((c : Thread nD τ).loc b))

/-- The three input arrays as the region finds them: source words, destination words, node features. -/
abbrev srcArr (c : Dev nD) : Vec Ideal S640000x1 .i32 := V c main_v4
abbrev dstArr (c : Dev nD) : Vec Ideal S640000x1 .i32 := V c main_v7
abbrev xArr (c : Dev nD) : Vec Ideal S10112x128 .bf16 := V c main_v1
/-- Their blocks at point `t`. -/
abbrev srcBlk (c : Dev nD) (t : Fin cfg0.N) : Vec Ideal S256x1 .i32 := iblk0 V c 0 t
abbrev dstBlk (c : Dev nD) (t : Fin cfg0.N) : Vec Ideal S256x1 .i32 := iblk0 V c 1 t
abbrev xBlk (c : Dev nD) (t : Fin cfg0.N) : Vec Ideal S10112x128 .bf16 := iblk0 V c 2 t

theorem hN0 : cfg0.N = 2500 := N_0

/-- The three windows' block indices over the grid: tile `t` of the word arrays, the one block of the features. -/
theorem hidx0_0 : ∀ t : Fin cfg0.N, win0_0.index t 0 = t.val ∧ win0_0.index t 1 = 0 :=
  (by decide +kernel : ∀ t : Fin grid0.N, win0_0.index t 0 = t.val ∧ win0_0.index t 1 = 0)
theorem hidx0_1 : ∀ t : Fin cfg0.N, win0_1.index t 0 = t.val ∧ win0_1.index t 1 = 0 :=
  (by decide +kernel : ∀ t : Fin grid0.N, win0_1.index t 0 = t.val ∧ win0_1.index t 1 = 0)
theorem hidx0_2 : ∀ t : Fin cfg0.N, win0_2.index t 0 = 0 ∧ win0_2.index t 1 = 0 :=
  (by decide +kernel : ∀ t : Fin grid0.N, win0_2.index t 0 = 0 ∧ win0_2.index t 1 = 0)

/-- Row `r` of the source block at tile `t` is the source word of edge `256 t + r`. -/
theorem srcBlk_apply (c : Dev nD) (t : Fin cfg0.N) (r : Fin 256) :
    srcBlk V c t (ix2 r (0 : Fin 1)) = srcArr V c (ix2 (edgeOf t.val (lt_of_lt_of_eq t.isLt hN0) r) (0 : Fin 1)) := by
  show iblk0 V c 0 t (ix2 r (0 : Fin 1)) = V c main_v4 _
  unfold iblk0
  rw [View.read_apply]
  show V c main_v4 _ = V c main_v4 _
  congr 1
  funext a
  apply Fin.ext
  match a with
  | ⟨0, _⟩ => show win0_0.index t 0 * 256 + 1 * r.val = 256 * t.val + r.val; rw [(hidx0_0 t).1]; omega
  | ⟨1, _⟩ => show win0_0.index t 1 * 1 + 1 * 0 = 0; rw [(hidx0_0 t).2]

/-- Row `r` of the destination block at tile `t` is the destination word of edge `256 t + r`. -/
theorem dstBlk_apply (c : Dev nD) (t : Fin cfg0.N) (r : Fin 256) :
    dstBlk V c t (ix2 r (0 : Fin 1)) = dstArr V c (ix2 (edgeOf t.val (lt_of_lt_of_eq t.isLt hN0) r) (0 : Fin 1)) := by
  show iblk0 V c 1 t (ix2 r (0 : Fin 1)) = V c main_v7 _
  unfold iblk0
  rw [View.read_apply]
  show V c main_v7 _ = V c main_v7 _
  congr 1
  funext a
  apply Fin.ext
  match a with
  | ⟨0, _⟩ => show win0_1.index t 0 * 256 + 1 * r.val = 256 * t.val + r.val; rw [(hidx0_1 t).1]; omega
  | ⟨1, _⟩ => show win0_1.index t 1 * 1 + 1 * 0 = 0; rw [(hidx0_1 t).2]

/-- The feature block is the whole feature array at every point. -/
theorem xBlk_eq (c : Dev nD) (t : Fin cfg0.N) : xBlk V c t = xArr V c := by
  funext j
  show iblk0 V c 2 t j = V c main_v1 j
  unfold iblk0
  rw [View.read_apply]
  show V c main_v1 _ = V c main_v1 _
  congr 1
  funext a
  apply Fin.ext
  match a with
  | ⟨0, _⟩ => show win0_2.index t 0 * 10112 + 1 * (j 0).val = (j 0).val; rw [(hidx0_2 t).1]; omega
  | ⟨1, _⟩ => show win0_2.index t 1 * 128 + 1 * (j 1).val = (j 1).val; rw [(hidx0_2 t).2]; omega

/-! ### The accumulators after a point, case by case -/

theorem accA0 (c : Dev nD) (t : Fin cfg0.N) (h0 : t.val % 1250 = 0) (h1 : ¬t.val % 1250 = 1249) :
    (outsAt0 V c t.val t.isLt).2.2.1 = k0_pay7 (srcBlk V c t) (dstBlk V c t) (xBlk V c t) (k0_pay4 (F := Ideal)) := by
  rw [outsAt0_A V c t h0 h1]; dsimp only
  exact sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)

theorem accA1 (c : Dev nD) (t : Fin cfg0.N) (h0 : t.val % 1250 = 0) (h1 : ¬t.val % 1250 = 1249) :
    (outsAt0 V c t.val t.isLt).2.2.2 = k0_pay1 (k0_pay8 (dstBlk V c t) (k0_pay5 (F := Ideal))) := by
  rw [outsAt0_A V c t h0 h1]; dsimp only
  exact sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk0 V c 0 t) (iblk0 V c 1 t) (iblk0 V c 2 t)

theorem accB0 (c : Dev nD) (t : Fin cfg0.N) (h0 : ¬t.val % 1250 = 0) (h1 : ¬t.val % 1250 = 1249) :
    (outsAt0 V c t.val t.isLt).2.2.1 = k0_pay7 (srcBlk V c t) (dstBlk V c t) (xBlk V c t) (outsAt0 V c (t.val - 1) (Nat.lt_of_le_of_lt (Nat.sub_le _ _) t.isLt)).2.2.1 := by
  rw [outsAt0_B V c t h0 h1]; dsimp only
  exact sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

theorem accB1 (c : Dev nD) (t : Fin cfg0.N) (h0 : ¬t.val % 1250 = 0) (h1 : ¬t.val % 1250 = 1249) :
    (outsAt0 V c t.val t.isLt).2.2.2 = k0_pay1 (k0_pay8 (dstBlk V c t) (outsAt0 V c (t.val - 1) (Nat.lt_of_le_of_lt (Nat.sub_le _ _) t.isLt)).2.2.2) := by
  rw [outsAt0_B V c t h0 h1]; dsimp only
  exact sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

theorem accC0 (c : Dev nD) (t : Fin cfg0.N) (h0 : ¬t.val % 1250 = 0) (h1 : t.val % 1250 = 1249) :
    (outsAt0 V c t.val t.isLt).2.2.1 = k0_pay7 (srcBlk V c t) (dstBlk V c t) (xBlk V c t) (outsAt0 V c (t.val - 1) (Nat.lt_of_le_of_lt (Nat.sub_le _ _) t.isLt)).2.2.1 := by
  rw [outsAt0_C V c t h0 h1]; dsimp only
  exact sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

theorem accC1 (c : Dev nD) (t : Fin cfg0.N) (h0 : ¬t.val % 1250 = 0) (h1 : t.val % 1250 = 1249) :
    (outsAt0 V c t.val t.isLt).2.2.2 = k0_pay1 (k0_pay8 (dstBlk V c t) (outsAt0 V c (t.val - 1) (Nat.lt_of_le_of_lt (Nat.sub_le _ _) t.isLt)).2.2.2) := by
  rw [outsAt0_C V c t h0 h1]; dsimp only
  exact sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

theorem outC3 (c : Dev nD) (t : Fin cfg0.N) (h0 : ¬t.val % 1250 = 0) (h1 : t.val % 1250 = 1249) :
    (outsAt0 V c t.val t.isLt).1 = k0_pay2 (k0_pay7 (srcBlk V c t) (dstBlk V c t) (xBlk V c t) (outsAt0 V c (t.val - 1) (Nat.lt_of_le_of_lt (Nat.sub_le _ _) t.isLt)).2.2.1) := by
  rw [outsAt0_C V c t h0 h1]; dsimp only
  exact oC3 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

theorem outC4 (c : Dev nD) (t : Fin cfg0.N) (h0 : ¬t.val % 1250 = 0) (h1 : t.val % 1250 = 1249) :
    (outsAt0 V c t.val t.isLt).2.1 = k0_pay3 (k0_pay1 (k0_pay8 (dstBlk V c t) (outsAt0 V c (t.val - 1) (Nat.lt_of_le_of_lt (Nat.sub_le _ _) t.isLt)).2.2.2)) := by
  rw [outsAt0_C V c t h0 h1]; dsimp only
  exact oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.2.1 (outsAt0 V c (t.val - 1) (Nat.lt_of_le_of_lt (Nat.sub_le _ _) t.isLt)).2.2.2

/-! ### What one edge adds, and the running sums -/

/-- what one edge adds to entry (n, f) of the feature sums -/
def edgeTerm (c : Dev nD) (e : Fin 640000) (n : ℕ) (f : Fin 128) : EReal :=
  if (V c main_v7 : S640000x1.Idx → BitVec 32) (ix2 e (0 : Fin 1)) = BitVec.ofNat 32 n then
    (if h : ((V c main_v4 : S640000x1.Idx → BitVec 32) (ix2 e (0 : Fin 1))).toNat < 10112 then (V c main_v1 : S10112x128.Idx → EReal) (ix2 ⟨_, h⟩ f) else 0) else 0
/-- what one edge adds to entry n of the edge counts -/
def edgeCount (c : Dev nD) (e : Fin 640000) (n : ℕ) : EReal := if (V c main_v7 : S640000x1.Idx → BitVec 32) (ix2 e (0 : Fin 1)) = BitVec.ofNat 32 n then 1 else 0

/-- The gathered-and-masked term depends on the three words and the table only through their values. -/
theorem term_congr (d d' s s' : BitVec 32) (X X' : S10112x128.Idx → EReal) (hd : d = d') (hs : s = s') (hX : X = X') (w : BitVec 32) (f : Fin 128) :
    (if d = w then (if h : s.toNat < 10112 then X (ix2 ⟨s.toNat, h⟩ f) else 0) else 0)
      = (if d' = w then (if h : s'.toNat < 10112 then X' (ix2 ⟨s'.toNat, h⟩ f) else 0) else 0) := by
  subst hd hs hX; rfl

/-- Row `r` of tile `t` adds the term of edge `256 t + r`. -/
theorem tile_term (c : Dev nD) (t : Fin cfg0.N) (n : Fin 10112) (f : Fin 128) (r : Fin 256) :
    (if dstBlk V c t (ix2 r (0 : Fin 1)) = BitVec.ofNat 32 n.val then
        (if h : (srcBlk V c t (ix2 r (0 : Fin 1))).toNat < 10112 then xBlk V c t (ix2 ⟨(srcBlk V c t (ix2 r (0 : Fin 1))).toNat, h⟩ f) else 0) else 0)
      = edgeTerm V c (edgeOf t.val (lt_of_lt_of_eq t.isLt hN0) r) n.val f :=
  term_congr _ _ _ _ _ _ (dstBlk_apply V c t r) (srcBlk_apply V c t r) (xBlk_eq V c t) _ f

/-- Row `r` of tile `t` counts edge `256 t + r`. -/
theorem tile_count (c : Dev nD) (t : Fin cfg0.N) (n : Fin 10112) (r : Fin 256) :
    (if dstBlk V c t (ix2 r (0 : Fin 1)) = BitVec.ofNat 32 n.val then (1 : EReal) else 0)
      = edgeCount V c (edgeOf t.val (lt_of_lt_of_eq t.isLt hN0) r) n.val := by
  rw [dstBlk_apply V c t r]; rfl

/-- THE INVARIANT. After point `t`, in core `t / 1250`'s share, the two accumulators hold the sums over the share's edges
    up to and including tile `t`. -/
theorem inv0 (c : Dev nD) : ∀ (t : ℕ) (ht : t < cfg0.N),
    (∀ (n : Fin 10112) (f : Fin 128), (outsAt0 V c t ht).2.2.1 (ix2 n f) = ∑ e ∈ upTo (t / 1250) t, edgeTerm V c e n.val f)
    ∧ (∀ n : Fin 10112, (outsAt0 V c t ht).2.2.2 (ix2 (0 : Fin 1) n) = ∑ e ∈ upTo (t / 1250) t, edgeCount V c e n.val) := by
  intro t
  induction t using Nat.strong_induction_on with
  | _ t ih =>
    intro ht
    have hN : t < 2500 := lt_of_lt_of_eq ht hN0
    by_cases h0 : t % 1250 = 0
    · have h1 : ¬t % 1250 = 1249 := by omega
      have hk : t = t / 1250 * 1250 := by omega
      constructor
      · intro n f
        refine (congrFun (accA0 V c ⟨t, ht⟩ h0 h1) (ix2 n f)).trans ?_
        refine (Tile.pay7_apply _ _ _ _ n f).trans ?_
        rw [Tile.pay4_apply, zero_add, sum_upTo_first _ (t / 1250) t hN hk]
        exact Finset.sum_congr rfl fun r _ => tile_term V c ⟨t, ht⟩ n f r
      · intro n
        refine (congrFun (accA1 V c ⟨t, ht⟩ h0 h1) (ix2 (0 : Fin 1) n)).trans ?_
        rw [Tile.pay1_eq]
        refine (Tile.pay8_apply _ _ n).trans ?_
        rw [Tile.pay5_apply, zero_add, sum_upTo_first _ (t / 1250) t hN hk]
        exact Finset.sum_congr rfl fun r _ => tile_count V c ⟨t, ht⟩ n r
    · have hk : t / 1250 * 1250 < t := by omega
      have hp : (t - 1) / 1250 = t / 1250 := by omega
      have hacc0 : (outsAt0 V c t ht).2.2.1 = k0_pay7 (srcBlk V c ⟨t, ht⟩) (dstBlk V c ⟨t, ht⟩) (xBlk V c ⟨t, ht⟩) (outsAt0 V c (t - 1) (Nat.lt_of_le_of_lt (Nat.sub_le _ _) ht)).2.2.1 := by
        by_cases h1 : t % 1250 = 1249
        · exact accC0 V c ⟨t, ht⟩ h0 h1
        · exact accB0 V c ⟨t, ht⟩ h0 h1
      have hacc1 : (outsAt0 V c t ht).2.2.2 = k0_pay1 (k0_pay8 (dstBlk V c ⟨t, ht⟩) (outsAt0 V c (t - 1) (Nat.lt_of_le_of_lt (Nat.sub_le _ _) ht)).2.2.2) := by
        by_cases h1 : t % 1250 = 1249
        · exact accC1 V c ⟨t, ht⟩ h0 h1
        · exact accB1 V c ⟨t, ht⟩ h0 h1
      obtain ⟨ih0, ih1⟩ := ih (t - 1) (by omega) (Nat.lt_of_le_of_lt (Nat.sub_le _ _) ht)
      constructor
      · intro n f
        refine (congrFun hacc0 (ix2 n f)).trans ?_
        refine (Tile.pay7_apply _ _ _ _ n f).trans ?_
        rw [ih0 n f, hp, sum_upTo_step _ (t / 1250) t hN hk]
        exact congrArg (_ + ·) (Finset.sum_congr rfl fun r _ => tile_term V c ⟨t, ht⟩ n f r)
      · intro n
        refine (congrFun hacc1 (ix2 (0 : Fin 1) n)).trans ?_
        rw [Tile.pay1_eq]
        refine (Tile.pay8_apply _ _ n).trans ?_
        rw [ih1 n, hp, sum_upTo_step _ (t / 1250) t hN hk]
        exact congrArg (_ + ·) (Finset.sum_congr rfl fun r _ => tile_count V c ⟨t, ht⟩ n r)

/-! ### At the two flushing points -/

/-- The last tile of core `k`'s share is a point of the grid. -/
theorem lastPt_lt (k : Fin 2) : k.val * 1250 + 1249 < cfg0.N := by rw [hN0]; have := k.isLt; omega

/-- After the last tile of core `k`'s share the feature output block holds the sums over all of the core's edges. -/
theorem outsAt0_last_3 (c : Dev nD) (k : Fin 2) (n : Fin 10112) (f : Fin 128) :
    (outsAt0 V c (k.val * 1250 + 1249) (lastPt_lt k)).1 (ix3 (0 : Fin 1) n f) = ∑ e ∈ coreEdges k, edgeTerm V c e n.val f := by
  have h0 : ¬(k.val * 1250 + 1249) % 1250 = 0 := by omega
  have h1 : (k.val * 1250 + 1249) % 1250 = 1249 := by omega
  have hq : (k.val * 1250 + 1249) / 1250 = k.val := by omega
  refine (congrFun (outC3 V c ⟨k.val * 1250 + 1249, lastPt_lt k⟩ h0 h1) (ix3 (0 : Fin 1) n f)).trans ?_
  refine (Tile.pay2_apply _ n f).trans ?_
  refine (congrFun (accC0 V c ⟨k.val * 1250 + 1249, lastPt_lt k⟩ h0 h1).symm (ix2 n f)).trans ?_
  refine ((inv0 V c (k.val * 1250 + 1249) (lastPt_lt k)).1 n f).trans ?_
  rw [hq, upTo_last]

/-- And the count output block the counts over all of the core's edges. -/
theorem outsAt0_last_4 (c : Dev nD) (k : Fin 2) (n : Fin 10112) :
    (outsAt0 V c (k.val * 1250 + 1249) (lastPt_lt k)).2.1 (ix3 (0 : Fin 1) (0 : Fin 1) n) = ∑ e ∈ coreEdges k, edgeCount V c e n.val := by
  have h0 : ¬(k.val * 1250 + 1249) % 1250 = 0 := by omega
  have h1 : (k.val * 1250 + 1249) % 1250 = 1249 := by omega
  have hq : (k.val * 1250 + 1249) / 1250 = k.val := by omega
  refine (congrFun (outC4 V c ⟨k.val * 1250 + 1249, lastPt_lt k⟩ h0 h1) (ix3 (0 : Fin 1) (0 : Fin 1) n)).trans ?_
  refine (Tile.pay3_apply _ n).trans ?_
  refine (congrFun (accC1 V c ⟨k.val * 1250 + 1249, lastPt_lt k⟩ h0 h1).symm (ix2 (0 : Fin 1) n)).trans ?_
  refine ((inv0 V c (k.val * 1250 + 1249) (lastPt_lt k)).2 n).trans ?_
  rw [hq, upTo_last]

/-- The same, at a point named by its position: the form the blocks-to-arrays step consumes. -/
theorem outsAt0_flush_3 (c : Dev nD) (t : Fin cfg0.N) (k : Fin 2) (ht : t.val = k.val * 1250 + 1249) (n : Fin 10112) (f : Fin 128) :
    (outsAt0 V c t.val t.isLt).1 (ix3 (0 : Fin 1) n f) = ∑ e ∈ coreEdges k, edgeTerm V c e n.val f := by
  obtain ⟨t, htl⟩ := t
  dsimp only at ht
  subst ht
  exact outsAt0_last_3 V c k n f

theorem outsAt0_flush_4 (c : Dev nD) (t : Fin cfg0.N) (k : Fin 2) (ht : t.val = k.val * 1250 + 1249) (n : Fin 10112) :
    (outsAt0 V c t.val t.isLt).2.1 (ix3 (0 : Fin 1) (0 : Fin 1) n) = ∑ e ∈ coreEdges k, edgeCount V c e n.val := by
  obtain ⟨t, htl⟩ := t
  dsimp only at ht
  subst ht
  exact outsAt0_last_4 V c k n

end Value

end Cert.KernelIdeal.Hand

end
-- ==== Proof.KI.K0ValC.lean ====
/-
  Region 0, from blocks to arrays (at the extended reals). The two outputs are written back only by the last tile of each
  core share, t = 1249 and t = 2499, and the block written back at share `k`'s last tile is slab `k` of its array: the
  feature output f32[2, 10112, 128] in blocks (1, 10112, 128) at block index (k, 0, 0), the degree output f32[2, 1, 10112]
  in blocks (1, 1, 10112) at (k, 0, 0). So once it is known what the body leaves in the two output blocks at those two
  points (a hypothesis here: any two functions `G3`, `G4` of the share and the coordinates inside the block), the arrays
  after the region hold exactly those values, entry by entry.
-/
import proofs.«420882_j76914274337236_3_alg».proof.Proof.KI.Dat0
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Region0
-- the core's buffer contents when the region is entered
variable (V : (c : Dev nD) → (b : Ref sig .tc) → Buf (Elt Ideal) ((c : Thread nD τ).loc b))

/-! ## The feature output: two slabs of f32[2, 10112, 128], slab `k` written back by core share `k`'s last tile -/

/-- The feature output's block index at a point: (the share the point belongs to, 0, 0). -/
theorem idx_facts3 : ∀ t : Fin cfg0.N, win0_3.index t (0 : Fin 3) = t.val / 1250
    ∧ win0_3.index t (1 : Fin 3) = 0 ∧ win0_3.index t (2 : Fin 3) = 0 :=
  (by decide +kernel : ∀ t : Fin grid0.N, _)

/-- A block of one slab read at an index: its row and lane decide, the slab coordinate being 0. -/
theorem slab3_read (X : Vec Ideal S1x10112x128 .f32) (G : Fin 10112 → Fin 128 → EReal)
    (hX : ∀ (n : Fin 10112) (f : Fin 128), X (ix3 (0 : Fin 1) n f) = G n f) (y : S1x10112x128.Idx) :
    X y = G ⟨(y 1).val, (y 1).isLt⟩ ⟨(y 2).val, (y 2).isLt⟩ := by
  have e : y = ix3 (0 : Fin 1) ⟨(y 1).val, (y 1).isLt⟩ ⟨(y 2).val, (y 2).isLt⟩ := by
    funext a
    match a with
    | ⟨0, _⟩ => exact Fin.ext (by have h : (y 0).val < 1 := (y 0).isLt; show (y 0).val = 0; omega)
    | ⟨1, _⟩ => rfl
    | ⟨2, _⟩ => rfl
  exact (congrArg X e).trans (hX _ _)

/-- The whole feature array from its entries. -/
abbrev arr3 (G3 : Fin 2 → Fin 10112 → Fin 128 → EReal) : S2x10112x128.Idx → EReal :=
  fun i => G3 ⟨(i 0).val, (i 0).isLt⟩ ⟨(i 1).val, (i 1).isLt⟩ ⟨(i 2).val, (i 2).isLt⟩

/-- An index of the feature array is in point `t`'s block iff each coordinate is in the block's range on its axis. -/
theorem mem_blk3 (t : Fin cfg0.N) (i : S2x10112x128.Idx) :
    i ∈ ((cfg0.win 3).blk t).view.set ↔ ∀ a : Fin 3, win0_3.index t a * S1x10112x128.size a ≤ (i a).val ∧ (i a).val < win0_3.index t a * S1x10112x128.size a + S1x10112x128.size a := by
  show i ∈ ((View.whole main_v8_0).slice (win0_3.rect t)).set ↔ _
  rw [View.set_slice_whole, Rect.mem_set_unit]
  exact Iff.rfl

/-- WHAT A SHARE'S LAST TILE WRITES BACK is its slab of the feature array: the block's entry at (0, n, f) lands at
    (share, n, f). -/
theorem flushed3_eq (c : Dev nD) (G3 : Fin 2 → Fin 10112 → Fin 128 → EReal)
    (hinv3 : ∀ (t : Fin cfg0.N) (k : Fin 2), t.val = k.val * 1250 + 1249 → ∀ (n : Fin 10112) (f : Fin 128),
      (outsAt0 V c t.val t.isLt).1 (ix3 (0 : Fin 1) n f) = G3 k n f)
    (t : Fin cfg0.N) (hf : (cfg0.win 3).flush t = true) :
    (dat0 V c).flushed 3 t = ((cfg0.win 3).blk t).view.read (Elt Ideal) (arr3 G3) := by
  show (cfg0.win 3).cut (grid0.coords t) ((dat0 V c).after 3 t) = _
  rw [after0_3]
  have h1249 : t.val % 1250 = 1249 := (flush0_3 t).mp hf
  have hN : t.val < 2500 := lt_of_lt_of_eq t.isLt (show cfg0.N = 2500 from N_0)
  obtain ⟨e0, e1, e2⟩ := idx_facts3 t
  have ht : t.val = (⟨t.val / 1250, by omega⟩ : Fin 2).val * 1250 + 1249 := by show t.val = t.val / 1250 * 1250 + 1249; omega
  funext j
  refine (slab3_read ((outsAt0 V c t.val t.isLt).1) (G3 ⟨t.val / 1250, by omega⟩) (hinv3 t ⟨t.val / 1250, by omega⟩ ht) ((cfg0.win 3).xinj (grid0.coords t) j)).trans ?_
  show _ = arr3 G3 (((cfg0.win 3).blk t).view.emb j)
  have h0 : t.val / 1250 = (((cfg0.win 3).blk t).view.emb j (0 : Fin 3)).val := by
    show t.val / 1250 = win0_3.index t (0 : Fin 3) * 1 + 1 * (j 0).val
    have hj : (j 0).val < 1 := (j 0).isLt
    omega
  have h1 : (j 1).val = (((cfg0.win 3).blk t).view.emb j (1 : Fin 3)).val := by
    show (j 1).val = win0_3.index t (1 : Fin 3) * 10112 + 1 * (j 1).val
    omega
  have h2 : (j 2).val = (((cfg0.win 3).blk t).view.emb j (2 : Fin 3)).val := by
    show (j 2).val = win0_3.index t (2 : Fin 3) * 128 + 1 * (j 2).val
    omega
  exact congr (congr (congrArg G3 (Fin.ext h0)) (Fin.ext h1)) (Fin.ext h2)

/-- The two slabs fill the feature array: index (k, n, f) is in the block of share `k`'s last tile. -/
theorem cover3 (i : S2x10112x128.Idx) :
    ∃ t : Fin cfg0.N, (cfg0.win 3).flush t = true ∧ i ∈ ((cfg0.win 3).blk t).view.set := by
  have hi0 : (i 0).val < 2 := (i 0).isLt
  have hi1 : (i 1).val < 10112 := (i 1).isLt
  have hi2 : (i 2).val < 128 := (i 2).isLt
  obtain ⟨t, ht⟩ : ∃ t : Fin cfg0.N, t.val = (i 0).val * 1250 + 1249 :=
    ⟨⟨(i 0).val * 1250 + 1249, by rw [show cfg0.N = 2500 from N_0]; omega⟩, rfl⟩
  obtain ⟨e0, e1, e2⟩ := idx_facts3 t
  refine ⟨t, (flush0_3 t).mpr (by omega), ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 10112 ≤ (i 1).val ∧ (i 1).val < win0_3.index t (1 : Fin 3) * 10112 + 10112; omega
  | ⟨2, _⟩ => show win0_3.index t (2 : Fin 3) * 128 ≤ (i 2).val ∧ (i 2).val < win0_3.index t (2 : Fin 3) * 128 + 128; omega

/-- THE FEATURE ARRAY after the region: entry (k, n, f) is what share `k`'s last tile left at (0, n, f) of its block. -/
theorem arrAt3_eq (c : Dev nD) (G3 : Fin 2 → Fin 10112 → Fin 128 → EReal)
    (hinv3 : ∀ (t : Fin cfg0.N) (k : Fin 2), t.val = k.val * 1250 + 1249 → ∀ (n : Fin 10112) (f : Fin 128),
      (outsAt0 V c t.val t.isLt).1 (ix3 (0 : Fin 1) n f) = G3 k n f) :
    (dat0 V c).arrAt 3 cfg0.N = arr3 G3 :=
  (dat0 V c).arrAt_eq_of_cover 3 (arr3 G3) (fun t hf => flushed3_eq V c G3 hinv3 t hf) cover3

/-- The same, entry by entry. -/
theorem arrAt3_apply (c : Dev nD) (G3 : Fin 2 → Fin 10112 → Fin 128 → EReal)
    (hinv3 : ∀ (t : Fin cfg0.N) (k : Fin 2), t.val = k.val * 1250 + 1249 → ∀ (n : Fin 10112) (f : Fin 128),
      (outsAt0 V c t.val t.isLt).1 (ix3 (0 : Fin 1) n f) = G3 k n f)
    (k : Fin 2) (n : Fin 10112) (f : Fin 128) :
    (dat0 V c).arrAt 3 cfg0.N (ix3 k n f) = G3 k n f :=
  congrFun (arrAt3_eq V c G3 hinv3) (ix3 k n f)

/-! ## The degree output: two rows of f32[2, 1, 10112], row `k` written back by core share `k`'s last tile -/

/-- The degree output's block index at a point: (the share the point belongs to, 0, 0). -/
theorem idx_facts4 : ∀ t : Fin cfg0.N, win0_4.index t (0 : Fin 3) = t.val / 1250
    ∧ win0_4.index t (1 : Fin 3) = 0 ∧ win0_4.index t (2 : Fin 3) = 0 :=
  (by decide +kernel : ∀ t : Fin grid0.N, _)

/-- A block of one row read at an index: its last coordinate decides, the first two being 0. -/
theorem slab4_read (X : Vec Ideal S1x1x10112 .f32) (G : Fin 10112 → EReal)
    (hX : ∀ (n : Fin 10112), X (ix3 (0 : Fin 1) (0 : Fin 1) n) = G n) (y : S1x1x10112.Idx) :
    X y = G ⟨(y 2).val, (y 2).isLt⟩ := by
  have e : y = ix3 (0 : Fin 1) (0 : Fin 1) ⟨(y 2).val, (y 2).isLt⟩ := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg X e).trans (hX _)

/-- The whole degree array from its entries. -/
abbrev arr4 (G4 : Fin 2 → Fin 10112 → EReal) : S2x1x10112.Idx → EReal :=
  fun i => G4 ⟨(i 0).val, (i 0).isLt⟩ ⟨(i 2).val, (i 2).isLt⟩

/-- An index of the degree array is in point `t`'s block iff each coordinate is in the block's range on its axis. -/
theorem mem_blk4 (t : Fin cfg0.N) (i : S2x1x10112.Idx) :
    i ∈ ((cfg0.win 4).blk t).view.set ↔ ∀ a : Fin 3, win0_4.index t a * S1x1x10112.size a ≤ (i a).val ∧ (i a).val < win0_4.index t a * S1x1x10112.size a + S1x1x10112.size a := by
  show i ∈ ((View.whole main_v8_1).slice (win0_4.rect t)).set ↔ _
  rw [View.set_slice_whole, Rect.mem_set_unit]
  exact Iff.rfl

/-- WHAT A SHARE'S LAST TILE WRITES BACK is its row of the degree array: the block's entry at (0, 0, n) lands at
    (share, 0, n). -/
theorem flushed4_eq (c : Dev nD) (G4 : Fin 2 → Fin 10112 → EReal)
    (hinv4 : ∀ (t : Fin cfg0.N) (k : Fin 2), t.val = k.val * 1250 + 1249 → ∀ (n : Fin 10112),
      (outsAt0 V c t.val t.isLt).2.1 (ix3 (0 : Fin 1) (0 : Fin 1) n) = G4 k n)
    (t : Fin cfg0.N) (hf : (cfg0.win 4).flush t = true) :
    (dat0 V c).flushed 4 t = ((cfg0.win 4).blk t).view.read (Elt Ideal) (arr4 G4) := by
  show (cfg0.win 4).cut (grid0.coords t) ((dat0 V c).after 4 t) = _
  rw [after0_4]
  have h1249 : t.val % 1250 = 1249 := (flush0_4 t).mp hf
  have hN : t.val < 2500 := lt_of_lt_of_eq t.isLt (show cfg0.N = 2500 from N_0)
  obtain ⟨e0, e1, e2⟩ := idx_facts4 t
  have ht : t.val = (⟨t.val / 1250, by omega⟩ : Fin 2).val * 1250 + 1249 := by show t.val = t.val / 1250 * 1250 + 1249; omega
  funext j
  refine (slab4_read ((outsAt0 V c t.val t.isLt).2.1) (G4 ⟨t.val / 1250, by omega⟩) (hinv4 t ⟨t.val / 1250, by omega⟩ ht) ((cfg0.win 4).xinj (grid0.coords t) j)).trans ?_
  show _ = arr4 G4 (((cfg0.win 4).blk t).view.emb j)
  have h0 : t.val / 1250 = (((cfg0.win 4).blk t).view.emb j (0 : Fin 3)).val := by
    show t.val / 1250 = win0_4.index t (0 : Fin 3) * 1 + 1 * (j 0).val
    have hj : (j 0).val < 1 := (j 0).isLt
    omega
  have h2 : (j 2).val = (((cfg0.win 4).blk t).view.emb j (2 : Fin 3)).val := by
    show (j 2).val = win0_4.index t (2 : Fin 3) * 10112 + 1 * (j 2).val
    omega
  exact congr (congrArg G4 (Fin.ext h0)) (Fin.ext h2)

/-- The two rows fill the degree array: index (k, 0, n) is in the block of share `k`'s last tile. -/
theorem cover4 (i : S2x1x10112.Idx) :
    ∃ t : Fin cfg0.N, (cfg0.win 4).flush t = true ∧ i ∈ ((cfg0.win 4).blk t).view.set := by
  have hi0 : (i 0).val < 2 := (i 0).isLt
  have hi1 : (i 1).val < 1 := (i 1).isLt
  have hi2 : (i 2).val < 10112 := (i 2).isLt
  obtain ⟨t, ht⟩ : ∃ t : Fin cfg0.N, t.val = (i 0).val * 1250 + 1249 :=
    ⟨⟨(i 0).val * 1250 + 1249, by rw [show cfg0.N = 2500 from N_0]; omega⟩, rfl⟩
  obtain ⟨e0, e1, e2⟩ := idx_facts4 t
  refine ⟨t, (flush0_4 t).mpr (by omega), ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1 ≤ (i 1).val ∧ (i 1).val < win0_4.index t (1 : Fin 3) * 1 + 1; omega
  | ⟨2, _⟩ => show win0_4.index t (2 : Fin 3) * 10112 ≤ (i 2).val ∧ (i 2).val < win0_4.index t (2 : Fin 3) * 10112 + 10112; omega

/-- THE DEGREE ARRAY after the region: entry (k, 0, n) is what share `k`'s last tile left at (0, 0, n) of its block. -/
theorem arrAt4_eq (c : Dev nD) (G4 : Fin 2 → Fin 10112 → EReal)
    (hinv4 : ∀ (t : Fin cfg0.N) (k : Fin 2), t.val = k.val * 1250 + 1249 → ∀ (n : Fin 10112),
      (outsAt0 V c t.val t.isLt).2.1 (ix3 (0 : Fin 1) (0 : Fin 1) n) = G4 k n) :
    (dat0 V c).arrAt 4 cfg0.N = arr4 G4 :=
  (dat0 V c).arrAt_eq_of_cover 4 (arr4 G4) (fun t hf => flushed4_eq V c G4 hinv4 t hf) cover4

/-- The same, entry by entry. -/
theorem arrAt4_apply (c : Dev nD) (G4 : Fin 2 → Fin 10112 → EReal)
    (hinv4 : ∀ (t : Fin cfg0.N) (k : Fin 2), t.val = k.val * 1250 + 1249 → ∀ (n : Fin 10112),
      (outsAt0 V c t.val t.isLt).2.1 (ix3 (0 : Fin 1) (0 : Fin 1) n) = G4 k n)
    (k : Fin 2) (n : Fin 10112) :
    (dat0 V c).arrAt 4 cfg0.N (ix3 k (0 : Fin 1) n) = G4 k n :=
  congrFun (arrAt4_eq V c G4 hinv4) (ix3 k (0 : Fin 1) n)

end Region0

end Cert.KernelIdeal.Hand

end
-- ==== Proof.KI.K0ValD.lean ====
/-
  Region 0's value, assembled: after the region, entry (k, n, f) of the feature array is the sum over the edges of core
  share `k` of what each edge adds to (n, f), and entry (k, 0, n) of the degree array the number of those edges whose
  destination is `n` — what the last tile of each share leaves in the output blocks, carried to the arrays.
-/
import proofs.«420882_j76914274337236_3_alg».proof.Proof.KI.K0Val
import proofs.«420882_j76914274337236_3_alg».proof.Proof.KI.K0ValC

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

section Region0
-- the core's buffer contents when the region is entered
variable (V : (c : Dev nD) → (b : Ref sig .tc) → Buf (Elt Ideal) ((c : Thread nD τ).loc b))

/-- The feature array after the region, entry by entry: the sum over share `k`'s edges of each edge's term. -/
theorem arrAt0_3 (c : Dev nD) (k : Fin 2) (n : Fin 10112) (f : Fin 128) :
    (dat0 (F := Ideal) V c).arrAt 3 cfg0.N (ix3 k n f) = ∑ e ∈ coreEdges k, edgeTerm V c e n.val f :=
  arrAt3_apply V c (fun k n f => ∑ e ∈ coreEdges k, edgeTerm V c e n.val f)
    (fun t k ht n f => outsAt0_flush_3 V c t k ht n f) k n f

/-- The degree array after the region, entry by entry: the count over share `k`'s edges of those that end at `n`. -/
theorem arrAt0_4 (c : Dev nD) (k : Fin 2) (n : Fin 10112) :
    (dat0 (F := Ideal) V c).arrAt 4 cfg0.N (ix3 k (0 : Fin 1) n) = ∑ e ∈ coreEdges k, edgeCount V c e n.val :=
  arrAt4_apply V c (fun k n => ∑ e ∈ coreEdges k, edgeCount V c e n.val)
    (fun t k ht n => outsAt0_flush_4 V c t k ht n) k n

end Region0

end Cert.KernelIdeal.Hand

end
-- ==== Proof.KI.Pay1.lean ====
/-
  The node-tile kernel's one payload, read at one index, at the ideal instance (floats are extended reals and every
  format change is the identity): row `r`, output feature `o` of the stored block is the row's summed features, each
  divided by the row's edge count (by one where the count is zero), times the first weight matrix's column `o`, plus
  the row's own features times the second weight matrix's column `o`. Pure arithmetic: both matrix products accumulate
  into a zero block, and in the extended reals `0 + s = s`.
-/
import proofs.«420882_j76914274337236_3_alg».proof.Proof.Gen.KernelIdeal.Skeleton
import proofs.«420882_j76914274337236_3_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Pay1

open Idealize.ShloMosaic Idealize.ShloMosaic.ValueIdx Cert.KernelIdeal Cert.KernelIdeal.Gen

/-! ## The product's operand indices: rows times columns, contracting the left operand's axis 1 with the right's axis 0 -/

/-- The left operand's row is the output's row … -/
theorem lhs_0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
/-- … its column the contraction position … -/
theorem lhs_1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
/-- … the right operand's row the contraction position … -/
theorem rhs_0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
/-- … and its column the output's column. -/
theorem rhs_1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl

/-- A matrix product into the zero block, read at row `r`, column `o`: the sum over the 128 contraction positions of the
    left operand's row `r` times the right operand's column `o`. -/
theorem matmul_zero_apply (a b : FVec Ideal S128x128 .bf16) (r o : Fin 128) :
    matmul dot_S128x128_S128x128_S128x128_1_0_0_1_n_n none a b (constant S128x128 .f32 0x00000000#32) (ix2 r o) = ∑ f : Fin 128, a (ix2 r f) * b (ix2 f o) := by
  show FloatOps.matmul dot_S128x128_S128x128_S128x128_1_0_0_1_n_n none a b (constant S128x128 .f32 0x00000000#32) (ix2 r o) = _
  rw [Ideal.matmul_constant_zero_apply, ← Equiv.sum_comp (contrEquiv1 dot_S128x128_S128x128_S128x128_1_0_0_1_n_n 128 rfl rfl).symm]
  refine Finset.sum_congr rfl fun k _ => ?_
  have hk := contrEquiv1_symm_val dot_S128x128_S128x128_S128x128_1_0_0_1_n_n 128 rfl rfl k
  have el : dot_S128x128_S128x128_S128x128_1_0_0_1_n_n.lhsIdx (ix2 r o) ((contrEquiv1 dot_S128x128_S128x128_S128x128_1_0_0_1_n_n 128 rfl rfl).symm k) = ix2 r k := funext fun a => Fin.ext (by
    match a with
    | ⟨0, _⟩ => exact lhs_0 _ _
    | ⟨1, _⟩ => exact (lhs_1 _ _).trans hk)
  have er : dot_S128x128_S128x128_S128x128_1_0_0_1_n_n.rhsIdx (ix2 r o) ((contrEquiv1 dot_S128x128_S128x128_S128x128_1_0_0_1_n_n 128 rfl rfl).symm k) = ix2 k o := funext fun a => Fin.ext (by
    match a with
    | ⟨0, _⟩ => exact (rhs_0 _ _).trans hk
    | ⟨1, _⟩ => exact rhs_1 _ _)
  rw [el, er]

/-! ## The payload at an index -/

/-- A column of 128 values laid along 128 columns reads its row's value everywhere. -/
theorem broadcastTo_col_apply {α : Type} (x : S128x1.Idx → α) (h : S128x1.Broadcasts S128x128) (r f : Fin 128) :
    broadcastTo S128x128 x h (ix2 r f) = x (ix2 r (0 : Fin 1)) :=
  broadcastTo_apply x h (ix2 r f) (ix2 r (0 : Fin 1)) (fun a => by
    match a with
    | ⟨0, _⟩ => rfl
    | ⟨1, _⟩ => rfl)

/-- THE PAYLOAD AT ROW `r`, OUTPUT FEATURE `o`: the normalised sums times the first weight matrix's column, plus the row's
    own features times the second's. The divisor is the row's count, or one where the count is zero. -/
theorem k1_pay1_apply (v0 : Vec Ideal S128x1 .f32) (v6 : Vec Ideal S128x128 .f32) (v11 v13 v16 : Vec Ideal S128x128 .bf16) (r o : Fin 128) :
    k1_pay1 (F := Ideal) v0 v6 v11 v13 v16 (ix2 r o)
      = (∑ f : Fin 128, Ideal.div (v6 (ix2 r f)) (Cert.Spec.degSafe (v0 (ix2 r (0 : Fin 1)))) * v13 (ix2 f o))
        + ∑ f : Fin 128, v11 (ix2 r f) * v16 (ix2 f o) := by
  unfold k1_pay1
  refine (addf_apply _ _ _).trans ?_
  refine congrArg₂ (· + ·) ?_ ?_
  · refine (matmul_zero_apply _ _ r o).trans ?_
    refine Finset.sum_congr rfl fun f _ => ?_
    rw [shapeCast_self v13]
    refine congrArg (· * v13 (ix2 f o)) ?_
    refine (truncf_apply (φ := .f32) (ψ := .bf16) _ bitsLt_bf16_f32 _).trans ?_
    refine (divf_apply _ _ _).trans ?_
    rw [shapeCast_self v6, broadcastTo_col_apply, shapeCast_self v0]
    rfl
  · refine (matmul_zero_apply _ _ r o).trans ?_
    refine Finset.sum_congr rfl fun f _ => ?_
    rw [shapeCast_self v11, shapeCast_self v16]

end Cert.KernelIdeal.Pay1

end
-- ==== Proof.KI.K1Val.lean ====
/-
  Region 1 (the node-update kernel), its value: what the result array holds after the region's 79 points, entry by
  entry, as a function of the five arrays the region reads, at the ideal instance.

  Point t stores, as rows 128 t .. 128 t + 127 of the result, the payload of the five blocks it finds: rows
  128 t .. 128 t + 127 of the aggregated features, of the degree column and of the node features, and the two whole
  weight matrices. The payload at row r, column o reads row r of the three row blocks and column o of the two matrices,
  so the block point t writes back is block t of ONE function of the five arrays: row n, column o of that function is
  the sum over f of (aggregated n f / guarded degree n) * first weights f o, plus the sum over f of node n f * second
  weights f o. The 79 blocks tile the 10112 rows (row n lies in block n / 128), so the array ends holding that function.
-/
import proofs.«420882_j76914274337236_3_alg».proof.Proof.KI.Reg1
import proofs.«420882_j76914274337236_3_alg».proof.Proof.KI.Pay1
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The whole-array function -/

/-- Row (j 0), column (j 1) of the result, from the aggregated features a9, the degree column a11, the node features
    a1 and the two weight matrices a13, a15. -/
def G1 (a9 : S10112x128.Idx → EReal) (a11 : S10112x1.Idx → EReal) (a1 : S10112x128.Idx → EReal)
    (a13 a15 : S128x128.Idx → EReal) : S10112x128.Idx → EReal := fun j =>
  (∑ f : Fin 128, Ideal.div (a9 (ix2 (⟨(j 0).val, idx2_lt0 j⟩ : Fin 10112) f))
      (Cert.Spec.degSafe (a11 (ix2 (⟨(j 0).val, idx2_lt0 j⟩ : Fin 10112) (0 : Fin 1)))) * a13 (ix2 f (⟨(j 1).val, idx2_lt1 j⟩ : Fin 128)))
    + ∑ f : Fin 128, a1 (ix2 (⟨(j 0).val, idx2_lt0 j⟩ : Fin 10112) f) * a15 (ix2 f (⟨(j 1).val, idx2_lt1 j⟩ : Fin 128))

/-- The payload of five blocks that are rows 128 q .. 128 q + 127 of the three row arrays and the two whole matrices,
    read at row r, column o, is the whole-array function at row 128 q + r, column o. -/
theorem pay_eq_G1 (x0 : Vec Ideal S128x128 .f32) (x1 : Vec Ideal S128x1 .f32) (x2 x3 x4 : Vec Ideal S128x128 .bf16)
    (a9 : S10112x128.Idx → EReal) (a11 : S10112x1.Idx → EReal) (a1 : S10112x128.Idx → EReal) (a13 a15 : S128x128.Idx → EReal)
    (q : Nat) (hq : q < 79)
    (h0 : ∀ r f : Fin 128, x0 (ix2 r f) = a9 (ix2 (⟨128 * q + r.val, by omega⟩ : Fin 10112) f))
    (h1 : ∀ r : Fin 128, x1 (ix2 r (0 : Fin 1)) = a11 (ix2 (⟨128 * q + r.val, by omega⟩ : Fin 10112) (0 : Fin 1)))
    (h2 : ∀ r f : Fin 128, x2 (ix2 r f) = a1 (ix2 (⟨128 * q + r.val, by omega⟩ : Fin 10112) f))
    (h3 : ∀ f o : Fin 128, x3 (ix2 f o) = a13 (ix2 f o)) (h4 : ∀ f o : Fin 128, x4 (ix2 f o) = a15 (ix2 f o)) (r o : Fin 128) :
    k1_pay1 (F := Ideal) x1 x0 x2 x3 x4 (ix2 r o) = G1 a9 a11 a1 a13 a15 (ix2 (⟨128 * q + r.val, by omega⟩ : Fin 10112) o) := by
  refine (Cert.KernelIdeal.Pay1.k1_pay1_apply x1 x0 x2 x3 x4 r o).trans ?_
  unfold G1
  refine congrArg₂ (· + ·) ?_ ?_
  · refine Finset.sum_congr rfl fun f _ => ?_
    rw [h0 r f, h1 r, h3 f o]
  · refine Finset.sum_congr rfl fun f _ => ?_
    rw [h2 r f, h4 f o]

/-- The same at any index y of the block and any index i of the array whose row is 128 q + y's row and whose column is
    y's column. -/
theorem pay_eq_G1_at (x0 : Vec Ideal S128x128 .f32) (x1 : Vec Ideal S128x1 .f32) (x2 x3 x4 : Vec Ideal S128x128 .bf16)
    (a9 : S10112x128.Idx → EReal) (a11 : S10112x1.Idx → EReal) (a1 : S10112x128.Idx → EReal) (a13 a15 : S128x128.Idx → EReal)
    (q : Nat) (hq : q < 79)
    (h0 : ∀ r f : Fin 128, x0 (ix2 r f) = a9 (ix2 (⟨128 * q + r.val, by omega⟩ : Fin 10112) f))
    (h1 : ∀ r : Fin 128, x1 (ix2 r (0 : Fin 1)) = a11 (ix2 (⟨128 * q + r.val, by omega⟩ : Fin 10112) (0 : Fin 1)))
    (h2 : ∀ r f : Fin 128, x2 (ix2 r f) = a1 (ix2 (⟨128 * q + r.val, by omega⟩ : Fin 10112) f))
    (h3 : ∀ f o : Fin 128, x3 (ix2 f o) = a13 (ix2 f o)) (h4 : ∀ f o : Fin 128, x4 (ix2 f o) = a15 (ix2 f o))
    (y : S128x128.Idx) (i : S10112x128.Idx) (hi0 : (i 0).val = 128 * q + (y 0).val) (hi1 : (i 1).val = (y 1).val) :
    k1_pay1 (F := Ideal) x1 x0 x2 x3 x4 y = G1 a9 a11 a1 a13 a15 i := by
  obtain ⟨r, o, rfl⟩ : ∃ r o : Fin 128, y = ix2 r o := ⟨y 0, y 1, eq_ix2 y⟩
  have hi : i = ix2 (⟨128 * q + r.val, by omega⟩ : Fin 10112) o :=
    funext fun a => Fin.ext (match a with | ⟨0, _⟩ => hi0 | ⟨1, _⟩ => hi1)
  rw [hi]
  exact pay_eq_G1 x0 x1 x2 x3 x4 a9 a11 a1 a13 a15 q hq h0 h1 h2 h3 h4 r o

/-! ## The printed index maps, decided over the 79 points -/

theorem hz1 : (![0, 0] : Fin 2 → Nat) = fun _ => 0 := funext fun a => by fin_cases a <;> rfl

/-- The three row windows and the result window are at block row t, block column 0 at point t; the two matrix windows
    at block (0, 0) at every point. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt1 (t : Fin cfg1.N) : t.val < 79 := Nat.lt_of_lt_of_eq t.isLt N_1

section Region1Value
variable (V : (c : Dev nD) → (b : Ref sig .tc) → Buf (Elt Ideal) ((c : Thread nD τ).loc b))

/-! ## Each input block as rows of its array -/

/-- The aggregated-feature block at point t is rows 128 t .. 128 t + 127 of its array. -/
theorem iblk1_0_apply (c : Dev nD) (t : Fin cfg1.N) (r f : Fin 128) :
    (iblk1 V c 0 t : Vec Ideal S128x128 .f32) (ix2 r f)
      = (V c main_v9 : S10112x128.Idx → EReal) (ix2 (⟨128 * t.val + r.val, by have := t_lt1 t; omega⟩ : Fin 10112) f) := by
  obtain ⟨e0, e1, -⟩ := idx_facts1 t
  unfold iblk1
  rw [View.read_apply]
  show V c main_v9 (((cfg1.win 0).blk t).view.emb (ix2 r f)) = V c main_v9 _
  refine congrArg (V c main_v9) (funext fun a => Fin.ext ?_)
  match a with
  | ⟨0, _⟩ => show win1_0.index t (0 : Fin 2) * 128 + 1 * r.val = 128 * t.val + r.val; omega
  | ⟨1, _⟩ => show win1_0.index t (1 : Fin 2) * 128 + 1 * f.val = f.val; omega

/-- The degree block at point t is rows 128 t .. 128 t + 127 of the degree column. -/
theorem iblk1_1_apply (c : Dev nD) (t : Fin cfg1.N) (r : Fin 128) :
    (iblk1 V c 1 t : Vec Ideal S128x1 .f32) (ix2 r (0 : Fin 1))
      = (V c main_v11 : S10112x1.Idx → EReal) (ix2 (⟨128 * t.val + r.val, by have := t_lt1 t; omega⟩ : Fin 10112) (0 : Fin 1)) := by
  obtain ⟨-, -, e0, e1, -⟩ := idx_facts1 t
  unfold iblk1
  rw [View.read_apply]
  show V c main_v11 (((cfg1.win 1).blk t).view.emb (ix2 r (0 : Fin 1))) = V c main_v11 _
  refine congrArg (V c main_v11) (funext fun a => Fin.ext ?_)
  match a with
  | ⟨0, _⟩ => show win1_1.index t (0 : Fin 2) * 128 + 1 * r.val = 128 * t.val + r.val; omega
  | ⟨1, _⟩ => show win1_1.index t (1 : Fin 2) * 1 + 1 * 0 = 0; omega

/-- The node-feature block at point t is rows 128 t .. 128 t + 127 of the node features. -/
theorem iblk1_2_apply (c : Dev nD) (t : Fin cfg1.N) (r f : Fin 128) :
    (iblk1 V c 2 t : Vec Ideal S128x128 .bf16) (ix2 r f)
      = (V c main_v1 : S10112x128.Idx → EReal) (ix2 (⟨128 * t.val + r.val, by have := t_lt1 t; omega⟩ : Fin 10112) f) := by
  obtain ⟨-, -, -, -, e0, e1, -⟩ := idx_facts1 t
  unfold iblk1
  rw [View.read_apply]
  show V c main_v1 (((cfg1.win 2).blk t).view.emb (ix2 r f)) = V c main_v1 _
  refine congrArg (V c main_v1) (funext fun a => Fin.ext ?_)
  match a with
  | ⟨0, _⟩ => show win1_2.index t (0 : Fin 2) * 128 + 1 * r.val = 128 * t.val + r.val; omega
  | ⟨1, _⟩ => show win1_2.index t (1 : Fin 2) * 128 + 1 * f.val = f.val; omega

/-- The first weight matrix's block is the whole matrix at every point. -/
theorem iblk1_3_apply (c : Dev nD) (t : Fin cfg1.N) (f o : Fin 128) :
    (iblk1 V c 3 t : Vec Ideal S128x128 .bf16) (ix2 f o) = (V c main_v13 : S128x128.Idx → EReal) (ix2 f o) := by
  obtain ⟨-, -, -, -, -, -, e0, e1, -⟩ := idx_facts1 t
  unfold iblk1
  rw [View.read_apply]
  show V c main_v13 (((cfg1.win 3).blk t).view.emb (ix2 f o)) = V c main_v13 _
  refine congrArg (V c main_v13) (funext fun a => Fin.ext ?_)
  match a with
  | ⟨0, _⟩ => show win1_3.index t (0 : Fin 2) * 128 + 1 * f.val = f.val; omega
  | ⟨1, _⟩ => show win1_3.index t (1 : Fin 2) * 128 + 1 * o.val = o.val; omega

/-- The second weight matrix's block is the whole matrix at every point. -/
theorem iblk1_4_apply (c : Dev nD) (t : Fin cfg1.N) (f o : Fin 128) :
    (iblk1 V c 4 t : Vec Ideal S128x128 .bf16) (ix2 f o) = (V c main_v15 : S128x128.Idx → EReal) (ix2 f o) := by
  obtain ⟨-, -, -, -, -, -, -, -, e0, e1, -⟩ := idx_facts1 t
  unfold iblk1
  rw [View.read_apply]
  show V c main_v15 (((cfg1.win 4).blk t).view.emb (ix2 f o)) = V c main_v15 _
  refine congrArg (V c main_v15) (funext fun a => Fin.ext ?_)
  match a with
  | ⟨0, _⟩ => show win1_4.index t (0 : Fin 2) * 128 + 1 * f.val = f.val; omega
  | ⟨1, _⟩ => show win1_4.index t (1 : Fin 2) * 128 + 1 * o.val = o.val; omega

/-! ## What a point writes back -/

/-- The result array the region leaves. -/
abbrev G1V (c : Dev nD) : S10112x128.Idx → EReal :=
  G1 (V c main_v9) (V c main_v11) (V c main_v1) (V c main_v13) (V c main_v15)

/-- WHAT POINT t WRITES BACK is block t (rows 128 t .. 128 t + 127) of the whole-array function of the five arrays. -/
theorem flushed1_5_eq (c : Dev nD) (t : Fin cfg1.N) :
    (dat1 (F := Ideal) V c).flushed 5 t = ((cfg1.win 5).blk t).view.read (Elt Ideal) (G1V V c) := by
  show (cfg1.win 5).cut (grid1.coords t) ((dat1 V c).after 5 t) = _
  rw [after1_5]
  unfold out1_5
  rw [View.canon_unit_zero hz1]
  simp only [View.ld_unit_zero (S := S128x128) hz1, View.ld_unit_zero (S := S128x1) hz1]
  obtain ⟨-, -, -, -, -, -, -, -, -, -, e0, e1⟩ := idx_facts1 t
  funext j
  rw [View.read_apply]
  refine pay_eq_G1_at (iblk1 V c 0 t) (iblk1 V c 1 t) (iblk1 V c 2 t) (iblk1 V c 3 t) (iblk1 V c 4 t)
    (V c main_v9) (V c main_v11) (V c main_v1) (V c main_v13) (V c main_v15) t.val (t_lt1 t)
    (iblk1_0_apply V c t) (iblk1_1_apply V c t) (iblk1_2_apply V c t) (iblk1_3_apply V c t) (iblk1_4_apply V c t)
    ((cfg1.win 5).xinj (grid1.coords t) j) (((cfg1.win 5).blk t).view.emb j) ?_ ?_
  · show win1_5.index t (0 : Fin 2) * 128 + 1 * (j 0).val = 128 * t.val + (j 0).val; omega
  · show win1_5.index t (1 : Fin 2) * 128 + 1 * (j 1).val = (j 1).val; omega

/-! ## The blocks tile the array -/

/-- An index of the result array is in point t's block iff each coordinate is in the block's range on its axis. -/
theorem mem_blk1_5 (t : Fin cfg1.N) (i : S10112x128.Idx) :
    i ∈ ((cfg1.win 5).blk t).view.set ↔ ∀ a : Fin 2, win1_5.index t a * S128x128.size a ≤ (i a).val ∧ (i a).val < win1_5.index t a * S128x128.size a + S128x128.size a := by
  show i ∈ ((View.whole main_v16).slice (win1_5.rect t)).set ↔ _
  rw [View.set_slice_whole, Rect.mem_set_unit]
  exact Iff.rfl

/-- Row n of the result lies in the block of point n / 128, and every point writes its block back. -/
theorem cover1_5_arr (i : S10112x128.Idx) :
    ∃ t : Fin cfg1.N, (cfg1.win 5).flush t = true ∧ i ∈ ((cfg1.win 5).blk t).view.set := by
  have hi0 : (i 0).val < 10112 := idx2_lt0 i
  have hi1 : (i 1).val < 128 := idx2_lt1 i
  have hN : (i 0).val / 128 < cfg1.N := Nat.lt_of_lt_of_eq (by omega : (i 0).val / 128 < 79) N_1.symm
  obtain ⟨-, -, -, -, -, -, -, -, -, -, e0, e1⟩ := idx_facts1 ⟨(i 0).val / 128, hN⟩
  have q0 : win1_5.index ⟨(i 0).val / 128, hN⟩ (0 : Fin 2) = (i 0).val / 128 := e0
  refine ⟨⟨(i 0).val / 128, hN⟩, flush1_5 _, ?_⟩
  rw [mem_blk1_5]
  intro a
  match a with
  | ⟨0, _⟩ => show win1_5.index ⟨(i 0).val / 128, hN⟩ (0 : Fin 2) * 128 ≤ (i 0).val ∧ (i 0).val < win1_5.index ⟨(i 0).val / 128, hN⟩ (0 : Fin 2) * 128 + 128; omega
  | ⟨1, _⟩ => show win1_5.index ⟨(i 0).val / 128, hN⟩ (1 : Fin 2) * 128 ≤ (i 1).val ∧ (i 1).val < win1_5.index ⟨(i 0).val / 128, hN⟩ (1 : Fin 2) * 128 + 128; omega

/-! ## The array after the region -/

/-- THE RESULT ARRAY after the region's last point is the whole-array function of the five arrays the region reads. -/
theorem final1_5 (c : Dev nD) : (dat1 (F := Ideal) V c).arrAt 5 cfg1.N = G1V V c :=
  (dat1 (F := Ideal) V c).arrAt_eq_of_cover 5 (G1V V c) (fun t _ => flushed1_5_eq V c t) cover1_5_arr

/-- The five arrays the region reads, each as a function from its indices to the extended reals: the aggregated features,
    the degree column, the node features, the first and the second weight matrix. -/
abbrev aggArr1 (c : Dev nD) : S10112x128.Idx → EReal := V c main_v9
abbrev degArr1 (c : Dev nD) : S10112x1.Idx → EReal := V c main_v11
abbrev nodeArr1 (c : Dev nD) : S10112x128.Idx → EReal := V c main_v1
abbrev wgtA1 (c : Dev nD) : S128x128.Idx → EReal := V c main_v13
abbrev wgtB1 (c : Dev nD) : S128x128.Idx → EReal := V c main_v15

/-- Entry (n, o) of the result array after the region: the sum over f of (aggregated n f / guarded degree n) times the first
    weights' (f, o), plus the sum over f of node n f times the second weights' (f, o). -/
theorem arrAt1_5 (c : Dev nD) (n : Fin 10112) (o : Fin 128) :
    (dat1 (F := Ideal) V c).arrAt 5 cfg1.N (ix2 n o)
      = (∑ f : Fin 128, Ideal.div (aggArr1 V c (ix2 n f)) (Cert.Spec.degSafe (degArr1 V c (ix2 n (0 : Fin 1)))) * wgtA1 V c (ix2 f o))
        + ∑ f : Fin 128, nodeArr1 V c (ix2 n f) * wgtB1 V c (ix2 f o) :=
  congrFun (final1_5 V c) (ix2 n o)

end Region1Value

end Cert.KernelIdeal.Hand

end
-- ==== Proof.EdgeFacts.lean ====
/-
  Words and edges: the small facts that turn the tiled computation's sums, which compare 32-bit words with node numbers
  and read the zero-padded node features, into the specification's sums, under the range of the source words.
  A word equals the word of a number below 2^31 exactly when its signed value is that number; a word whose signed value
  lies in [0, 10000) has that value as its unsigned value and names the node of that number; the padded features agree
  with the features on the first 10000 rows; and the edges below 320000 together with the edges from 320000 on are all
  the edges.
-/
import proofs.«420882_j76914274337236_3_alg».proof.Proof.Spec
import Idealize.ShloMosaic.Lib.StableHlo.Predicate

noncomputable section

open scoped BigOperators

namespace Cert.EdgeFacts

open Idealize.ShloMosaic Idealize.ShloMosaic.ValueIdx Cert.Spec

theorem eq_ofNat_iff_toInt (w : BitVec 32) (n : ℕ) (hn : n < 2 ^ 31) : w = BitVec.ofNat 32 n ↔ w.toInt = (n : ℤ) := by
  constructor
  · rintro rfl; exact StableHlo.Predicate.toInt_ofNat_small n hn
  · intro h
    apply BitVec.eq_of_toInt_eq
    rw [h, StableHlo.Predicate.toInt_ofNat_small n hn]

theorem toNat_of_range {w : BitVec 32} (h0 : 0 ≤ w.toInt) (h1 : w.toInt < 10000) :
    w.toNat < 10000 ∧ (node w).val = w.toNat := by
  have hc := BitVec.toInt_eq_toNat_cond w
  have hlt := w.isLt
  unfold node
  simp only
  split at hc <;> omega

/-- One edge's contribution to a feature sum, as the tiled computation forms it and as the specification states it. -/
theorem term_eq (x : SX.Idx → EReal) (ei : SE.Idx → BitVec 32) (X : (⟨2, ![10112, 128]⟩ : Shape).Idx → EReal)
    (hX : ∀ (n : Fin 10112) (f : Fin 128), X (ix2 n f) = if h : n.val < 10000 then x (ix2 ⟨n.val, h⟩ f) else 0)
    (e : Fin 640000) (h0 : 0 ≤ (src ei e).toInt) (h1 : (src ei e).toInt < 10000) (n : ℕ) (hn : n < 10112) (f : Fin 128) :
    (if dst ei e = BitVec.ofNat 32 n then
        (if h : (src ei e).toNat < 10112 then X (ix2 ⟨(src ei e).toNat, h⟩ f) else 0) else 0)
      = if (dst ei e).toInt = (n : ℤ) then msg x ei e f else 0 := by
  obtain ⟨hlt, hnode⟩ := toNat_of_range h0 h1
  have hiff := eq_ofNat_iff_toInt (dst ei e) n (by omega)
  by_cases hd : (dst ei e).toInt = (n : ℤ)
  · rw [if_pos (hiff.mpr hd), if_pos hd, dif_pos (by omega), hX, dif_pos hlt]
    unfold msg
    exact congrArg (fun k => x (ix2 k f)) (Fin.ext hnode.symm)
  · rw [if_neg (fun h => hd (hiff.mp h)), if_neg hd]

/-- One edge's contribution to a count. -/
theorem count_eq (ei : SE.Idx → BitVec 32) (e : Fin 640000) (n : ℕ) (hn : n < 10112) :
    (if dst ei e = BitVec.ofNat 32 n then (1 : EReal) else 0) = if (dst ei e).toInt = (n : ℤ) then 1 else 0 := by
  have hiff := eq_ofNat_iff_toInt (dst ei e) n (by omega)
  by_cases hd : (dst ei e).toInt = (n : ℤ)
  · rw [if_pos (hiff.mpr hd), if_pos hd]
  · rw [if_neg (fun h => hd (hiff.mp h)), if_neg hd]

/-- The two halves of the edge list are all the edges. -/
theorem core_split (g : Fin 640000 → EReal) :
    (∑ e ∈ Finset.univ.filter (fun e : Fin 640000 => e.val / 320000 = 0), g e)
      + (∑ e ∈ Finset.univ.filter (fun e : Fin 640000 => e.val / 320000 = 1), g e) = ∑ e, g e := by
  have h1 : (Finset.univ.filter (fun e : Fin 640000 => e.val / 320000 = 1))
      = Finset.univ.filter (fun e : Fin 640000 => ¬ e.val / 320000 = 0) := by
    ext e
    simp only [Finset.mem_filter, Finset.mem_univ, true_and]
    have := e.isLt
    omega
  rw [h1, Finset.sum_filter_add_sum_filter_not]

end Cert.EdgeFacts

end
-- ==== Proof.KI.KVal.lean ====
/-
  The idealized program's result is the specification.
  Under the source words' range, each edge's contribution to the tiled sums is the specification's, so the edge-tile
  region leaves each core's partial feature sums and edge counts; the stretch after it adds the two cores' halves into
  the whole sums; the node-tile region divides, multiplies by the transposed weights and adds the node's own features
  times the second weights; the final cut keeps the 10000 real nodes, on whose rows the zero padding plays no part.
-/
import proofs.«420882_j76914274337236_3_alg».proof.Proof.KI.Entry0
import proofs.«420882_j76914274337236_3_alg».proof.Proof.KI.K0ValD
import proofs.«420882_j76914274337236_3_alg».proof.Proof.KI.K1Val
import proofs.«420882_j76914274337236_3_alg».proof.Proof.EdgeFacts
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Cert.Spec Cert.EdgeFacts Idealize.ShloMosaic.ValueIdx Cert.KernelIdeal.HostIdx

variable (m : (ℓ : Loc nD τ sig) → Buf (Elt Ideal) ℓ)

/-! ## The buffers the value passes through, at their literal types -/

/-- The padded node features the edge-tile region is given. -/
abbrev featP (c : Dev nD) : S10112x128.Idx → EReal := V3 m c main_v1
/-- The source and destination columns it is given. -/
abbrev srcCol (c : Dev nD) : S640000x1.Idx → BitVec 32 := V3 m c main_v4
abbrev dstCol (c : Dev nD) : S640000x1.Idx → BitVec 32 := V3 m c main_v7
/-- The two cores' partial feature sums and edge counts it leaves. -/
abbrev part0 (c : Dev nD) : S2x10112x128.Idx → EReal := W4 m c (Proc.devRef .tc main_v8_0)
abbrev part1 (c : Dev nD) : S2x1x10112.Idx → EReal := W4 m c (Proc.devRef .tc main_v8_1)
/-- The node-tile region's result array and the program's result. -/
abbrev outArr (c : Dev nD) : S10112x128.Idx → EReal := W6 m c (Proc.devRef .tc main_v16)
abbrev resArr (c : Dev nD) : S10000x128.Idx → EReal := W7 m c (Proc.devRef .tc main_v17)

/-! ## One edge's contribution, in the specification's terms -/

theorem edgeTerm_spec (c : Dev nD) (hp : PreFacts (ax m c) (ae m c) (aw m c) (ab m c)) (e : Fin 640000) (n : ℕ) (hn : n < 10112)
    (f : Fin 128) :
    edgeTerm (V3 m) c e n f = if (dst (ae m c) e).toInt = (n : ℤ) then msg (ax m c) (ae m c) e f else 0 := by
  have key : ∀ (sw dw : BitVec 32), srcCol m c (ix2 e (0 : Fin 1)) = sw → dstCol m c (ix2 e (0 : Fin 1)) = dw →
      edgeTerm (V3 m) c e n f = if dw = BitVec.ofNat 32 n then
        (if h : sw.toNat < 10112 then featP m c (ix2 ⟨sw.toNat, h⟩ f) else 0) else 0 := by
    intro sw dw hs hd; subst hs; subst hd; rfl
  rw [key _ _ (V3_src m c e) (V3_dst m c e)]
  exact term_eq (ax m c) (ae m c) (featP m c) (V3_x m c) e (hp.src_lo e) (hp.src_hi e) n hn f

theorem edgeCount_spec (c : Dev nD) (e : Fin 640000) (n : ℕ) (hn : n < 10112) :
    edgeCount (V3 m) c e n = if (dst (ae m c) e).toInt = (n : ℤ) then 1 else 0 := by
  have key : ∀ (dw : BitVec 32), dstCol m c (ix2 e (0 : Fin 1)) = dw →
      edgeCount (V3 m) c e n = if dw = BitVec.ofNat 32 n then 1 else 0 := by
    intro dw hd; subst hd; rfl
  rw [key _ (V3_dst m c e)]
  exact count_eq (ae m c) e n hn

/-! ## After the edge-tile region: each core's partial sums -/

theorem W4_part (c : Dev nD) (hp : PreFacts (ax m c) (ae m c) (aw m c) (ab m c)) (k : Fin 2) (n : Fin 10112) (f : Fin 128) :
    part0 m c (ix3 k n f) = aggOn (coreEdges k) (ax m c) (ae m c) n.val f := by
  have h : part0 m c = (dat0 (V3 m) c).arrAt 3 cfg0.N := W4_arr m c 3
  have hs : (∑ e ∈ coreEdges k, edgeTerm (V3 m) c e n.val f) = aggOn (coreEdges k) (ax m c) (ae m c) n.val f := by
    unfold aggOn
    exact Finset.sum_congr rfl fun e _ => edgeTerm_spec m c hp e n.val n.isLt f
  exact (congrFun h (ix3 k n f)).trans ((arrAt0_3 (V3 m) c k n f).trans hs)

theorem W4_cnt (c : Dev nD) (k : Fin 2) (n : Fin 10112) :
    part1 m c (ix3 k (0 : Fin 1) n) = degOn (coreEdges k) (ae m c) n.val := by
  have h : part1 m c = (dat0 (V3 m) c).arrAt 4 cfg0.N := W4_arr m c 4
  have hs : (∑ e ∈ coreEdges k, edgeCount (V3 m) c e n.val) = degOn (coreEdges k) (ae m c) n.val := by
    unfold degOn
    exact Finset.sum_congr rfl fun e _ => edgeCount_spec m c e n.val n.isLt
  exact (congrFun h (ix3 k (0 : Fin 1) n)).trans ((arrAt0_4 (V3 m) c k n).trans hs)

/-! ## The node-tile region's entry contents -/

theorem coreEdges_zero : coreEdges (0 : Fin 2) = Finset.univ.filter (fun e : Fin 640000 => e.val / 320000 = 0) := rfl
theorem coreEdges_one : coreEdges (1 : Fin 2) = Finset.univ.filter (fun e : Fin 640000 => e.val / 320000 = 1) := rfl

/-- The whole feature sums. -/
theorem V5_agg (c : Dev nD) (hp : PreFacts (ax m c) (ae m c) (aw m c) (ab m c)) (n : Fin 10112) (f : Fin 128) :
    aggArr1 (V5 m) c (ix2 n f) = aggOn Finset.univ (ax m c) (ae m c) n.val f := by
  have h : aggArr1 (V5 m) c (ix2 n f) = part0 m c (ix3 (0 : Fin 2) n f) + part0 m c (ix3 (1 : Fin 2) n f) := by
    show StableHlo.after (hostOps1 (F := Ideal)) (W4 m c) (Proc.devRef .tc main_v9) (ix2 n f) = _
    after_results
    exact core_sum_apply _ _ _ n f
  rw [h, W4_part m c hp 0 n f, W4_part m c hp 1 n f, coreEdges_zero, coreEdges_one]
  unfold aggOn
  exact core_split _

/-- The whole edge counts, as a column. -/
theorem V5_deg (c : Dev nD) (n : Fin 10112) :
    degArr1 (V5 m) c (ix2 n (0 : Fin 1)) = degOn Finset.univ (ae m c) n.val := by
  have h : degArr1 (V5 m) c (ix2 n (0 : Fin 1)) = part1 m c (ix3 (0 : Fin 2) (0 : Fin 1) n) + part1 m c (ix3 (1 : Fin 2) (0 : Fin 1) n) := by
    show StableHlo.after (hostOps1 (F := Ideal)) (W4 m c) (Proc.devRef .tc main_v11) (ix2 n (0 : Fin 1)) = _
    after_results
    exact core_sum_col_apply _ _ _ _ n
  rw [h, W4_cnt m c 0 n, W4_cnt m c 1 n, coreEdges_zero, coreEdges_one]
  unfold degOn
  exact core_split _

theorem W4_arg2 (c : Dev nD) : W4 m c (Proc.devRef .tc main_arg2) = m ((c : Thread nD τ).loc main_arg2) :=
  (W4_of_ne m c main_arg2 (by decide)).trans ((StableHlo.after_of_writes_sub hostOps0_2 _ hostOps0_2_writes (by decide)).trans
    ((StableHlo.after_of_writes_sub hostOps0_1 _ hostOps0_1_writes (by decide)).trans
      ((StableHlo.after_of_writes_sub hostOps0 _ hostOps0_writes (by decide)).trans rfl)))
theorem W4_arg3 (c : Dev nD) : W4 m c (Proc.devRef .tc main_arg3) = m ((c : Thread nD τ).loc main_arg3) :=
  (W4_of_ne m c main_arg3 (by decide)).trans ((StableHlo.after_of_writes_sub hostOps0_2 _ hostOps0_2_writes (by decide)).trans
    ((StableHlo.after_of_writes_sub hostOps0_1 _ hostOps0_1_writes (by decide)).trans
      ((StableHlo.after_of_writes_sub hostOps0 _ hostOps0_writes (by decide)).trans rfl)))

/-- The transposed first weights. -/
theorem V5_wt (c : Dev nD) (f o : Fin 128) : wgtA1 (V5 m) c (ix2 f o) = aw m c (ix2 o f) := by
  have h : wgtA1 (V5 m) c (ix2 f o) = (show S128x128.Idx → EReal from W4 m c (Proc.devRef .tc main_arg2)) (ix2 o f) := by
    show StableHlo.after (hostOps1 (F := Ideal)) (W4 m c) (Proc.devRef .tc main_v13) (ix2 f o) = _
    after_results
    exact weights_apply _ _ _ f o
  exact h.trans (congrFun (W4_arg2 m c) _)
/-- The transposed second weights. -/
theorem V5_bt (c : Dev nD) (f o : Fin 128) : wgtB1 (V5 m) c (ix2 f o) = ab m c (ix2 o f) := by
  have h : wgtB1 (V5 m) c (ix2 f o) = (show S128x128.Idx → EReal from W4 m c (Proc.devRef .tc main_arg3)) (ix2 o f) := by
    show StableHlo.after (hostOps1 (F := Ideal)) (W4 m c) (Proc.devRef .tc main_v15) (ix2 f o) = _
    after_results
    exact weights_apply _ _ _ f o
  exact h.trans (congrFun (W4_arg3 m c) _)
/-- The padded node features are what the edge-tile region was given. -/
theorem V5_x (c : Dev nD) : nodeArr1 (V5 m) c = featP m c :=
  (StableHlo.after_of_writes_sub hostOps1 _ hostOps1_writes (by decide)).trans
    ((W4_arr m c 2).trans (((dat0 (V3 m) c).arrAt_in 2 rfl _).trans (A_eq0 (V3 m) c 2)))

/-! ## The result -/

theorem kernel_value (c : Dev nD) (hp : PreFacts (ax m c) (ae m c) (aw m c) (ab m c)) :
    resArr m c = G (ax m c) (ae m c) (aw m c) (ab m c) := by
  funext i
  obtain ⟨n, o, rfl⟩ : ∃ (n : Fin 10000) (o : Fin 128), i = ix2 n o := ⟨i 0, i 1, eq_ix2 i⟩
  have hn : n.val < 10112 := by have := n.isLt; omega
  have hcut : resArr m c (ix2 n o) = outArr m c (ix2 (⟨n.val, hn⟩ : Fin 10112) o) := by
    show StableHlo.after (hostOps2 (F := Ideal)) (W6 m c) (Proc.devRef .tc main_v17) (ix2 n o) = _
    after_results
    exact cut_apply _ _ n o
  have h16 : outArr m c = (dat1 (V5 m) c).arrAt 5 cfg1.N := W6_arr m c 5
  have hx : ∀ f : Fin 128, nodeArr1 (V5 m) c (ix2 (⟨n.val, hn⟩ : Fin 10112) f) = ax m c (ix2 n f) := by
    intro f
    rw [V5_x m c]
    exact (V3_x m c ⟨n.val, hn⟩ f).trans (dif_pos n.isLt)
  refine hcut.trans ((congrFun h16 _).trans ((arrAt1_5 (V5 m) c ⟨n.val, hn⟩ o).trans ?_))
  simp only [V5_agg m c hp, V5_deg m c, V5_wt m c, V5_bt m c, hx]
  rfl

end Cert.KernelIdeal.Hand

end
-- ==== Proof.lean ====
/- The proof of `Cert.Claim` (proofs.«420882_j76914274337236_3_alg».proof.Defs): a message-passing graph layer — every edge carries its
   source node's features to its destination, the sums are divided by the in-degree (by one at a node no edge reaches)
   and combined with two linear maps — computed by a tiled kernel and by a gather / segment-sum reference.

   The kernel turns each tile of 256 edges into two 0/1 matrices (source equals node, destination equals node) and
   multiplies: one product picks each edge's source row out of the node features, the transposed product adds those rows
   up per destination node; column sums of the second matrix count the edges per node. Two accumulators carry the sums
   across the 1250 tiles of each of the two halves of the edge list; a host sum joins the halves; a second kernel
   normalises a block of 128 nodes at a time and applies the two weight matrices.

   At the ideal instance a 0/1 matrix times a vector picks one entry or none, so the tiled sums are the reference's
   segment sums, PROVIDED every source word is a node number: the reference wraps negative indices and clamps the rest
   into range, where the kernel's 0/1 row is empty. The statement's precondition therefore asks, beside finite floats,
   that the source row of the edge array lies in [0, 10000). A destination word that is no node number is dropped by
   both programs.

   The three frames: both kernel programs run as seven segments (three stretches of host operations, the edge-tile
   region with its two carried accumulators, a stretch, the node-tile region, the final cut), each region's body run once
   per control case; the reference's frame is its run with the result dropped. `preserves` is the one format round trip
   the idealization removed (the 0/1 matrix narrowed to bf16 and widened back before the column sums). `algebraic`:
   the kernel's result buffer holds the specification `Cert.Spec.G` of the arguments (KI/KVal.lean), and so does the
   reference's (RefVal.lean). -/
import proofs.«420882_j76914274337236_3_alg».proof.Defs
import proofs.«420882_j76914274337236_3_alg».proof.Proof.Gen.Kernel
import proofs.«420882_j76914274337236_3_alg».proof.Proof.Gen.KernelIdeal
import proofs.«420882_j76914274337236_3_alg».proof.Proof.Gen.ReferenceIdeal
import proofs.«420882_j76914274337236_3_alg».proof.Proof.Gen.Pre_finite_inputs
import proofs.«420882_j76914274337236_3_alg».proof.Proof.RefRun
import proofs.«420882_j76914274337236_3_alg».proof.Proof.RefRead
import proofs.«420882_j76914274337236_3_alg».proof.Proof.Spec
import proofs.«420882_j76914274337236_3_alg».proof.Proof.Pre
import proofs.«420882_j76914274337236_3_alg».proof.Proof.RefVal
import proofs.«420882_j76914274337236_3_alg».proof.Proof.K.Frame
import proofs.«420882_j76914274337236_3_alg».proof.Proof.KI.Frame
import proofs.«420882_j76914274337236_3_alg».proof.Proof.KI.KVal
import Idealize.ShloMosaic.Adequacy
import Idealize.ShloMosaic.Init

noncomputable section

namespace Cert.Proof

open Idealize.ShloMosaic Idealize.SL.Sem

/-- The word-level kernel program runs to the end and leaves its arguments unchanged. -/
theorem frame_k : Cert.frame_Kernel := fun m ρ _ => Cert.Kernel.Hand.frame m ρ
/-- So does the idealized kernel program. -/
theorem frame_ki : Cert.frame_KernelIdeal := fun m ρ _ => Cert.KernelIdeal.Hand.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The one rewrite of the idealization: narrowing the 0/1 matrix to bf16 and widening it back is the identity at the
    ideal instance. -/
theorem preserves : Cert.preserves_Kernel_KernelIdeal := IdealRules.truncf_extf.statement _ .f32 .bf16

/-- From memories that agree on the arguments, under the precondition, both programs end with the specification of the
    arguments in their result buffers. -/
theorem algebraic : Cert.algebraic_KernelIdeal_ReferenceIdeal := by
  intro m ρ m' ρ' hpre hagree
  have hp : ∀ c : Dev Cert.KernelIdeal.nD, Cert.Spec.PreFacts (Cert.KernelIdeal.Hand.ax m c) (Cert.KernelIdeal.Hand.ae m c)
      (Cert.KernelIdeal.Hand.aw m c) (Cert.KernelIdeal.Hand.ab m c) := fun c => Cert.PreDecode.preFacts _ _ _ _ (hpre c)
  refine ⟨fun c => Cert.Spec.G (Cert.KernelIdeal.Hand.ax m c) (Cert.KernelIdeal.Hand.ae m c) (Cert.KernelIdeal.Hand.aw m c)
    (Cert.KernelIdeal.Hand.ab m c), ?_, ?_⟩
  · refine (θ_run Cert.KernelIdeal.defs _ _).mono (fun r h c => ?_) (Cert.KernelIdeal.Hand.run_all m ρ)
    exact ⟨(h c _ (Cert.KernelIdeal.Hand.mem_uc Cert.KernelIdeal.main_v17 (by decide))).trans (Cert.KernelIdeal.Hand.kernel_value m c (hp c)),
      (h c _ (Cert.KernelIdeal.Hand.mem_uc Cert.KernelIdeal.main_arg0 (by decide))).trans (Cert.KernelIdeal.Hand.W7_main_arg0 m c),
      (h c _ (Cert.KernelIdeal.Hand.mem_uc Cert.KernelIdeal.main_arg1 (by decide))).trans (Cert.KernelIdeal.Hand.W7_main_arg1 m c),
      (h c _ (Cert.KernelIdeal.Hand.mem_uc Cert.KernelIdeal.main_arg2 (by decide))).trans (Cert.KernelIdeal.Hand.W7_main_arg2 m c),
      (h c _ (Cert.KernelIdeal.Hand.mem_uc Cert.KernelIdeal.main_arg3 (by decide))).trans (Cert.KernelIdeal.Hand.W7_main_arg3 m c)⟩
  · refine (θ_run Cert.ReferenceIdeal.defs _ _).mono (fun _ h c => ⟨?_, (h c).2⟩)
      (Cert.ReferenceIdeal.ValueP.run (F := Ideal) m' ρ')
    rw [(h c).1, Cert.ReferenceIdeal.ReadP.val_main_v28_eq, (hagree c).1, (hagree c).2.1, (hagree c).2.2.1, (hagree c).2.2.2]
    exact Cert.RefVal.ref_eq _ _ _ _ (hp c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
